-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v56_0)) (v1 : (c : Dev Cert.KernelIdeal.nD) → Buf (Elt Ideal) ((c.tc : Thread Cert.KernelIdeal.nD Cert.KernelIdeal.τ).loc Cert.KernelIdeal.main_v56_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56_0) = v0 c
          ∧ r.2.mem ((c.tc : Thread Cert.KernelIdeal.nD Cert.KernelIdeal.τ).loc Cert.KernelIdeal.main_v56_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_v132) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S_ : Shape := ⟨0, ![]⟩

class Facts : Prop where
  bcast_S_S50000x96 : S_.BroadcastsInDim S50000x96 (![] : Fin 0 → Fin S50000x96.rank)
  reducesTo_S50000x96_S_d0_1 : S50000x96.ReducesTo [0, 1] S_
  h_S_ : 0 < S_.numel
  bcast_S_S96x96 : S_.BroadcastsInDim S96x96 (![] : Fin 0 → Fin S96x96.rank)
  reducesTo_S96x96_S_d0_1 : S96x96.ReducesTo [0, 1] S_
  bcast_S_S96 : S_.BroadcastsInDim S96 (![] : Fin 0 → Fin S96.rank)
  reducesTo_S96_S_d0 : S96.ReducesTo [0] S_
  bcast_S_S192x96 : S_.BroadcastsInDim S192x96 (![] : Fin 0 → Fin S192x96.rank)
  reducesTo_S192x96_S_d0_1 : S192x96.ReducesTo [0, 1] S_
  bcast_S_S800000 : S_.BroadcastsInDim S800000 (![] : Fin 0 → Fin S800000.rank)
  reducesTo_S800000_S_d0 : S800000.ReducesTo [0] S_

variable [Facts]

def fn_part3 {F : FTy → Type} [FloatOps F] (main_arg2 : IVec S800000 32) (main_arg3 : IVec S800000 32) (main_v48 : IVec S_ 1) (main_v50 : IVec S800000 1) : IVec S_ 1 :=
  let main_c_19 : IVec S_ 32 := constantI S_ 32 50000#32
  let main_v51 : IVec S800000 32 := broadcastInDim S800000 ![] bcast_S_S800000 main_c_19
  let main_v52 : IVec S800000 1 := cmpi .slt main_arg2 main_v51
  let main_v53 : IVec S800000 1 := andi main_v50 main_v52
  let main_c_20 : IVec S_ 1 := constantI S_ 1 1#1
  let main_v54 : IVec S_ 1 := (fun x v => Host.reduce IntOp.andi x v reducesTo_S800000_S_d0 h_S_) main_v53 main_c_20
  let main_v55 : IVec S_ 1 := andi main_v48 main_v54
  let main_c_21 : IVec S_ 32 := constantI S_ 32 0#32
  let main_v56 : IVec S800000 32 := broadcastInDim S800000 ![] bcast_S_S800000 main_c_21
  let main_v57 : IVec S800000 1 := cmpi .sge main_arg3 main_v56
  let main_c_22 : IVec S_ 32 := constantI S_ 32 50000#32
  let main_v58 : IVec S800000 32 := broadcastInDim S800000 ![] bcast_S_S800000 main_c_22
  let main_v59 : IVec S800000 1 := cmpi .slt main_arg3 main_v58
  let main_v60 : IVec S800000 1 := andi main_v57 main_v59
  let main_c_23 : IVec S_ 1 := constantI S_ 1 1#1
  let main_v61 : IVec S_ 1 := (fun x v => Host.reduce IntOp.andi x v reducesTo_S800000_S_d0 h_S_) main_v60 main_c_23
  let main_v62 : IVec S_ 1 := andi main_v55 main_v61
  main_v62

def fn_part2 {F : FTy → Type} [FloatOps F] (main_arg2 : IVec S800000 32) (main_arg3 : IVec S800000 32) (main_arg9 : FVec F S96 .f32) (main_arg10 : FVec F S96x96 .f32) (main_arg11 : FVec F S96 .f32) (main_v33 : IVec S_ 1) : IVec S_ 1 :=
  let main_v34 : FVec F S96 .f32 := Host.absf main_arg9
  let main_cst_12 : FVec F S_ .f32 := constant S_ .f32 0x7F800000#32
  let main_v35 : FVec F S96 .f32 := broadcastInDim S96 ![] bcast_S_S96 main_cst_12
  let main_v36 : IVec S96 1 := cmpf .olt main_v34 main_v35
  let main_c_13 : IVec S_ 1 := constantI S_ 1 1#1
  let main_v37 : IVec S_ 1 := (fun x v => Host.reduce IntOp.andi x v reducesTo_S96_S_d0 h_S_) main_v36 main_c_13
  let main_v38 : IVec S_ 1 := andi main_v33 main_v37
  let main_v39 : FVec F S96x96 .f32 := Host.absf main_arg10
  let main_cst_14 : FVec F S_ .f32 := constant S_ .f32 0x7F800000#32
  let main_v40 : FVec F S96x96 .f32 := broadcastInDim S96x96 ![] bcast_S_S96x96 main_cst_14
  let main_v41 : IVec S96x96 1 := cmpf .olt main_v39 main_v40
  let main_c_15 : IVec S_ 1 := constantI S_ 1 1#1
  let main_v42 : IVec S_ 1 := (fun x v => Host.reduce IntOp.andi x v reducesTo_S96x96_S_d0_1 h_S_) main_v41 main_c_15
  let main_v43 : IVec S_ 1 := andi main_v38 main_v42
  let main_v44 : FVec F S96 .f32 := Host.absf main_arg11
  let main_cst_16 : FVec F S_ .f32 := constant S_ .f32 0x7F800000#32
  let main_v45 : FVec F S96 .f32 := broadcastInDim S96 ![] bcast_S_S96 main_cst_16
  let main_v46 : IVec S96 1 := cmpf .olt main_v44 main_v45
  let main_c_17 : IVec S_ 1 := constantI S_ 1 1#1
  let main_v47 : IVec S_ 1 := (fun x v => Host.reduce IntOp.andi x v reducesTo_S96_S_d0 h_S_) main_v46 main_c_17
  let main_v48 : IVec S_ 1 := andi main_v43 main_v47
  let main_c_18 : IVec S_ 32 := constantI S_ 32 0#32
  let main_v49 : IVec S800000 32 := broadcastInDim S800000 ![] bcast_S_S800000 main_c_18
  let main_v50 : IVec S800000 1 := cmpi .sge main_arg2 main_v49
  fn_part3 (F := F) main_arg2 main_arg3 main_v48 main_v50

def fn_part1 {F : FTy → Type} [FloatOps F] (main_arg2 : IVec S800000 32) (main_arg3 : IVec S800000 32) (main_arg6 : FVec F S96x96 .f32) (main_arg7 : FVec F S96 .f32) (main_arg8 : FVec F S192x96 .f32) (main_arg9 : FVec F S96 .f32) (main_arg10 : FVec F S96x96 .f32) (main_arg11 : FVec F S96 .f32) (main_v13 : IVec S_ 1) (main_v16 : IVec S96 1) : IVec S_ 1 :=
  let main_c_5 : IVec S_ 1 := constantI S_ 1 1#1
  let main_v17 : IVec S_ 1 := (fun x v => Host.reduce IntOp.andi x v reducesTo_S96_S_d0 h_S_) main_v16 main_c_5
  let main_v18 : IVec S_ 1 := andi main_v13 main_v17
  let main_v19 : FVec F S96x96 .f32 := Host.absf main_arg6
  let main_cst_6 : FVec F S_ .f32 := constant S_ .f32 0x7F800000#32
  let main_v20 : FVec F S96x96 .f32 := broadcastInDim S96x96 ![] bcast_S_S96x96 main_cst_6
  let main_v21 : IVec S96x96 1 := cmpf .olt main_v19 main_v20
  let main_c_7 : IVec S_ 1 := constantI S_ 1 1#1
  let main_v22 : IVec S_ 1 := (fun x v => Host.reduce IntOp.andi x v reducesTo_S96x96_S_d0_1 h_S_) main_v21 main_c_7
  let main_v23 : IVec S_ 1 := andi main_v18 main_v22
  let main_v24 : FVec F S96 .f32 := Host.absf main_arg7
  let main_cst_8 : FVec F S_ .f32 := constant S_ .f32 0x7F800000#32
  let main_v25 : FVec F S96 .f32 := broadcastInDim S96 ![] bcast_S_S96 main_cst_8
  let main_v26 : IVec S96 1 := cmpf .olt main_v24 main_v25
  let main_c_9 : IVec S_ 1 := constantI S_ 1 1#1
  let main_v27 : IVec S_ 1 := (fun x v => Host.reduce IntOp.andi x v reducesTo_S96_S_d0 h_S_) main_v26 main_c_9
  let main_v28 : IVec S_ 1 := andi main_v23 main_v27
  let main_v29 : FVec F S192x96 .f32 := Host.absf main_arg8
  let main_cst_10 : FVec F S_ .f32 := constant S_ .f32 0x7F800000#32
  let main_v30 : FVec F S192x96 .f32 := broadcastInDim S192x96 ![] bcast_S_S192x96 main_cst_10
  let main_v31 : IVec S192x96 1 := cmpf .olt main_v29 main_v30
  let main_c_11 : IVec S_ 1 := constantI S_ 1 1#1
  let main_v32 : IVec S_ 1 := (fun x v => Host.reduce IntOp.andi x v reducesTo_S192x96_S_d0_1 h_S_) main_v31 main_c_11
  let main_v33 : IVec S_ 1 := andi main_v28 main_v32
  fn_part2 (F := F) main_arg2 main_arg3 main_arg9 main_arg10 main_arg11 main_v33

def fn {F : FTy → Type} [FloatOps F] (main_arg0 : FVec F S50000x96 .f32) (main_arg1 : FVec F S50000x96 .f32) (main_arg2 : IVec S800000 32) (main_arg3 : IVec S800000 32) (main_arg4 : FVec F S96x96 .f32) (main_arg5 : FVec F S96 .f32) (main_arg6 : FVec F S96x96 .f32) (main_arg7 : FVec F S96 .f32) (main_arg8 : FVec F S192x96 .f32) (main_arg9 : FVec F S96 .f32) (main_arg10 : FVec F S96x96 .f32) (main_arg11 : FVec F S96 .f32) : IVec S_ 1 :=
  let main_v0 : FVec F S50000x96 .f32 := Host.absf main_arg0
  let main_cst : FVec F S_ .f32 := constant S_ .f32 0x7F800000#32
  let main_v1 : FVec F S50000x96 .f32 := broadcastInDim S50000x96 ![] bcast_S_S50000x96 main_cst
  let main_v2 : IVec S50000x96 1 := cmpf .olt main_v0 main_v1
  let main_c : IVec S_ 1 := constantI S_ 1 1#1
  let main_v3 : IVec S_ 1 := (fun x v => Host.reduce IntOp.andi x v reducesTo_S50000x96_S_d0_1 h_S_) main_v2 main_c
  let main_v4 : FVec F S50000x96 .f32 := Host.absf main_arg1
  let main_cst_0 : FVec F S_ .f32 := constant S_ .f32 0x7F800000#32
  let main_v5 : FVec F S50000x96 .f32 := broadcastInDim S50000x96 ![] bcast_S_S50000x96 main_cst_0
  let main_v6 : IVec S50000x96 1 := cmpf .olt main_v4 main_v5
  let main_c_1 : IVec S_ 1 := constantI S_ 1 1#1
  let main_v7 : IVec S_ 1 := (fun x v => Host.reduce IntOp.andi x v reducesTo_S50000x96_S_d0_1 h_S_) main_v6 main_c_1
  let main_v8 : IVec S_ 1 := andi main_v3 main_v7
  let main_v9 : FVec F S96x96 .f32 := Host.absf main_arg4
  let main_cst_2 : FVec F S_ .f32 := constant S_ .f32 0x7F800000#32
  let main_v10 : FVec F S96x96 .f32 := broadcastInDim S96x96 ![] bcast_S_S96x96 main_cst_2
  let main_v11 : IVec S96x96 1 := cmpf .olt main_v9 main_v10
  let main_c_3 : IVec S_ 1 := constantI S_ 1 1#1
  let main_v12 : IVec S_ 1 := (fun x v => Host.reduce IntOp.andi x v reducesTo_S96x96_S_d0_1 h_S_) main_v11 main_c_3
  let main_v13 : IVec S_ 1 := andi main_v8 main_v12
  let main_v14 : FVec F S96 .f32 := Host.absf main_arg5
  let main_cst_4 : FVec F S_ .f32 := constant S_ .f32 0x7F800000#32
  let main_v15 : FVec F S96 .f32 := broadcastInDim S96 ![] bcast_S_S96 main_cst_4
  let main_v16 : IVec S96 1 := cmpf .olt main_v14 main_v15
  fn_part1 (F := F) main_arg2 main_arg3 main_arg6 main_arg7 main_arg8 main_arg9 main_arg10 main_arg11 main_v13 main_v16
-- ==== Kernel.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S50000x192 : Shape := ⟨2, ![50000, 192]⟩
abbrev S800000x192 : Shape := ⟨2, ![800000, 192]⟩
abbrev S1x96 : Shape := ⟨2, ![1, 96]⟩
abbrev S2000x192 : Shape := ⟨2, ![2000, 192]⟩
abbrev S2000x1 : Shape := ⟨2, ![2000, 1]⟩
abbrev S2000x96 : Shape := ⟨2, ![2000, 96]⟩

abbrev nBuf : Space → Nat
  | .hbm => 85
  | .vmem => 34
  | .smem => 0
  | _ => 0

abbrev bufTy : (tb : Table) → Fin (tcTables nBuf tb) → BufTy
  | .hbm, ⟨0, _⟩ => ⟨S50000x96, .f32⟩
  | .hbm, ⟨1, _⟩ => ⟨S50000x96, .f32⟩
  | .hbm, ⟨2, _⟩ => ⟨S800000, .i32⟩
  | .hbm, ⟨3, _⟩ => ⟨S800000, .i32⟩
  | .hbm, ⟨4, _⟩ => ⟨S96x96, .f32⟩
  | .hbm, ⟨5, _⟩ => ⟨S96, .f32⟩
  | .hbm, ⟨6, _⟩ => ⟨S96x96, .f32⟩
  | .hbm, ⟨7, _⟩ => ⟨S96, .f32⟩
  | .hbm, ⟨8, _⟩ => ⟨S192x96, .f32⟩
  | .hbm, ⟨9, _⟩ => ⟨S96, .f32⟩
  | .hbm, ⟨10, _⟩ => ⟨S96x96, .f32⟩
  | .hbm, ⟨11, _⟩ => ⟨S96, .f32⟩
  | .hbm, ⟨12, _⟩ => ⟨S_, .i32⟩
  | .hbm, ⟨13, _⟩ => ⟨S800000, .i32⟩
  | .hbm, ⟨14, _⟩ => ⟨S_, .i32⟩
  | .hbm, ⟨15, _⟩ => ⟨S50000, .i32⟩
  | .hbm, ⟨16, _⟩ => ⟨S800000x1, .i32⟩
  | .hbm, ⟨17, _⟩ => ⟨S50000, .i32⟩
  | .hbm, ⟨18, _⟩ => ⟨S50000, .f32⟩
  | .hbm, ⟨19, _⟩ => ⟨S_, .i32⟩
  | .hbm, ⟨20, _⟩ => ⟨S50000, .i32⟩
  | .hbm, ⟨21, _⟩ => ⟨S800000x1, .i32⟩
  | .hbm, ⟨22, _⟩ => ⟨S50000, .i32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S_, .f32⟩
  | .hbm, ⟨30, _⟩ => ⟨S50000, .f32⟩
  | .hbm, ⟨31, _⟩ => ⟨S50000, .f32⟩
  | .hbm, ⟨32, _⟩ => ⟨S50000, .f32⟩
  | .hbm, ⟨33, _⟩ => ⟨S50000, .f32⟩
  | .hbm, ⟨34, _⟩ => ⟨S50000x1, .f32⟩
  | .hbm, ⟨35, _⟩ => ⟨S50000x96, .f32⟩
  | .hbm, ⟨36, _⟩ => ⟨S50000x96, .f32⟩
  | .hbm, ⟨37, _⟩ => ⟨S50000x1, .f32⟩
  | .hbm, ⟨38, _⟩ => ⟨S50000x96, .f32⟩
  | .hbm, ⟨39, _⟩ => ⟨S50000x96, .f32⟩
  | .hbm, ⟨40, _⟩ => ⟨S50000x192, .f32⟩
  | .hbm, ⟨41, _⟩ => ⟨S_, .i32⟩
  | .hbm, ⟨42, _⟩ => ⟨S800000, .i32⟩
  | .hbm, ⟨43, _⟩ => ⟨S800000, .i1⟩
  | .hbm, ⟨44, _⟩ => ⟨S_, .i32⟩
  | .hbm, ⟨45, _⟩ => ⟨S800000, .i32⟩
  | .hbm, ⟨46, _⟩ => ⟨S800000, .i32⟩
  | .hbm, ⟨47, _⟩ => ⟨S800000, .i32⟩
  | .hbm, ⟨48, _⟩ => ⟨S800000x1, .i32⟩
  | .hbm, ⟨49, _⟩ => ⟨S800000x192, .f32⟩
  | .hbm, ⟨50, _⟩ => ⟨S_, .f32⟩
  | .hbm, ⟨51, _⟩ => ⟨S50000x192, .f32⟩
  | .hbm, ⟨52, _⟩ => ⟨S800000x1, .i32⟩
  | .hbm, ⟨53, _⟩ => ⟨S50000x192, .f32⟩
  | .hbm, ⟨54, _⟩ => ⟨S96x96, .f32⟩
  | .hbm, ⟨55, _⟩ => ⟨S96x96, .f32⟩
  | .hbm, ⟨56, _⟩ => ⟨S96x96, .f32⟩
  | .hbm, ⟨57, _⟩ => ⟨S96x96, .f32⟩
  | .hbm, ⟨58, _⟩ => ⟨S96x96, .f32⟩
  | .hbm, ⟨59, _⟩ => ⟨S96x96, .f32⟩
  | .hbm, ⟨60, _⟩ => ⟨S96x96, .f32⟩
  | .hbm, ⟨61, _⟩ => ⟨S1x96, .f32⟩
  | .hbm, ⟨62, _⟩ => ⟨S1x96, .f32⟩
  | .hbm, ⟨63, _⟩ => ⟨S1x96, .f32⟩
  | .hbm, ⟨64, _⟩ => ⟨S1x96, .f32⟩
  | .hbm, ⟨65, _⟩ => ⟨S50000x1, .f32⟩
  | .hbm, ⟨66, _⟩ => ⟨S50000x1, .f32⟩
  | .hbm, ⟨67, _⟩ => ⟨S50000x192, .f32⟩
  | .hbm, ⟨68, _⟩ => ⟨S_, .i32⟩
  | .hbm, ⟨69, _⟩ => ⟨S800000, .i32⟩
  | .hbm, ⟨70, _⟩ => ⟨S800000, .i1⟩
  | .hbm, ⟨71, _⟩ => ⟨S_, .i32⟩
  | .hbm, ⟨72, _⟩ => ⟨S800000, .i32⟩
  | .hbm, ⟨73, _⟩ => ⟨S800000, .i32⟩
  | .hbm, ⟨74, _⟩ => ⟨S800000, .i32⟩
  | .hbm, ⟨75, _⟩ => ⟨S800000x1, .i32⟩
  | .hbm, ⟨76, _⟩ => ⟨S800000x192, .f32⟩
  | .hbm, ⟨77, _⟩ => ⟨S_, .f32⟩
  | .hbm, ⟨78, _⟩ => ⟨S50000x192, .f32⟩
  | .hbm, ⟨79, _⟩ => ⟨S800000x1, .i32⟩
  | .hbm, ⟨80, _⟩ => ⟨S50000x192, .f32⟩
  | .hbm, ⟨81, _⟩ => ⟨S50000x96, .f32⟩
  | .hbm, ⟨82, _⟩ => ⟨S50000x96, .f32⟩
  | .hbm, ⟨83, _⟩ => ⟨S50000x96, .f32⟩
  | .hbm, ⟨84, _⟩ => ⟨S50000x96, .f32⟩
  | .local _ .vmem, ⟨0, _⟩ => ⟨S2000x192, .f32⟩
  | .local _ .vmem, ⟨1, _⟩ => ⟨S2000x192, .f32⟩
  | .local _ .vmem, ⟨2, _⟩ => ⟨S2000x1, .f32⟩
  | .local _ .vmem, ⟨3, _⟩ => ⟨S2000x1, .f32⟩
  | .local _ .vmem, ⟨4, _⟩ => ⟨S96x96, .f32⟩
  | .local _ .vmem, ⟨5, _⟩ => ⟨S1x96, .f32⟩
  | .local _ .vmem, ⟨6, _⟩ => ⟨S96x96, .f32⟩
  | .local _ .vmem, ⟨7, _⟩ => ⟨S1x96, .f32⟩
  | .local _ .vmem, ⟨8, _⟩ => ⟨S96x96, .f32⟩
  | .local _ .vmem, ⟨9, _⟩ => ⟨S96x96, .f32⟩
  | .local _ .vmem, ⟨10, _⟩ => ⟨S1x96, .f32⟩
  | .local _ .vmem, ⟨11, _⟩ => ⟨S96x96, .f32⟩
  | .local _ .vmem, ⟨12, _⟩ => ⟨S1x96, .f32⟩
  | .local _ .vmem, ⟨13, _⟩ => ⟨S96x96, .f32⟩
  | .local _ .vmem, ⟨14, _⟩ => ⟨S96x96, .f32⟩
  | .local _ .vmem, ⟨15, _⟩ => ⟨S96x96, .f32⟩
  | .local _ .vmem, ⟨16, _⟩ => ⟨S96x96, .f32⟩
  | .local _ .vmem, ⟨17, _⟩ => ⟨S96x96, .f32⟩
  | .local _ .vmem, ⟨18, _⟩ => ⟨S2000x192, .f32⟩
  | .local _ .vmem, ⟨19, _⟩ => ⟨S2000x192, .f32⟩
  | .local _ .vmem, ⟨20, _⟩ => ⟨S2000x96, .f32⟩
  | .local _ .vmem, ⟨21, _⟩ => ⟨S2000x96, .f32⟩
  | .local _ .vmem, ⟨22, _⟩ => ⟨S2000x96, .f32⟩
  | .local _ .vmem, ⟨23, _⟩ => ⟨S2000x96, .f32⟩
  | .local _ .vmem, ⟨24, _⟩ => ⟨S2000x1, .f32⟩
  | .local _ .vmem, ⟨25, _⟩ => ⟨S2000x1, .f32⟩
  | .local _ .vmem, ⟨26, _⟩ => ⟨S2000x96, .f32⟩
  | .local _ .vmem, ⟨27, _⟩ => ⟨S2000x96, .f32⟩
  | .local _ .vmem, ⟨28, _⟩ => ⟨S2000x96, .f32⟩
  | .local _ .vmem, ⟨29, _⟩ => ⟨S2000x96, .f32⟩
  | .local _ .vmem, ⟨30, _⟩ => ⟨S2000x96, .f32⟩
  | .local _ .vmem, ⟨31, _⟩ => ⟨S2000x96, .f32⟩
  | .local _ .vmem, ⟨32, _⟩ => ⟨S2000x96, .f32⟩
  | .local _ .vmem, ⟨33, _⟩ => ⟨S2000x96, .f32⟩
  | _, _ => ⟨S50000x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_c_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_c_1 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_cst : Ref sig .tc := ⟨.hbm, 24, rfl⟩
abbrev main_call0_v0 : Ref sig .tc := ⟨.hbm, 25, rfl⟩
abbrev main_call0_v1 : Ref sig .tc := ⟨.hbm, 26, rfl⟩
abbrev main_v9 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_c_3 : Ref sig .tc := ⟨.hbm, 41, rfl⟩
abbrev main_v20 : Ref sig .tc := ⟨.hbm, 42, rfl⟩
abbrev main_v21 : Ref sig .tc := ⟨.hbm, 43, rfl⟩
abbrev main_c_4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_5 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_6 : Ref sig .tc := ⟨.hbm, 68, rfl⟩
abbrev main_v44 : Ref sig .tc := ⟨.hbm, 69, rfl⟩
abbrev main_v45 : Ref sig .tc := ⟨.hbm, 70, rfl⟩
abbrev main_c_7 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_cst_8 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56_0 : Ref sig .tc := ⟨.hbm, 83, rfl⟩
abbrev main_v56_1 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg16_0 : Ref sig .tc := ⟨.vmem, 18, rfl⟩
abbrev cc0_stg16_1 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem16_0 : DmaSem sig := 18
abbrev cc0_sem16_1 : DmaSem sig := 19
abbrev cc1_sem0_0 : DmaSem sig := 20
abbrev cc1_sem0_1 : DmaSem sig := 21
abbrev cc1_sem1_0 : DmaSem sig := 22
abbrev cc1_sem1_1 : DmaSem sig := 23
abbrev cc1_sem2_0 : DmaSem sig := 24
abbrev cc1_sem2_1 : DmaSem sig := 25
abbrev cc1_sem3_0 : DmaSem sig := 26
abbrev cc1_sem3_1 : DmaSem sig := 27
abbrev cc1_sem4_0 : DmaSem sig := 28
abbrev cc1_sem4_1 : DmaSem sig := 29
abbrev cc1_sem5_0 : DmaSem sig := 30
abbrev cc1_sem5_1 : DmaSem sig := 31
abbrev cc1_sem6_0 : DmaSem sig := 32
abbrev cc1_sem6_1 : DmaSem sig := 33

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S96x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S96x96 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x96 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S96x96 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S96x96 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S96x96 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x96 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S96x96 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S96x96 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S96x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S96x96 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S96x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S2000x192 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x96 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x96 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x96 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x96 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x96 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  concatenates_S50000x96_S50000x96_S50000x192_d1 : Shape.Concatenates [S50000x96, S50000x96] S50000x192 1
  bcast_S_S50000x192 : S_.BroadcastsInDim S50000x192 (![] : Fin 0 → Fin S50000x192.rank)
  slices_S192x96_S96x96_0_0 : S192x96.Slices ![0, 0] S96x96
  slices_S192x96_S96x96_96_0 : S192x96.Slices ![96, 0] S96x96
  transposes_S96x96_S96x96_1_0 : S96x96.Transposes [1, 0] S96x96
  shapeCasts_S96_S1x96 : S96.ShapeCasts S1x96
  shapeCasts_S50000_S50000x1 : S50000.ShapeCasts S50000x1
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  inb_S2000x192_S2000x192_0_0 : ∀ a, (![0, 0] : Fin 2 → Nat) a + S2000x192.size a ≤ S2000x192.size a
  h_S2000x192 : 0 < S2000x192.numel
  shapeCasts_S2000x192_S2000x192 : S2000x192.ShapeCasts S2000x192
  slices_S2000x192_o0_0_S2000x96 : S2000x192.Slices ![0, 0] S2000x96
  broadcasts_S2000x1_S2000x96 : S2000x1.Broadcasts S2000x96
  slices_S2000x192_o0_96_S2000x96 : S2000x192.Slices ![0, 96] S2000x96
  inb_S96x96_S96x96_0_0 : ∀ a, (![0, 0] : Fin 2 → Nat) a + S96x96.size a ≤ S96x96.size a
  h_S96x96 : 0 < S96x96.numel
  inb_S1x96_S1x96_0_0 : ∀ a, (![0, 0] : Fin 2 → Nat) a + S1x96.size a ≤ S1x96.size a
  h_S1x96 : 0 < S1x96.numel
  shapeCasts_S1x96_S1x96 : S1x96.ShapeCasts S1x96
  broadcasts_S1x96_S2000x96 : S1x96.Broadcasts S2000x96
  shapeCasts_S96x96_S96x96 : S96x96.ShapeCasts S96x96
  inb_S2000x192_S2000x96_0_0 : ∀ a, (![0, 0] : Fin 2 → Nat) a + S2000x96.size a ≤ S2000x192.size a
  h_S2000x96 : 0 < S2000x96.numel
  inb_S2000x192_S2000x96_0_96 : ∀ a, (![0, 96] : Fin 2 → Nat) a + S2000x96.size a ≤ S2000x192.size a
  slices_S50000x192_S50000x96_0_0 : S50000x192.Slices ![0, 0] S50000x96
  slices_S50000x192_S50000x96_0_96 : S50000x192.Slices ![0, 96] S50000x96
  inb_S2000x96_S2000x96_0_0 : ∀ a, (![0, 0] : Fin 2 → Nat) a + S2000x96.size a ≤ S2000x96.size a
  shapeCasts_S2000x96_S2000x96 : S2000x96.ShapeCasts S2000x96
  scatter_S50000_S800000x1_S800000_n_0_0_1_wf : ScatterDims.WF S50000 S800000x1 S800000 [] [0] [0] 1
  gather_S50000x192_S800000x1_S800000x192_1_0_n_n_0_1_1192_wf : GatherDims.WF S50000x192 S800000x1 S800000x192 [1] [0] [] [0] [] 1 ![1, 192]
  scatter_S50000x192_S800000x1_S800000x192_1_0_0_1_wf : ScatterDims.WF S50000x192 S800000x1 S800000x192 [1] [0] [0] 1
  dot_S2000x96_S96x96_S2000x96_1_0_0_1_n_n_wf : DotDims.WF S2000x96 S96x96 S2000x96 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x192.size a ≤ S50000x192.size a
  hwx0_0 : ∀ i : grid0.Coords, EltTy.bits .f32 = 32 ∨ (Rect.block (s := S50000x192) S2000x192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S96x96.size a ≤ S96x96.size a
  hwx0_2 : ∀ i : grid0.Coords, EltTy.bits .f32 = 32 ∨ (Rect.block (s := S96x96) S96x96.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x96.size a ≤ S1x96.size a
  hwx0_3 : ∀ i : grid0.Coords, EltTy.bits .f32 = 32 ∨ (Rect.block (s := S1x96) S1x96.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S96x96.size a ≤ S96x96.size a
  hwx0_4 : ∀ i : grid0.Coords, EltTy.bits .f32 = 32 ∨ (Rect.block (s := S96x96) S96x96.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x96.size a ≤ S1x96.size a
  hwx0_5 : ∀ i : grid0.Coords, EltTy.bits .f32 = 32 ∨ (Rect.block (s := S1x96) S1x96.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S96x96.size a ≤ S96x96.size a
  hwx0_6 : ∀ i : grid0.Coords, EltTy.bits .f32 = 32 ∨ (Rect.block (s := S96x96) S96x96.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S96x96.size a ≤ S96x96.size a
  hwx0_7 : ∀ i : grid0.Coords, EltTy.bits .f32 = 32 ∨ (Rect.block (s := S96x96) S96x96.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x96.size a ≤ S1x96.size a
  hwx0_8 : ∀ i : grid0.Coords, EltTy.bits .f32 = 32 ∨ (Rect.block (s := S1x96) S1x96.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S96x96.size a ≤ S96x96.size a
  hwx0_9 : ∀ i : grid0.Coords, EltTy.bits .f32 = 32 ∨ (Rect.block (s := S96x96) S96x96.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x96.size a ≤ S1x96.size a
  hwx0_10 : ∀ i : grid0.Coords, EltTy.bits .f32 = 32 ∨ (Rect.block (s := S1x96) S1x96.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S96x96.size a ≤ S96x96.size a
  hwx0_11 : ∀ i : grid0.Coords, EltTy.bits .f32 = 32 ∨ (Rect.block (s := S96x96) S96x96.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S96x96.size a ≤ S96x96.size a
  hwx0_12 : ∀ i : grid0.Coords, EltTy.bits .f32 = 32 ∨ (Rect.block (s := S96x96) S96x96.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S96x96.size a ≤ S96x96.size a
  hwx0_13 : ∀ i : grid0.Coords, EltTy.bits .f32 = 32 ∨ (Rect.block (s := S96x96) S96x96.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S96x96.size a ≤ S96x96.size a
  hwx0_14 : ∀ i : grid0.Coords, EltTy.bits .f32 = 32 ∨ (Rect.block (s := S96x96) S96x96.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S96x96.size a ≤ S96x96.size a
  hwx0_15 : ∀ i : grid0.Coords, EltTy.bits .f32 = 32 ∨ (Rect.block (s := S96x96) S96x96.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x192.size a ≤ S50000x192.size a
  hwx0_16 : ∀ i : grid0.Coords, EltTy.bits .f32 = 32 ∨ (Rect.block (s := S50000x192) S2000x192.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x96.size a ≤ S50000x96.size a
  hwx1_0 : ∀ i : grid1.Coords, EltTy.bits .f32 = 32 ∨ (Rect.block (s := S50000x96) S2000x96.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x96.size a ≤ S50000x96.size a
  hwx1_1 : ∀ i : grid1.Coords, EltTy.bits .f32 = 32 ∨ (Rect.block (s := S50000x96) S2000x96.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x96.size a ≤ S50000x96.size a
  hwx1_3 : ∀ i : grid1.Coords, EltTy.bits .f32 = 32 ∨ (Rect.block (s := S50000x96) S2000x96.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x96.size a ≤ S50000x96.size a
  hwx1_4 : ∀ i : grid1.Coords, EltTy.bits .f32 = 32 ∨ (Rect.block (s := S50000x96) S2000x96.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x96.size a ≤ S50000x96.size a
  hwx1_5 : ∀ i : grid1.Coords, EltTy.bits .f32 = 32 ∨ (Rect.block (s := S50000x96) S2000x96.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x96.size a ≤ S50000x96.size a
  hwx1_6 : ∀ i : grid1.Coords, EltTy.bits .f32 = 32 ∨ (Rect.block (s := S50000x96) S2000x96.size (cc1_transform_6 i) (hinb1_6 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x192_S800000x1_S800000x192_1_0_n_n_0_1_1192 : GatherDims S50000x192 S800000x1 S800000x192 where
  offsetDims := [1]
  collapsedSliceDims := [0]
  operandBatchingDims := []
  startIndicesBatchingDims := []
  startIndexMap := [0]
  indexVectorDim := 1
  sliceSizes := ![1, 192]
  wf := gather_S50000x192_S800000x1_S800000x192_1_0_n_n_0_1_1192_wf
def scatter_S50000x192_S800000x1_S800000x192_1_0_0_1 : ScatterDims S50000x192 S800000x1 S800000x192 where
  updateWindowDims := [1]
  insertedWindowDims := [0]
  scatterDimsToOperandDims := [0]
  indexVectorDim := 1
  wf := scatter_S50000x192_S800000x1_S800000x192_1_0_0_1_wf
def dot_S2000x96_S96x96_S2000x96_1_0_0_1_n_n : DotDims S2000x96 S96x96 S2000x96 where
  lhsContracting := [1]
  rhsContracting := [0]
  lhsNonContracting := [0]
  rhsNonContracting := [1]
  lhsBatch := []
  rhsBatch := []
  wf := dot_S2000x96_S96x96_S2000x96_1_0_0_1_n_n_wf

abbrev win0_0 : Pipeline.Window sig grid0 :=
  Pipeline.Window.ofSpec (Memref.whole main_v29) S2000x192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v41) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S96x96.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x96.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S96x96.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v38) S1x96.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S96x96.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v31) S96x96.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v39) S1x96.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S96x96.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v40) S1x96.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v32) S96x96.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v33) S96x96.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v34) S96x96.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v35) S96x96.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v36) S96x96.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v43) S2000x192.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_v54) S2000x96.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v55) S2000x96.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v42) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S2000x96.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg1) S2000x96.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v56_0) S2000x96.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v56_1) S2000x96.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S50000x96 : Shape := ⟨2, ![50000, 96]⟩
abbrev S800000 : Shape := ⟨1, ![800000]⟩
abbrev S96x96 : Shape := ⟨2, ![96, 96]⟩
abbrev S96 : Shape := ⟨1, ![96]⟩
abbrev S192x96 : Shape := ⟨2, ![192, 96]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x96 : Shape := ⟨2, ![800000, 96]⟩
abbrev S1x96 : Shape := ⟨2, ![1, 96]⟩
abbrev S50000x192 : Shape := ⟨2, ![50000, 192]⟩
abbrev S1 : Shape := ⟨1, ![1]⟩
abbrev S1x1 : Shape := ⟨2, ![1, 1]⟩

abbrev nBuf : Space → Nat
  | .hbm => 188
  | .vmem => 0
  | .smem => 0
  | _ => 0

abbrev hbmTy0_0 (i : Nat) : BufTy := match i % 128 with
  | 0 => ⟨S50000x96, .f32⟩
  | 1 => ⟨S50000x96, .f32⟩
  | 2 => ⟨S800000, .i32⟩
  | 3 => ⟨S800000, .i32⟩
  | 4 => ⟨S96x96, .f32⟩
  | 5 => ⟨S96, .f32⟩
  | 6 => ⟨S96x96, .f32⟩
  | 7 => ⟨S96, .f32⟩
  | 8 => ⟨S192x96, .f32⟩
  | 9 => ⟨S96, .f32⟩
  | 10 => ⟨S96x96, .f32⟩
  | 11 => ⟨S96, .f32⟩
  | 12 => ⟨S_, .f32⟩
  | 13 => ⟨S800000, .f32⟩
  | 14 => ⟨S_, .f32⟩
  | 15 => ⟨S50000, .f32⟩
  | 16 => ⟨S800000x1, .i32⟩
  | 17 => ⟨S50000, .f32⟩
  | 18 => ⟨S_, .f32⟩
  | 19 => ⟨S_, .f32⟩
  | 20 => ⟨S50000, .f32⟩
  | 21 => ⟨S50000, .f32⟩
  | 22 => ⟨S_, .f32⟩
  | 23 => ⟨S50000, .f32⟩
  | 24 => ⟨S800000x1, .i32⟩
  | 25 => ⟨S50000, .f32⟩
  | 26 => ⟨S_, .f32⟩
  | 27 => ⟨S_, .f32⟩
  | 28 => ⟨S50000, .f32⟩
  | 29 => ⟨S50000, .f32⟩
  | 30 => ⟨S50000, .f32⟩
  | 31 => ⟨S50000x1, .f32⟩
  | 32 => ⟨S50000x96, .f32⟩
  | 33 => ⟨S50000x96, .f32⟩
  | 34 => ⟨S_, .i32⟩
  | 35 => ⟨S800000, .i32⟩
  | 36 => ⟨S800000, .i1⟩
  | 37 => ⟨S_, .i32⟩
  | 38 => ⟨S800000, .i32⟩
  | 39 => ⟨S800000, .i32⟩
  | 40 => ⟨S800000, .i32⟩
  | 41 => ⟨S800000x1, .i32⟩
  | 42 => ⟨S800000x96, .f32⟩
  | 43 => ⟨S_, .f32⟩
  | 44 => ⟨S50000x96, .f32⟩
  | 45 => ⟨S800000x1, .i32⟩
  | 46 => ⟨S50000x96, .f32⟩
  | 47 => ⟨S_, .f32⟩
  | 48 => ⟨S50000x96, .f32⟩
  | 49 => ⟨S50000, .f32⟩
  | 50 => ⟨S50000x1, .f32⟩
  | 51 => ⟨S50000x96, .f32⟩
  | 52 => ⟨S50000x96, .f32⟩
  | 53 => ⟨S50000x96, .f32⟩
  | 54 => ⟨S1x96, .f32⟩
  | 55 => ⟨S50000x96, .f32⟩
  | 56 => ⟨S50000x96, .f32⟩
  | 57 => ⟨S_, .f32⟩
  | 58 => ⟨S800000, .f32⟩
  | 59 => ⟨S_, .f32⟩
  | 60 => ⟨S50000, .f32⟩
  | 61 => ⟨S800000x1, .i32⟩
  | 62 => ⟨S50000, .f32⟩
  | 63 => ⟨S_, .f32⟩
  | 64 => ⟨S_, .f32⟩
  | 65 => ⟨S50000, .f32⟩
  | 66 => ⟨S50000, .f32⟩
  | 67 => ⟨S_, .f32⟩
  | 68 => ⟨S50000, .f32⟩
  | 69 => ⟨S800000x1, .i32⟩
  | 70 => ⟨S50000, .f32⟩
  | 71 => ⟨S_, .f32⟩
  | 72 => ⟨S_, .f32⟩
  | 73 => ⟨S50000, .f32⟩
  | 74 => ⟨S50000, .f32⟩
  | 75 => ⟨S50000, .f32⟩
  | 76 => ⟨S50000x1, .f32⟩
  | 77 => ⟨S50000x96, .f32⟩
  | 78 => ⟨S50000x96, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x96, .f32⟩
  | 88 => ⟨S_, .f32⟩
  | 89 => ⟨S50000x96, .f32⟩
  | 90 => ⟨S800000x1, .i32⟩
  | 91 => ⟨S50000x96, .f32⟩
  | 92 => ⟨S_, .f32⟩
  | 93 => ⟨S50000x96, .f32⟩
  | 94 => ⟨S50000, .f32⟩
  | 95 => ⟨S50000x1, .f32⟩
  | 96 => ⟨S50000x96, .f32⟩
  | 97 => ⟨S50000x96, .f32⟩
  | 98 => ⟨S50000x96, .f32⟩
  | 99 => ⟨S1x96, .f32⟩
  | 100 => ⟨S50000x96, .f32⟩
  | 101 => ⟨S50000x96, .f32⟩
  | 102 => ⟨S50000x192, .f32⟩
  | 103 => ⟨S50000x96, .f32⟩
  | 104 => ⟨S1x96, .f32⟩
  | 105 => ⟨S50000x96, .f32⟩
  | 106 => ⟨S50000x96, .f32⟩
  | 107 => ⟨S50000x96, .f32⟩
  | 108 => ⟨S_, .f32⟩
  | 109 => ⟨S50000x96, .f32⟩
  | 110 => ⟨S50000x96, .f32⟩
  | 111 => ⟨S50000x96, .f32⟩
  | 112 => ⟨S1x96, .f32⟩
  | 113 => ⟨S50000x96, .f32⟩
  | 114 => ⟨S50000x96, .f32⟩
  | 115 => ⟨S50000x96, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S_, .f32⟩
  | 123 => ⟨S50000x96, .f32⟩
  | 124 => ⟨S50000x96, .f32⟩
  | 125 => ⟨S50000x96, .f32⟩
  | 126 => ⟨S50000x96, .f32⟩
  | 127 => ⟨S50000x96, .f32⟩
  | _ => ⟨S50000x96, .f32⟩

abbrev hbmTy0_1 (i : Nat) : BufTy := match i % 128 with
  | 0 => ⟨S50000x96, .f32⟩
  | 1 => ⟨S50000x96, .f32⟩
  | 2 => ⟨S50000x96, .f32⟩
  | 3 => ⟨S50000x192, .f32⟩
  | 4 => ⟨S50000x96, .f32⟩
  | 5 => ⟨S50000x96, .f32⟩
  | 6 => ⟨S50000x96, .f32⟩
  | 7 => ⟨S50000x96, .f32⟩
  | 8 => ⟨S50000x96, .f32⟩
  | 9 => ⟨S1, .i32⟩
  | 10 => ⟨S_, .i32⟩
  | 11 => ⟨S800000x1, .i32⟩
  | 12 => ⟨S800000x1, .i1⟩
  | 13 => ⟨S1x1, .i32⟩
  | 14 => ⟨S800000x1, .i32⟩
  | 15 => ⟨S800000x1, .i1⟩
  | 16 => ⟨S800000x1, .i1⟩
  | 17 => ⟨S_, .i1⟩
  | 18 => ⟨S800000, .i1⟩
  | 19 => ⟨S800000x96, .f32⟩
  | 20 => ⟨S800000x96, .i1⟩
  | 21 => ⟨S_, .f32⟩
  | 22 => ⟨S800000x96, .f32⟩
  | 23 => ⟨S800000x96, .f32⟩
  | 24 => ⟨S_, .f32⟩
  | 25 => ⟨S50000x96, .f32⟩
  | 26 => ⟨S50000x96, .f32⟩
  | 27 => ⟨S50000x96, .f32⟩
  | 28 => ⟨S50000x96, .f32⟩
  | 29 => ⟨S50000x96, .f32⟩
  | 30 => ⟨S50000x96, .f32⟩
  | 31 => ⟨S50000x96, .f32⟩
  | 32 => ⟨S1, .i32⟩
  | 33 => ⟨S_, .i32⟩
  | 34 => ⟨S800000x1, .i32⟩
  | 35 => ⟨S800000x1, .i1⟩
  | 36 => ⟨S1x1, .i32⟩
  | 37 => ⟨S800000x1, .i32⟩
  | 38 => ⟨S800000x1, .i1⟩
  | 39 => ⟨S800000x1, .i1⟩
  | 40 => ⟨S_, .i1⟩
  | 41 => ⟨S800000, .i1⟩
  | 42 => ⟨S800000x96, .f32⟩
  | 43 => ⟨S800000x96, .i1⟩
  | 44 => ⟨S_, .f32⟩
  | 45 => ⟨S800000x96, .f32⟩
  | 46 => ⟨S800000x96, .f32⟩
  | 47 => ⟨S_, .f32⟩
  | 48 => ⟨S50000x96, .f32⟩
  | 49 => ⟨S50000x96, .f32⟩
  | 50 => ⟨S50000x96, .f32⟩
  | 51 => ⟨S50000x96, .f32⟩
  | 52 => ⟨S_, .f32⟩
  | 53 => ⟨S50000x96, .f32⟩
  | 54 => ⟨S50000x96, .f32⟩
  | 55 => ⟨S50000x96, .f32⟩
  | 56 => ⟨S_, .f32⟩
  | 57 => ⟨S50000x96, .f32⟩
  | 58 => ⟨S50000x96, .f32⟩
  | 59 => ⟨S50000x96, .f32⟩
  | _ => ⟨S50000x96, .f32⟩

abbrev hbmTy (i : Nat) : BufTy := match i / 128 with
  | 0 => hbmTy0_0 i
  | 1 => hbmTy0_1 i
  | _ => ⟨S50000x96, .f32⟩

abbrev bufTy : (tb : Table) → Fin (tcTables nBuf tb) → BufTy
  | .hbm, ⟨i, _⟩ => hbmTy i
  | _, _ => ⟨S50000x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_v4 : Ref sig .tc := ⟨.hbm, 21, rfl⟩
abbrev main_cst_2 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_cst_3 : Ref sig .tc := ⟨.hbm, 26, rfl⟩
abbrev main_call1_v0 : Ref sig .tc := ⟨.hbm, 27, rfl⟩
abbrev main_call1_v1 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_c : Ref sig .tc := ⟨.hbm, 34, rfl⟩
abbrev main_v13 : Ref sig .tc := ⟨.hbm, 35, rfl⟩
abbrev main_v14 : Ref sig .tc := ⟨.hbm, 36, rfl⟩
abbrev main_c_4 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_5 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_cst_6 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_cst_7 : Ref sig .tc := ⟨.hbm, 57, rfl⟩
abbrev main_v32 : Ref sig .tc := ⟨.hbm, 58, rfl⟩
abbrev main_cst_8 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_9 : Ref sig .tc := ⟨.hbm, 63, rfl⟩
abbrev main_call2_v0 : Ref sig .tc := ⟨.hbm, 64, rfl⟩
abbrev main_call2_v1 : Ref sig .tc := ⟨.hbm, 65, rfl⟩
abbrev main_v36 : Ref sig .tc := ⟨.hbm, 66, rfl⟩
abbrev main_cst_10 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_cst_11 : Ref sig .tc := ⟨.hbm, 71, rfl⟩
abbrev main_call3_v0 : Ref sig .tc := ⟨.hbm, 72, rfl⟩
abbrev main_call3_v1 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_c_12 : Ref sig .tc := ⟨.hbm, 79, rfl⟩
abbrev main_v45 : Ref sig .tc := ⟨.hbm, 80, rfl⟩
abbrev main_v46 : Ref sig .tc := ⟨.hbm, 81, rfl⟩
abbrev main_c_13 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_14 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_cst_15 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_cst_16 : Ref sig .tc := ⟨.hbm, 108, rfl⟩
abbrev main_v70 : Ref sig .tc := ⟨.hbm, 109, rfl⟩
abbrev main_v71 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_17 : Ref sig .tc := ⟨.hbm, 116, rfl⟩
abbrev main_v77 : Ref sig .tc := ⟨.hbm, 117, rfl⟩
abbrev main_cst_18 : Ref sig .tc := ⟨.hbm, 118, rfl⟩
abbrev main_v78 : Ref sig .tc := ⟨.hbm, 119, rfl⟩
abbrev main_cst_19 : Ref sig .tc := ⟨.hbm, 120, rfl⟩
abbrev main_cst_20 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_c_21 : Ref sig .tc := ⟨.hbm, 137, rfl⟩
abbrev main_c_22 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_c_23 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_24 : Ref sig .tc := ⟨.hbm, 149, rfl⟩
abbrev main_v103 : Ref sig .tc := ⟨.hbm, 150, rfl⟩
abbrev main_v104 : Ref sig .tc := ⟨.hbm, 151, rfl⟩
abbrev main_cst_25 : Ref sig .tc := ⟨.hbm, 152, rfl⟩
abbrev main_v105 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_c_26 : Ref sig .tc := ⟨.hbm, 160, rfl⟩
abbrev main_c_27 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_c_28 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_cst_29 : Ref sig .tc := ⟨.hbm, 172, rfl⟩
abbrev main_v121 : Ref sig .tc := ⟨.hbm, 173, rfl⟩
abbrev main_v122 : Ref sig .tc := ⟨.hbm, 174, rfl⟩
abbrev main_cst_30 : Ref sig .tc := ⟨.hbm, 175, rfl⟩
abbrev main_v123 : Ref sig .tc := ⟨.hbm, 176, rfl⟩
abbrev main_v124 : Ref sig .tc := ⟨.hbm, 177, rfl⟩
abbrev main_v125 : Ref sig .tc := ⟨.hbm, 178, rfl⟩
abbrev main_v126 : Ref sig .tc := ⟨.hbm, 179, rfl⟩
abbrev main_cst_31 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_32 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  bcast_S50000x1_S50000x96_0_1 : S50000x1.BroadcastsInDim S50000x96 (![0, 1] : Fin 2 → Fin S50000x96.rank)
  bcast_S_S50000x96 : S_.BroadcastsInDim S50000x96 (![] : Fin 0 → Fin S50000x96.rank)
  bcast_S96_S1x96_1 : S96.BroadcastsInDim S1x96 (![1] : Fin 1 → Fin S1x96.rank)
  bcast_S1x96_S50000x96_0_1 : S1x96.BroadcastsInDim S50000x96 (![0, 1] : Fin 2 → Fin S50000x96.rank)
  concatenates_S50000x96_S50000x96_S50000x192_d1 : Shape.Concatenates [S50000x96, S50000x96] S50000x192 1
  reducesTo_S50000x96_S_d0_1 : S50000x96.ReducesTo [0, 1] S_
  h_S_ : 0 < S_.numel
  slices_S50000x192_S50000x96_0_0 : S50000x192.Slices ![0, 0] S50000x96
  slices_S50000x192_S50000x96_0_96 : S50000x192.Slices ![0, 96] S50000x96
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  bcast_S800000_S800000x96_0 : S800000.BroadcastsInDim S800000x96 (![0] : Fin 1 → Fin S800000x96.rank)
  bcast_S_S800000x96 : S_.BroadcastsInDim S800000x96 (![] : Fin 0 → Fin S800000x96.rank)
  scatter_S50000_S800000x1_S800000_n_0_0_1_wf : ScatterDims.WF S50000 S800000x1 S800000 [] [0] [0] 1
  gather_S50000x96_S800000x1_S800000x96_1_0_n_n_0_1_196_wf : GatherDims.WF S50000x96 S800000x1 S800000x96 [1] [0] [] [0] [] 1 ![1, 96]
  scatter_S50000x96_S800000x1_S800000x96_1_0_0_1_wf : ScatterDims.WF S50000x96 S800000x1 S800000x96 [1] [0] [0] 1
  dot_S50000x96_S96x96_S50000x96_1_0_0_1_n_n_wf : DotDims.WF S50000x96 S96x96 S50000x96 [1] [0] [0] [1] [] []
  dot_S50000x192_S192x96_S50000x96_1_0_0_1_n_n_wf : DotDims.WF S50000x192 S192x96 S50000x96 [1] [0] [0] [1] [] []
  dot_S50000x96_S96x96_S50000x96_1_1_0_0_n_n_wf : DotDims.WF S50000x96 S96x96 S50000x96 [1] [1] [0] [0] [] []
  dot_S50000x96_S192x96_S50000x192_1_1_0_0_n_n_wf : DotDims.WF S50000x96 S192x96 S50000x192 [1] [1] [0] [0] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x96_S800000x1_S800000x96_1_0_n_n_0_1_196 : GatherDims S50000x96 S800000x1 S800000x96 where
  offsetDims := [1]
  collapsedSliceDims := [0]
  operandBatchingDims := []
  startIndicesBatchingDims := []
  startIndexMap := [0]
  indexVectorDim := 1
  sliceSizes := ![1, 96]
  wf := gather_S50000x96_S800000x1_S800000x96_1_0_n_n_0_1_196_wf
def scatter_S50000x96_S800000x1_S800000x96_1_0_0_1 : ScatterDims S50000x96 S800000x1 S800000x96 where
  updateWindowDims := [1]
  insertedWindowDims := [0]
  scatterDimsToOperandDims := [0]
  indexVectorDim := 1
  wf := scatter_S50000x96_S800000x1_S800000x96_1_0_0_1_wf
def dot_S50000x96_S96x96_S50000x96_1_0_0_1_n_n : DotDims S50000x96 S96x96 S50000x96 where
  lhsContracting := [1]
  rhsContracting := [0]
  lhsNonContracting := [0]
  rhsNonContracting := [1]
  lhsBatch := []
  rhsBatch := []
  wf := dot_S50000x96_S96x96_S50000x96_1_0_0_1_n_n_wf
def dot_S50000x192_S192x96_S50000x96_1_0_0_1_n_n : DotDims S50000x192 S192x96 S50000x96 where
  lhsContracting := [1]
  rhsContracting := [0]
  lhsNonContracting := [0]
  rhsNonContracting := [1]
  lhsBatch := []
  rhsBatch := []
  wf := dot_S50000x192_S192x96_S50000x96_1_0_0_1_n_n_wf
def dot_S50000x96_S96x96_S50000x96_1_1_0_0_n_n : DotDims S50000x96 S96x96 S50000x96 where
  lhsContracting := [1]
  rhsContracting := [1]
  lhsNonContracting := [0]
  rhsNonContracting := [0]
  lhsBatch := []
  rhsBatch := []
  wf := dot_S50000x96_S96x96_S50000x96_1_1_0_0_n_n_wf
def dot_S50000x96_S192x96_S50000x192_1_1_0_0_n_n : DotDims S50000x96 S192x96 S50000x192 where
  lhsContracting := [1]
  rhsContracting := [1]
  lhsNonContracting := [0]
  rhsNonContracting := [0]
  lhsBatch := []
  rhsBatch := []
  wf := dot_S50000x96_S192x96_S50000x192_1_1_0_0_n_n_wf

class Facts : Prop extends Facts₀ where

variable [Facts]
-- ==== Proof.RefStages.lean ====
/-
  The reference program read one operation at a time: its run and the value of each of its stages at an index.
-/
import proofs.«408811_j18047452578207_2_alg».proof.Proof.Gen.ReferenceIdeal.Run
import proofs.«408811_j18047452578207_2_alg».proof.Proof.Gen.ReferenceIdeal.Read
-- ==== Proof.Spec.lean ====
/-
  The function both programs compute, written once over plain index types.

  A graph on N = 50000 nodes is given by E = 800000 edges, edge e running from node s e to node d e. With
  cS n the number of edges leaving n and cD n the number entering it, put rs ix n = (max 1 (c_ix n))^(-1/2).
  The forward aggregate of node features x is  fwd x n = sum over the edges e into n of x (s e) * rs s (s e),
  rescaled by rs d n. Two linear layers give qg and pg from the aggregates of q and p, a hidden layer
  u = qg * W1[0:96] + pg * W1[96:192] + b1, t = tanh u, and h = t * W2 + b2; the energy is half the sum of the
  squares of h. Its gradient with respect to the aggregates is gq, gp below (the chain rule written out: the
  derivative of tanh is 1 - t^2, and each product with a matrix turns into the product with its transpose),
  and the gradient with respect to the node features is the backward aggregate
  bwd g n = sum over the edges e leaving n of g (d e), rescaled by rs s n. The results are the leapfrog step
  q + 1 * dH/dp and p - 1 * dH/dq.

  Nothing here depends on a program: the arrays are functions of two finite indices into the extended reals.
-/
import Idealize.ShloMosaic.PureOps.Ideal
import Idealize.ShloMosaic.Lib.ValueIdx
import Mathlib.Algebra.BigOperators.Group.Finset.Basic
import Mathlib.Algebra.BigOperators.Fin
import Mathlib.Data.EReal.Basic
import Mathlib.Data.EReal.Operations

noncomputable section

open scoped BigOperators

namespace Cert.Spec

open Idealize.ShloMosaic Idealize.ShloMosaic.ValueIdx

/-- The number of nodes, of edges, and the feature width. -/
abbrev NN : ℕ := 50000
abbrev EE : ℕ := 800000
abbrev HH : ℕ := 96
abbrev H2 : ℕ := 192

/-- An array of a rows and b columns of extended reals. -/
abbrev Mat (a b : ℕ) := Fin a → Fin b → EReal
/-- One end of every edge: a node per edge. -/
abbrev Ends := Fin EE → Fin NN

/-- Column k of the first, and of the second, half of 192 columns. -/
def lo (k : Fin HH) : Fin H2 := ⟨k.val, by have h : k.val < 96 := k.isLt; show k.val < 192; omega⟩
def hi (k : Fin HH) : Fin H2 := ⟨96 + k.val, by have h : k.val < 96 := k.isLt; show 96 + k.val < 192; omega⟩

/-- A sum over 192 columns is the sum over the first 96 plus the sum over the last 96. -/
theorem sum_lo_hi (f : Fin H2 → EReal) : ∑ k : Fin H2, f k = ∑ k : Fin HH, f (lo k) + ∑ k : Fin HH, f (hi k) := by
  have h := Fin.sum_univ_add (M := EReal) (a := HH) (b := HH) (fun k => f (Fin.cast (by rfl) k))
  have e : ∑ k : Fin H2, f k = ∑ k : Fin (HH + HH), f (Fin.cast (by rfl) k) :=
    (Fin.sum_congr' f (by rfl : HH + HH = H2)).symm
  rw [e, h]
  rfl

/-- The array, as a function of its two coordinates, of an array given at the index pairs. -/
def cur {a b : ℕ} (x : (⟨2, ![a, b]⟩ : Shape).Idx → EReal) : Mat a b := fun i j => x (ix2 i j)
/-- The vector, as a function of its coordinate. -/
def cur1 {a : ℕ} (x : (⟨1, ![a]⟩ : Shape).Idx → EReal) : Fin a → EReal := fun i => x (ix1 i)

/-- The index words name the nodes: entry e is the word of the node ix e. -/
def InRange (w : (⟨1, ![EE]⟩ : Shape).Idx → BitVec 32) (ix : Ends) : Prop :=
  ∀ e : Fin EE, w (ix1 e) = BitVec.ofNat 32 (ix e).val

/-- Two arrays of 96 columns side by side. -/
def cat (x y : Mat NN HH) : Mat NN H2 :=
  fun n j => if hj : j.val < 96 then x n ⟨j.val, hj⟩ else y n ⟨j.val - 96, by have h2 : j.val < 192 := j.isLt; show j.val - 96 < 96; omega⟩

theorem cat_lo (x y : Mat NN HH) (n : Fin NN) (k : Fin HH) : cat x y n (lo k) = x n k := by
  have hk : k.val < 96 := k.isLt
  unfold cat lo
  rw [dif_pos (show k.val < 96 from hk)]

theorem cat_hi (x y : Mat NN HH) (n : Fin NN) (k : Fin HH) : cat x y n (hi k) = y n k := by
  have hk : k.val < 96 := k.isLt
  unfold cat hi
  rw [dif_neg (show ¬ (96 + k.val < 96) by omega)]
  exact congrArg (y n) (Fin.ext (show 96 + k.val - 96 = k.val by omega))

section Graph
variable (s d : Ends)

/-- The number of edges whose end is n (zero, plus one for each such edge). -/
def cnt (ix : Ends) (n : Fin NN) : EReal := 0 + ∑ e : Fin EE, if ix e = n then (1 : EReal) else 0
/-- The degree normaliser: (max 1 degree)^(-1/2). -/
def rs (ix : Ends) (n : Fin NN) : EReal := Ideal.rsqrt (max 1 (cnt ix n))

/-- The forward aggregate of w columns: over the edges into n, the source's row times the source's normaliser. -/
def fwd {w : ℕ} (x : Mat NN w) : Mat NN w :=
  fun n j => 0 + ∑ e : Fin EE, if d e = n then x (s e) j * rs s (s e) else 0
/-- The backward aggregate: over the edges leaving n, the target's row. -/
def bwd {w : ℕ} (g : Mat NN w) : Mat NN w := fun n j => 0 + ∑ e : Fin EE, if s e = n then g (d e) j else 0
end Graph

/-- A linear layer, row by row. -/
def lin {a b : ℕ} (x : Mat NN a) (W : Mat a b) (bias : Fin b → EReal) : Mat NN b :=
  fun n j => (∑ k : Fin a, x n k * W k j) + bias j

/-! ### The dense part, node by node

  From the raw aggregate A (192 columns: the q half, then the p half) and the target normaliser r, with each weight
  matrix and each transposed weight matrix given as an array of its own (W1a and W1b are the two halves of W1; a name
  ending in T is the transpose). -/
section Dense
variable (A : Mat NN H2) (r : Fin NN → EReal) (Wq : Mat HH HH) (bq : Fin HH → EReal) (Wp : Mat HH HH) (bp : Fin HH → EReal)
  (W1a W1b : Mat HH HH) (b1 : Fin HH → EReal) (W2 : Mat HH HH) (b2 : Fin HH → EReal) (WqT WpT W1aT W1bT W2T : Mat HH HH)

def kaq : Mat NN HH := fun n j => A n (lo j) * r n
def kap : Mat NN HH := fun n j => A n (hi j) * r n
def kqg : Mat NN HH := lin (kaq A r) Wq bq
def kpg : Mat NN HH := lin (kap A r) Wp bp
/-- The hidden pre-activation. -/
def ku : Mat NN HH := fun n j =>
  ((∑ k : Fin HH, kqg A r Wq bq n k * W1a k j) + (∑ k : Fin HH, kpg A r Wp bp n k * W1b k j)) + b1 j
def kt : Mat NN HH := fun n j => Ideal.tanh (ku A r Wq bq Wp bp W1a W1b b1 n j)
def kh : Mat NN HH := lin (kt A r Wq bq Wp bp W1a W1b b1) W2 b2
/-- dE/dt = h times W2 transposed. -/
def kdEdt : Mat NN HH := fun n j => ∑ k : Fin HH, kh A r Wq bq Wp bp W1a W1b b1 W2 b2 n k * W2T k j
/-- dE/du = dE/dt (1 - t^2). -/
def kdEdu : Mat NN HH := fun n j =>
  kdEdt A r Wq bq Wp bp W1a W1b b1 W2 b2 W2T n j
    * (1 - kt A r Wq bq Wp bp W1a W1b b1 n j * kt A r Wq bq Wp bp W1a W1b b1 n j)
def kdqg : Mat NN HH := fun n j => ∑ k : Fin HH, kdEdu A r Wq bq Wp bp W1a W1b b1 W2 b2 W2T n k * W1aT k j
def kdpg : Mat NN HH := fun n j => ∑ k : Fin HH, kdEdu A r Wq bq Wp bp W1a W1b b1 W2 b2 W2T n k * W1bT k j
/-- The gradient with respect to the raw aggregate's q half, and its p half. -/
def kgq : Mat NN HH := fun n j =>
  (∑ k : Fin HH, kdqg A r Wq bq Wp bp W1a W1b b1 W2 b2 W1aT W2T n k * WqT k j) * r n
def kgp : Mat NN HH := fun n j =>
  (∑ k : Fin HH, kdpg A r Wq bq Wp bp W1a W1b b1 W2 b2 W1bT W2T n k * WpT k j) * r n
end Dense

/-! ### The whole function -/
section Whole
variable (q p : Mat NN HH) (s d : Ends) (Wq Wp W2 : Mat HH HH) (bq bp b1 b2 : Fin HH → EReal) (W1 : Mat H2 HH)

/-- The gradient of the energy with respect to the raw aggregates of q and of p. -/
def gq : Mat NN HH :=
  kgq (fwd s d (cat q p)) (rs d) Wq bq Wp bp (fun k j => W1 (lo k) j) (fun k j => W1 (hi k) j) b1 W2 b2
    (fun k j => Wq j k) (fun k j => W1 (lo j) k) (fun k j => W2 j k)
def gp : Mat NN HH :=
  kgp (fwd s d (cat q p)) (rs d) Wq bq Wp bp (fun k j => W1 (lo k) j) (fun k j => W1 (hi k) j) b1 W2 b2
    (fun k j => Wp j k) (fun k j => W1 (hi j) k) (fun k j => W2 j k)
/-- The two results: q + 1 (dH/dp) and p - 1 (dH/dq). -/
def qNext : Mat NN HH := fun n j => q n j + 1 * (bwd s d (gp q p s d Wq Wp W2 bq bp b1 b2 W1) n j * rs s n)
def pNext : Mat NN HH := fun n j => p n j - 1 * (bwd s d (gq q p s d Wq Wp W2 bq bp b1 b2 W1) n j * rs s n)
end Whole

/-! ### Real numbers among the extended reals -/

/-- Neither infinity: a real number. -/
def IsFin (x : EReal) : Prop := x ≠ ⊤ ∧ x ≠ ⊥

theorem isFin_iff (x : EReal) : IsFin x ↔ ∃ r : ℝ, x = (r : EReal) := by
  constructor
  · rintro ⟨ht, hb⟩
    exact ⟨x.toReal, (EReal.coe_toReal ht hb).symm⟩
  · rintro ⟨r, rfl⟩
    exact ⟨EReal.coe_ne_top r, EReal.coe_ne_bot r⟩

theorem IsFin.coe (r : ℝ) : IsFin (r : EReal) := ⟨EReal.coe_ne_top r, EReal.coe_ne_bot r⟩

theorem IsFin.add {x y : EReal} (hx : IsFin x) (hy : IsFin y) : IsFin (x + y) := by
  obtain ⟨r, rfl⟩ := (isFin_iff x).1 hx
  obtain ⟨s, rfl⟩ := (isFin_iff y).1 hy
  rw [← EReal.coe_add]; exact IsFin.coe _

theorem IsFin.mul {x y : EReal} (hx : IsFin x) (hy : IsFin y) : IsFin (x * y) := by
  obtain ⟨r, rfl⟩ := (isFin_iff x).1 hx
  obtain ⟨s, rfl⟩ := (isFin_iff y).1 hy
  rw [← EReal.coe_mul]; exact IsFin.coe _

theorem IsFin.sum {ι : Type*} (S : Finset ι) (f : ι → EReal) (hf : ∀ i ∈ S, IsFin (f i)) : IsFin (∑ i ∈ S, f i) := by
  classical
  induction S using Finset.induction_on with
  | empty => rw [Finset.sum_empty, ← EReal.coe_zero]; exact IsFin.coe 0
  | insert a S ha ih =>
    rw [Finset.sum_insert ha]
    exact IsFin.add (hf a (Finset.mem_insert_self a S)) (ih fun i hi => hf i (Finset.mem_insert_of_mem hi))

/-- The hyperbolic tangent of any extended real is a real number (its values at the infinities are -1 and 1). -/
theorem IsFin.tanh (x : EReal) : IsFin (Ideal.tanh x) := by
  induction x using EReal.rec with
  | bot =>
    rw [Ideal.tanh_bot, show (-1 : EReal) = ((-1 : ℝ) : EReal) by rw [EReal.coe_neg, EReal.coe_one]]
    exact IsFin.coe _
  | top =>
    rw [Ideal.tanh_top, ← EReal.coe_one]
    exact IsFin.coe _
  | coe r => rw [Ideal.tanh_coe]; exact IsFin.coe _

/-- The derivative of tanh in two spellings: g(1 - t) + g(1 - t)t = g(1 - t^2), for real g and t. -/
theorem tanh_step {g t : EReal} (hg : IsFin g) (ht : IsFin t) :
    g * (1 - t) + g * (1 - t) * t = g * (1 - t * t) := by
  obtain ⟨a, rfl⟩ := (isFin_iff g).1 hg
  obtain ⟨b, rfl⟩ := (isFin_iff t).1 ht
  have e1 : ((1 : EReal) - (b : EReal)) = ((1 - b : ℝ) : EReal) := by rw [EReal.coe_sub, EReal.coe_one]
  have e2 : ((1 : EReal) - (b : EReal) * (b : EReal)) = ((1 - b * b : ℝ) : EReal) := by
    rw [EReal.coe_sub, EReal.coe_one, EReal.coe_mul]
  rw [e1, e2, ← EReal.coe_mul, ← EReal.coe_mul, ← EReal.coe_add, ← EReal.coe_mul]
  congr 1
  ring

end Cert.Spec

end
-- ==== Proof.LibKeepdims.lean ====
/-
  General layout reads for a reduction that keeps its axis (`keepdims=True`), stated over any extents:
  a vector `[a]` cast to a column `[a, 1]`, a column `[a, 1]` broadcast across `[a, b]`, and a lane sum of an
  `[a, b]` vector along its second axis read at a row as the sum over that row's columns.
  With the library's row broadcast `[1, b] → [a, b]` these are the index reads of a row-wise normalisation in a kernel
  body. The second part has the same reads in the host's spelling: `broadcast_in_dim` of a scalar, of a vector onto
  a column or a row, of a column or a row across a matrix, and the host's row sum with its initial value.
-/
import Idealize.ShloMosaic.PureOps.Ideal.Laws
import Idealize.ShloMosaic.Lib.ValueIdx
import Idealize.ShloMosaic.Lib.ValueLayout
import Idealize.ShloMosaic.Lib.Pipeline.Value

noncomputable section

namespace Cert.LibKeepdims

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` vector along its second axis, read at row `p` on the extended reals, is the sum of
    that row's entries. The accumulator word and the reduction's two side conditions are variables, so the lemma meets a
    printed reduction however its evidence is spelt. -/
theorem rowSum_apply {a b : ℕ} (src : FVec Ideal ⟨2, ![a, b]⟩ .f32)
    (acc : BitVec FTy.f32.bits) (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-! ## The host's forms: `broadcast_in_dim` along named axes, and the host's sum -/

/-- A rank-0 array (a scalar constant) broadcast to any shape reads the scalar everywhere. -/
theorem broadcastInDim_scalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun ax => ax.elim0)

/-- An `[a]` array placed on axis 0 of the column `[a, 1]` reads, at `(r, u)`, the operand at `r`. -/
theorem broadcastInDim_a_a1_apply {a : ℕ} (x : (⟨1, ![a]⟩ : Shape).Idx → α)
    (h : (⟨1, ![a]⟩ : Shape).BroadcastsInDim ⟨2, ![a, 1]⟩ (![0] : Fin 1 → Fin (⟨2, ![a, 1]⟩ : Shape).rank))
    (r : Fin a) (u : Fin 1) : broadcastInDim ⟨2, ![a, 1]⟩ ![0] h x (ix2 r u) = x (ix1 r) := by
  refine broadcastInDim_apply _ h x (ix2 r u) (ix1 r) fun ax => ?_
  match ax with
  | ⟨0, _⟩ =>
    show r.val = if a = 1 then 0 else r.val
    split
    · have := r.isLt; omega
    · rfl

/-- A column `[a, 1]` broadcast in place to `[a, b]` reads, at `(r, j)`, the column's entry of row `r`. -/
theorem broadcastInDim_a1_ab_apply {a b : ℕ} (x : (⟨2, ![a, 1]⟩ : Shape).Idx → α)
    (h : (⟨2, ![a, 1]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 r (0 : Fin 1)) := by
  refine broadcastInDim_apply _ h x (ix2 r j) (ix2 r (0 : Fin 1)) fun ax => ?_
  match ax with
  | ⟨0, _⟩ =>
    show r.val = if a = 1 then 0 else r.val
    split
    · have := r.isLt; omega
    · rfl
  | ⟨1, _⟩ => rfl

/-- A `[b]` array placed on axis 1 of the row `[1, b]` reads, at `(u, j)`, the operand at `j`. -/
theorem broadcastInDim_b_1b_apply {b : ℕ} (x : (⟨1, ![b]⟩ : Shape).Idx → α)
    (h : (⟨1, ![b]⟩ : Shape).BroadcastsInDim ⟨2, ![1, b]⟩ (![1] : Fin 1 → Fin (⟨2, ![1, b]⟩ : Shape).rank))
    (u : Fin 1) (j : Fin b) : broadcastInDim ⟨2, ![1, b]⟩ ![1] h x (ix2 u j) = x (ix1 j) := by
  refine broadcastInDim_apply _ h x (ix2 u j) (ix1 j) fun ax => ?_
  match ax with
  | ⟨0, _⟩ =>
    show j.val = if b = 1 then 0 else j.val
    split
    · have := j.isLt; omega
    · rfl

/-- A row `[1, b]` broadcast in place to `[a, b]` reads, at `(r, j)`, the row's entry of column `j`. -/
theorem broadcastInDim_1b_ab_apply {a b : ℕ} (x : (⟨2, ![1, b]⟩ : Shape).Idx → α)
    (h : (⟨2, ![1, b]⟩ : Shape).BroadcastsInDim ⟨2, ![a, b]⟩ (![0, 1] : Fin 2 → Fin (⟨2, ![a, b]⟩ : Shape).rank))
    (r : Fin a) (j : Fin b) : broadcastInDim ⟨2, ![a, b]⟩ ![0, 1] h x (ix2 r j) = x (ix2 (0 : Fin 1) j) := by
  refine broadcastInDim_apply _ h x (ix2 r j) (ix2 (0 : Fin 1) j) fun ax => ?_
  match ax with
  | ⟨0, _⟩ => rfl
  | ⟨1, _⟩ =>
    show j.val = if b = 1 then 0 else j.val
    split
    · have := j.isLt; omega
    · rfl

/-- The host's float sum of an `[a, b]` array along its second axis, read at row `r` on the extended reals: the
    initial scalar plus the sum of the row's entries. -/
theorem hostRowSum_apply {a b : ℕ} (X : FVec Ideal ⟨2, ![a, b]⟩ .f32) (init : (⟨0, ![]⟩ : Shape).Idx → Ideal .f32)
    (h' : (⟨2, ![a, b]⟩ : Shape).ReducesTo [1] ⟨1, ![a]⟩) (h : (⟨2, ![a, b]⟩ : Shape).Reduces [1] ⟨1, ![a]⟩)
    (hu : 0 < (⟨0, ![]⟩ : Shape).numel) (r : Fin a) :
    Host.reduceAdd X init h' hu (ix1 r) = init ix0 + ∑ k : Fin b, X (ix2 r k) := by
  unfold Host.reduceAdd
  refine (Ideal.hostReduceAdd_single h' h X _ (ix1 r)).trans ?_
  refine congrArg₂ (· + ·) (congrArg init (funext fun ax => ax.elim0)) (Finset.sum_congr rfl fun k _ => ?_)
  exact congrArg X (funext fun ax => Fin.ext (by
    match ax with
    | ⟨0, _⟩ => rfl
    | ⟨1, _⟩ => rfl))

end Cert.LibKeepdims

end
-- ==== Proof.KRegion0Aux.lean ====
/-
  The arithmetic of the first region's body, read entry by entry on the extended reals.

  The body works on a block of 2000 nodes. From the block of raw aggregates (192 columns: the q half, then the p half)
  and the block of target normalisers it forms the scaled halves, two linear layers, the hidden layer with its tanh,
  the output layer, and then the chain rule backwards: (h W2ᵀ)(1 - t²), times W1aᵀ and Wqᵀ for the q half, times W1bᵀ and
  Wpᵀ for the p half, each scaled by the normaliser again. Every product with a 96 x 96 matrix is a sum over 96 terms,
  every other step acts entry by entry, and every step acts on each row by itself. So on a row of the block that holds
  node n's aggregate and normaliser, each stage is the specification's node function of the same name at n; this
  module proves that stage by stage, for blocks and matrices that are plain variables.
-/
import proofs.«408811_j18047452578207_2_alg».proof.Proof.Gen.KernelIdeal.Skeleton
import proofs.«408811_j18047452578207_2_alg».proof.Proof.Spec
import proofs.«408811_j18047452578207_2_alg».proof.Proof.LibKeepdims
import Idealize.ShloMosaic.PureOps.Ideal.Laws
import Idealize.ShloMosaic.Lib.ValueIdx
import Idealize.ShloMosaic.Lib.IdealHost
import Idealize.ShloMosaic.Lib.ValueLayout
import Idealize.ShloMosaic.Lib.Pipeline.Value

set_option maxRecDepth 16384

noncomputable section

namespace Cert.KernelIdeal.Region0

open Cert.KernelIdeal Cert.KernelIdeal.Gen Cert.Spec
open Idealize.ShloMosaic Idealize.ShloMosaic.ValueIdx

/-! ### A product with a 96 x 96 matrix at an entry -/

/-- The row coordinate of the left operand's index is the output's row. -/
theorem lhs_mm_0 (i : S2000x96.Idx) (q : dot_S2000x96_S96x96_S2000x96_1_0_0_1_n_n.contr.Idx) :
    (dot_S2000x96_S96x96_S2000x96_1_0_0_1_n_n.lhsIdx i q 0).val = (i 0).val := by
  unfold DotDims.lhsIdx
  rw [dif_neg (show ¬(0 : Fin S2000x96.rank) ∈ dot_S2000x96_S96x96_S2000x96_1_0_0_1_n_n.lhsBatch by decide), dif_pos (show (0 : Fin S2000x96.rank) ∈ dot_S2000x96_S96x96_S2000x96_1_0_0_1_n_n.lhsNonContracting by decide)]
  rfl
/-- Its column coordinate is the contraction index. -/
theorem lhs_mm_1 (i : S2000x96.Idx) (q : dot_S2000x96_S96x96_S2000x96_1_0_0_1_n_n.contr.Idx) :
    (dot_S2000x96_S96x96_S2000x96_1_0_0_1_n_n.lhsIdx i q 1).val = (q ⟨0, by decide⟩).val :=
  dot_S2000x96_S96x96_S2000x96_1_0_0_1_n_n.lhsIdx_val_of_single rfl i q
/-- The row coordinate of the right operand's index is the contraction index. -/
theorem rhs_mm_0 (i : S2000x96.Idx) (q : dot_S2000x96_S96x96_S2000x96_1_0_0_1_n_n.contr.Idx) :
    (dot_S2000x96_S96x96_S2000x96_1_0_0_1_n_n.rhsIdx i q 0).val = (q ⟨0, by decide⟩).val :=
  dot_S2000x96_S96x96_S2000x96_1_0_0_1_n_n.rhsIdx_val_of_single rfl i q
/-- Its column coordinate is the output's column. -/
theorem rhs_mm_1 (i : S2000x96.Idx) (q : dot_S2000x96_S96x96_S2000x96_1_0_0_1_n_n.contr.Idx) :
    (dot_S2000x96_S96x96_S2000x96_1_0_0_1_n_n.rhsIdx i q 1).val = (i 1).val := by
  unfold DotDims.rhsIdx
  rw [dif_neg (show ¬(1 : Fin S96x96.rank) ∈ dot_S2000x96_S96x96_S2000x96_1_0_0_1_n_n.rhsBatch by decide), dif_pos (show (1 : Fin S96x96.rank) ∈ dot_S2000x96_S96x96_S2000x96_1_0_0_1_n_n.rhsNonContracting by decide)]
  rfl

/-- A product of a 2000 x 96 block with a 96 x 96 matrix accumulated into zero, read at (p, q): the sum over k of
    the block's entry (p, k) times the matrix's entry (k, q). -/
theorem mm_apply (l : FVec Ideal S2000x96 .f32) (r : FVec Ideal S96x96 .f32) (p : Fin 2000) (q : Fin 96) :
    matmul dot_S2000x96_S96x96_S2000x96_1_0_0_1_n_n none l r (constant (F := Ideal) S2000x96 .f32 0x00000000#32) (ix2 p q)
      = ∑ k : Fin 96, l (ix2 p k) * r (ix2 k q) := by
  simp only [matmul]
  rw [Ideal.matmul_constant_zero_apply, ← Equiv.sum_comp (contrEquiv1 dot_S2000x96_S96x96_S2000x96_1_0_0_1_n_n 96 rfl rfl).symm]
  refine Finset.sum_congr rfl fun k _ => ?_
  have hk := contrEquiv1_symm_val dot_S2000x96_S96x96_S2000x96_1_0_0_1_n_n 96 rfl rfl k
  have el : dot_S2000x96_S96x96_S2000x96_1_0_0_1_n_n.lhsIdx (ix2 p q) ((contrEquiv1 dot_S2000x96_S96x96_S2000x96_1_0_0_1_n_n 96 rfl rfl).symm k) = ix2 p k := funext fun a => Fin.ext (by
    match a with
    | ⟨0, _⟩ => exact lhs_mm_0 _ _
    | ⟨1, _⟩ => exact (lhs_mm_1 _ _).trans hk)
  have er : dot_S2000x96_S96x96_S2000x96_1_0_0_1_n_n.rhsIdx (ix2 p q) ((contrEquiv1 dot_S2000x96_S96x96_S2000x96_1_0_0_1_n_n 96 rfl rfl).symm k) = ix2 k q := funext fun a => Fin.ext (by
    match a with
    | ⟨0, _⟩ => exact (rhs_mm_0 _ _).trans hk
    | ⟨1, _⟩ => exact rhs_mm_1 _ _)
  rw [el, er]

/-! ### The block's stages, each read at an entry -/

/-- A 1 x 96 row repeated down the 2000 rows of a block. -/
def sRow (b : FVec Ideal S1x96 .f32) : FVec Ideal S2000x96 .f32 :=
  broadcastTo S2000x96 (shapeCast S1x96 b shapeCasts_S1x96_S1x96) broadcasts_S1x96_S2000x96

theorem sRow_apply (b : FVec Ideal S1x96 .f32) (p : Fin 2000) (j : Fin 96) : sRow b (ix2 p j) = b (ix2 (0 : Fin 1) j) := by
  unfold sRow
  rw [shapeCast_self]
  exact broadcastTo_1b_ab_apply b _ p j

/-- A 2000 x 1 column repeated across the 96 columns of a block. -/
def sCol (v : FVec Ideal S2000x1 .f32) : FVec Ideal S2000x96 .f32 :=
  broadcastTo S2000x96 v broadcasts_S2000x1_S2000x96

theorem sCol_apply (v : FVec Ideal S2000x1 .f32) (p : Fin 2000) (j : Fin 96) : sCol v (ix2 p j) = v (ix2 p (0 : Fin 1)) := by
  unfold sCol
  exact Cert.LibKeepdims.broadcastTo_a1_ab_apply v _ p j

/-- A block times a matrix, plus a bias row: a linear layer on the block's rows. -/
def sLin (l : FVec Ideal S2000x96 .f32) (W : FVec Ideal S96x96 .f32) (b : FVec Ideal S1x96 .f32) : FVec Ideal S2000x96 .f32 :=
  addf (matmul dot_S2000x96_S96x96_S2000x96_1_0_0_1_n_n none l W (constant S2000x96 .f32 0x00000000#32)) (sRow b)

theorem sLin_apply (l : FVec Ideal S2000x96 .f32) (W : FVec Ideal S96x96 .f32) (b : FVec Ideal S1x96 .f32) (p : Fin 2000) (j : Fin 96) :
    sLin l W b (ix2 p j) = (∑ k : Fin 96, l (ix2 p k) * W (ix2 k j)) + b (ix2 (0 : Fin 1) j) := by
  show matmul dot_S2000x96_S96x96_S2000x96_1_0_0_1_n_n none l W (constant (F := Ideal) S2000x96 .f32 0x00000000#32) (ix2 p j) + sRow b (ix2 p j) = _
  rw [mm_apply, sRow_apply]

/-- A block times a matrix. -/
def sMM (l : FVec Ideal S2000x96 .f32) (W : FVec Ideal S96x96 .f32) : FVec Ideal S2000x96 .f32 :=
  matmul dot_S2000x96_S96x96_S2000x96_1_0_0_1_n_n none l (shapeCast S96x96 W shapeCasts_S96x96_S96x96) (constant S2000x96 .f32 0x00000000#32)

theorem sMM_apply (l : FVec Ideal S2000x96 .f32) (W : FVec Ideal S96x96 .f32) (p : Fin 2000) (j : Fin 96) :
    sMM l W (ix2 p j) = ∑ k : Fin 96, l (ix2 p k) * W (ix2 k j) := by
  unfold sMM
  rw [shapeCast_self]
  exact mm_apply l W p j

/-- The first 96 columns of the 2000 x 192 block, each row scaled by the column's entry of that row. -/
def sAq (x0 : FVec Ideal S2000x192 .f32) (x1 : FVec Ideal S2000x1 .f32) : FVec Ideal S2000x96 .f32 :=
  mulf (extractStridedSlice S2000x96 ![0, 0] (shapeCast S2000x192 x0 shapeCasts_S2000x192_S2000x192) slices_S2000x192_o0_0_S2000x96)
    (sCol (k0_pay4 x1))
/-- The last 96 columns likewise. -/
def sAp (x0 : FVec Ideal S2000x192 .f32) (x1 : FVec Ideal S2000x1 .f32) : FVec Ideal S2000x96 .f32 :=
  mulf (extractStridedSlice S2000x96 ![0, 96] (shapeCast S2000x192 x0 shapeCasts_S2000x192_S2000x192) slices_S2000x192_o0_96_S2000x96)
    (sCol (k0_pay4 x1))

theorem pay4_eq (x1 : FVec Ideal S2000x1 .f32) : k0_pay4 (F := Ideal) x1 = x1 := by
  unfold k0_pay4
  exact shapeCast_self x1 _

theorem sAq_apply (x0 : FVec Ideal S2000x192 .f32) (x1 : FVec Ideal S2000x1 .f32) (p : Fin 2000) (k : Fin 96) :
    sAq x0 x1 (ix2 p k) = x0 (ix2 p (lo k)) * x1 (ix2 p (0 : Fin 1)) := by
  show extractStridedSlice S2000x96 ![0, 0] (shapeCast S2000x192 x0 shapeCasts_S2000x192_S2000x192) slices_S2000x192_o0_0_S2000x96 (ix2 p k)
      * sCol (k0_pay4 x1) (ix2 p k) = _
  rw [shapeCast_self, sCol_apply, pay4_eq]
  exact congrArg (· * x1 (ix2 p (0 : Fin 1))) (slice2_axis1_apply 0 x0 _ p k (lo k) (Nat.zero_add _).symm)

theorem sAp_apply (x0 : FVec Ideal S2000x192 .f32) (x1 : FVec Ideal S2000x1 .f32) (p : Fin 2000) (k : Fin 96) :
    sAp x0 x1 (ix2 p k) = x0 (ix2 p (hi k)) * x1 (ix2 p (0 : Fin 1)) := by
  show extractStridedSlice S2000x96 ![0, 96] (shapeCast S2000x192 x0 shapeCasts_S2000x192_S2000x192) slices_S2000x192_o0_96_S2000x96 (ix2 p k)
      * sCol (k0_pay4 x1) (ix2 p k) = _
  rw [shapeCast_self, sCol_apply, pay4_eq]
  exact congrArg (· * x1 (ix2 p (0 : Fin 1))) (slice2_axis1_apply 96 x0 _ p k (hi k) rfl)

/-- The hidden activation of the block, as a composite of the stages. -/
theorem pay5_eq (x1 : FVec Ideal S2000x1 .f32) (x0 : FVec Ideal S2000x192 .f32) (x2 : FVec Ideal S96x96 .f32) (x3 : FVec Ideal S1x96 .f32)
    (x4 : FVec Ideal S96x96 .f32) (x5 : FVec Ideal S1x96 .f32) (x6 x7 : FVec Ideal S96x96 .f32) (x8 : FVec Ideal S1x96 .f32) :
    k0_pay5 (F := Ideal) x1 x0 x2 x3 x4 x5 x6 x7 x8
      = tanh (addf (addf (sMM (sLin (sAq x0 x1) x2 x3) x6) (sMM (sLin (sAp x0 x1) x4 x5) x7)) (sRow x8)) := rfl

/-! ### The stages on one row: the node functions of the specification -/

/-- The scaled first half of a row is the node's scaled q aggregate. -/
theorem aq_row (A : Mat NN H2) (r : Fin NN → EReal) (n : Fin NN) (p : Fin 2000) (x0 : FVec Ideal S2000x192 .f32) (x1 : FVec Ideal S2000x1 .f32)
    (hA : ∀ c : Fin 192, x0 (ix2 p c) = A n c) (hr : x1 (ix2 p (0 : Fin 1)) = r n) (k : Fin 96) : sAq x0 x1 (ix2 p k) = kaq A r n k := by
  rw [sAq_apply, hA, hr]; rfl
/-- The scaled second half is the scaled p aggregate. -/
theorem ap_row (A : Mat NN H2) (r : Fin NN → EReal) (n : Fin NN) (p : Fin 2000) (x0 : FVec Ideal S2000x192 .f32) (x1 : FVec Ideal S2000x1 .f32)
    (hA : ∀ c : Fin 192, x0 (ix2 p c) = A n c) (hr : x1 (ix2 p (0 : Fin 1)) = r n) (k : Fin 96) : sAp x0 x1 (ix2 p k) = kap A r n k := by
  rw [sAp_apply, hA, hr]; rfl

/-- The first linear layer on the q half. -/
theorem qg_row (A : Mat NN H2) (r : Fin NN → EReal) (n : Fin NN) (p : Fin 2000) (x0 : FVec Ideal S2000x192 .f32) (x1 : FVec Ideal S2000x1 .f32)
    (hA : ∀ c : Fin 192, x0 (ix2 p c) = A n c) (hr : x1 (ix2 p (0 : Fin 1)) = r n) (x2 : FVec Ideal S96x96 .f32) (x3 : FVec Ideal S1x96 .f32) (j : Fin 96) :
    sLin (sAq x0 x1) x2 x3 (ix2 p j) = kqg A r (cur x2) (cur x3 (0 : Fin 1)) n j := by
  rw [sLin_apply]
  simp only [aq_row A r n p x0 x1 hA hr]
  rfl
/-- The first linear layer on the p half. -/
theorem pg_row (A : Mat NN H2) (r : Fin NN → EReal) (n : Fin NN) (p : Fin 2000) (x0 : FVec Ideal S2000x192 .f32) (x1 : FVec Ideal S2000x1 .f32)
    (hA : ∀ c : Fin 192, x0 (ix2 p c) = A n c) (hr : x1 (ix2 p (0 : Fin 1)) = r n) (x4 : FVec Ideal S96x96 .f32) (x5 : FVec Ideal S1x96 .f32) (j : Fin 96) :
    sLin (sAp x0 x1) x4 x5 (ix2 p j) = kpg A r (cur x4) (cur x5 (0 : Fin 1)) n j := by
  rw [sLin_apply]
  simp only [ap_row A r n p x0 x1 hA hr]
  rfl

/-- The hidden activation on a row. -/
theorem t_row (A : Mat NN H2) (r : Fin NN → EReal) (n : Fin NN) (p : Fin 2000) (x0 : FVec Ideal S2000x192 .f32) (x1 : FVec Ideal S2000x1 .f32)
    (hA : ∀ c : Fin 192, x0 (ix2 p c) = A n c) (hr : x1 (ix2 p (0 : Fin 1)) = r n) (x2 : FVec Ideal S96x96 .f32) (x3 : FVec Ideal S1x96 .f32) (x4 : FVec Ideal S96x96 .f32) (x5 : FVec Ideal S1x96 .f32)
    (x6 x7 : FVec Ideal S96x96 .f32) (x8 : FVec Ideal S1x96 .f32) (j : Fin 96) :
    k0_pay5 (F := Ideal) x1 x0 x2 x3 x4 x5 x6 x7 x8 (ix2 p j)
      = kt A r (cur x2) (cur x3 (0 : Fin 1)) (cur x4) (cur x5 (0 : Fin 1)) (cur x6) (cur x7) (cur x8 (0 : Fin 1)) n j := by
  rw [pay5_eq]
  show Ideal.tanh ((sMM (sLin (sAq x0 x1) x2 x3) x6 (ix2 p j) + sMM (sLin (sAp x0 x1) x4 x5) x7 (ix2 p j)) + sRow x8 (ix2 p j)) = _
  rw [sMM_apply, sMM_apply, sRow_apply]
  simp only [qg_row A r n p x0 x1 hA hr, pg_row A r n p x0 x1 hA hr]
  rfl

/-- The gradient of the energy with respect to the hidden pre-activation, as a composite of the stages. -/
theorem pay1_eq (v33 : FVec Ideal S2000x96 .f32) (v34 : FVec Ideal S96x96 .f32) (v35 : FVec Ideal S1x96 .f32) (v40 : FVec Ideal S96x96 .f32) :
    k0_pay1 (F := Ideal) v33 v34 v35 v40
      = mulf (sMM (sLin v33 v34 v35) v40) (subf (broadcast S2000x96 (Scalar.ofBits (F := Ideal) .f32 0x3F800000#32)) (mulf v33 v33)) := rfl

/-- The two stored halves as composites of the stages. -/
theorem pay2_eq (v1 : FVec Ideal S2000x1 .f32) (v33 : FVec Ideal S2000x96 .f32) (v34 : FVec Ideal S96x96 .f32) (v35 : FVec Ideal S1x96 .f32)
    (v40 v47 v53 : FVec Ideal S96x96 .f32) :
    k0_pay2 (F := Ideal) v1 v33 v34 v35 v40 v47 v53 = mulf (sMM (sMM (k0_pay1 v33 v34 v35 v40) v47) v53) (sCol v1) := rfl
theorem pay3_eq (v1 : FVec Ideal S2000x1 .f32) (v33 : FVec Ideal S2000x96 .f32) (v34 : FVec Ideal S96x96 .f32) (v35 : FVec Ideal S1x96 .f32)
    (v40 v49 v55 : FVec Ideal S96x96 .f32) :
    k0_pay3 (F := Ideal) v1 v33 v34 v35 v40 v49 v55 = mulf (sMM (sMM (k0_pay1 v33 v34 v35 v40) v49) v55) (sCol v1) := rfl

/-- The output layer on a row. -/
theorem h_row (A : Mat NN H2) (r : Fin NN → EReal) (Wq : Mat HH HH) (bq : Fin HH → EReal) (Wp : Mat HH HH) (bp : Fin HH → EReal) (W1a W1b : Mat HH HH) (b1 : Fin HH → EReal)
    (n : Fin NN) (p : Fin 2000) (T : FVec Ideal S2000x96 .f32) (hT : ∀ j : Fin 96, T (ix2 p j) = kt A r Wq bq Wp bp W1a W1b b1 n j)
    (x9 : FVec Ideal S96x96 .f32) (x10 : FVec Ideal S1x96 .f32) (j : Fin 96) :
    sLin T x9 x10 (ix2 p j) = kh A r Wq bq Wp bp W1a W1b b1 (cur x9) (cur x10 (0 : Fin 1)) n j := by
  rw [sLin_apply]
  simp only [hT]
  rfl

/-- The gradient with respect to the hidden pre-activation on a row: (h W2ᵀ)(1 - t²). -/
theorem dEdu_row (A : Mat NN H2) (r : Fin NN → EReal) (Wq : Mat HH HH) (bq : Fin HH → EReal) (Wp : Mat HH HH) (bp : Fin HH → EReal) (W1a W1b : Mat HH HH) (b1 : Fin HH → EReal)
    (n : Fin NN) (p : Fin 2000) (T : FVec Ideal S2000x96 .f32) (hT : ∀ j : Fin 96, T (ix2 p j) = kt A r Wq bq Wp bp W1a W1b b1 n j)
    (x9 : FVec Ideal S96x96 .f32) (x10 : FVec Ideal S1x96 .f32) (x15 : FVec Ideal S96x96 .f32) (j : Fin 96) :
    k0_pay1 (F := Ideal) T x9 x10 x15 (ix2 p j) = kdEdu A r Wq bq Wp bp W1a W1b b1 (cur x9) (cur x10 (0 : Fin 1)) (cur x15) n j := by
  rw [pay1_eq]
  show sMM (sLin T x9 x10) x15 (ix2 p j) * (Ideal.ofBits .f32 0x3F800000#32 - T (ix2 p j) * T (ix2 p j)) = _
  rw [sMM_apply, Ideal.ofBits_one_f32, hT]
  simp only [h_row A r Wq bq Wp bp W1a W1b b1 n p T hT]
  rfl

/-- The stored q half on a row. -/
theorem gq_row (A : Mat NN H2) (r : Fin NN → EReal) (Wq : Mat HH HH) (bq : Fin HH → EReal) (Wp : Mat HH HH) (bp : Fin HH → EReal) (W1a W1b : Mat HH HH) (b1 : Fin HH → EReal)
    (n : Fin NN) (p : Fin 2000) (T : FVec Ideal S2000x96 .f32) (hT : ∀ j : Fin 96, T (ix2 p j) = kt A r Wq bq Wp bp W1a W1b b1 n j)
    (x1 : FVec Ideal S2000x1 .f32) (hr : x1 (ix2 p (0 : Fin 1)) = r n)
    (x9 : FVec Ideal S96x96 .f32) (x10 : FVec Ideal S1x96 .f32) (x15 x13 x11 : FVec Ideal S96x96 .f32) (j : Fin 96) :
    k0_pay2 (F := Ideal) (k0_pay4 x1) T x9 x10 x15 x13 x11 (ix2 p j)
      = kgq A r Wq bq Wp bp W1a W1b b1 (cur x9) (cur x10 (0 : Fin 1)) (cur x11) (cur x13) (cur x15) n j := by
  rw [pay2_eq]
  show sMM (sMM (k0_pay1 T x9 x10 x15) x13) x11 (ix2 p j) * sCol (k0_pay4 x1) (ix2 p j) = _
  rw [sMM_apply, sCol_apply, pay4_eq, hr]
  simp only [sMM_apply, dEdu_row A r Wq bq Wp bp W1a W1b b1 n p T hT]
  rfl

/-- The stored p half on a row. -/
theorem gp_row (A : Mat NN H2) (r : Fin NN → EReal) (Wq : Mat HH HH) (bq : Fin HH → EReal) (Wp : Mat HH HH) (bp : Fin HH → EReal) (W1a W1b : Mat HH HH) (b1 : Fin HH → EReal)
    (n : Fin NN) (p : Fin 2000) (T : FVec Ideal S2000x96 .f32) (hT : ∀ j : Fin 96, T (ix2 p j) = kt A r Wq bq Wp bp W1a W1b b1 n j)
    (x1 : FVec Ideal S2000x1 .f32) (hr : x1 (ix2 p (0 : Fin 1)) = r n)
    (x9 : FVec Ideal S96x96 .f32) (x10 : FVec Ideal S1x96 .f32) (x15 x14 x12 : FVec Ideal S96x96 .f32) (j : Fin 96) :
    k0_pay3 (F := Ideal) (k0_pay4 x1) T x9 x10 x15 x14 x12 (ix2 p j)
      = kgp A r Wq bq Wp bp W1a W1b b1 (cur x9) (cur x10 (0 : Fin 1)) (cur x12) (cur x14) (cur x15) n j := by
  rw [pay3_eq]
  show sMM (sMM (k0_pay1 T x9 x10 x15) x14) x12 (ix2 p j) * sCol (k0_pay4 x1) (ix2 p j) = _
  rw [sMM_apply, sCol_apply, pay4_eq, hr]
  simp only [sMM_apply, dEdu_row A r Wq bq Wp bp W1a W1b b1 n p T hT]
  rfl

end Cert.KernelIdeal.Region0

end
-- ==== Proof.KRegion0.lean ====
/-
  The first region's output array after its run, read at an index: the dense gradient of each node's row.

  The region runs over 25 points; point t loads rows 2000 t … 2000 t + 1999 of the raw aggregate and of the target
  normaliser, and every weight and bias array whole. The body stores two 2000 x 96 payloads side by side into its
  2000 x 192 output block, which is then one function of the block's index: the first payload on columns below 96, the
  second on the rest. Since the body acts on each row by itself, row p of that block is the specification's gradient of
  node 2000 t + p. So what point t writes back is block t of one array, the two gradient halves of every node side by
  side; the 25 blocks cover the 50000 rows (row n lies in block n / 2000), hence the output array ends holding it.
-/
import proofs.«408811_j18047452578207_2_alg».proof.Proof.Gen.KernelIdeal.Frame
import proofs.«408811_j18047452578207_2_alg».proof.Proof.Spec
import proofs.«408811_j18047452578207_2_alg».proof.Proof.KRegion0Aux

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (V : (c : Dev nD) → (b : Ref sig .tc) → Buf (Elt Ideal) ((c : Thread nD τ).loc b))

/-! ### The output block as one function of its index -/

theorem hz : (![0, 0] : Fin 2 → Nat) = fun _ => 0 := funext fun a => by fin_cases a <;> rfl

/-- Two 2000 x 96 blocks side by side as one function on the 2000 x 192 block: the first on columns below 96, the
    second on the rest. -/
def blkFn (P2 P3 : FVec Ideal S2000x96 .f32) : S2000x192.Idx → EReal := fun y =>
  if h : (y 1).val < 96 then P2 (ix2 (y 0) ⟨(y 1).val, h⟩)
  else P3 (ix2 (y 0) ⟨(y 1).val - 96, by have h2 : (y 1).val < 192 := (y 1).isLt; omega⟩)

theorem blkFn_lo (P2 P3 : FVec Ideal S2000x96 .f32) (p : Fin 2000) (j : Fin 96) : blkFn P2 P3 (ix2 p (lo j)) = P2 (ix2 p j) := by
  unfold blkFn
  rw [dif_pos (show ((ix2 p (lo j) : S2000x192.Idx) 1).val < 96 from j.isLt)]
  rfl

theorem blkFn_hi (P2 P3 : FVec Ideal S2000x96 .f32) (p : Fin 2000) (j : Fin 96) : blkFn P2 P3 (ix2 p (hi j)) = P3 (ix2 p j) := by
  unfold blkFn
  have hj : j.val < 96 := j.isLt
  rw [dif_neg (show ¬ ((ix2 p (hi j) : S2000x192.Idx) 1).val < 96 from fun h => by
    have h' : 96 + j.val < 96 := h
    omega)]
  exact congrArg P3 (congrArg (ix2 p) (Fin.ext (show 96 + j.val - 96 = j.val by omega)))

/-- The two stores, the later one on columns 96 … 191 and the earlier on columns 0 … 95, leave that function: each
    store's payload is the function read through the store's rectangle, and the two rectangles cover the block. -/
theorem canon_two (P2 P3 : Vec Ideal S2000x96 .f32) (y : S2000x192.Idx) :
    View.canon [(⟨r0_5, P3⟩ : View.Piece (Elt Ideal) S2000x192 .f32), ⟨r0_4, P2⟩] y = blkFn P2 P3 y := by
  refine View.canon_apply_of_pieces (Val := Elt Ideal) (blkFn P2 P3)
    [(⟨r0_5, P3⟩ : View.Piece (Elt Ideal) S2000x192 .f32), ⟨r0_4, P2⟩] ?_ y (cover0_16 (F := Ideal) P3 P2 y)
  intro pc hpc x
  rcases List.mem_cons.mp hpc with rfl | hpc
  · show P3 x = blkFn P2 P3 (r0_5.emb x)
    have hx1 : (x 1).val < 96 := (x 1).isLt
    have hc : ((r0_5.emb x) 1).val = 96 + 1 * (x 1).val := rfl
    unfold blkFn
    rw [dif_neg (by rw [hc]; omega)]
    exact congrArg P3 (funext fun a => Fin.ext (by
      match a with
      | ⟨0, _⟩ => show (x 0).val = 0 + 1 * (x 0).val; omega
      | ⟨1, _⟩ => show (x 1).val = (96 + 1 * (x 1).val) - 96; omega))
  · rcases List.mem_cons.mp hpc with rfl | hpc
    · show P2 x = blkFn P2 P3 (r0_4.emb x)
      have hx1 : (x 1).val < 96 := (x 1).isLt
      have hc : ((r0_4.emb x) 1).val = 0 + 1 * (x 1).val := rfl
      unfold blkFn
      rw [dif_pos (by rw [hc]; omega)]
      exact congrArg P2 (funext fun a => Fin.ext (by
        match a with
        | ⟨0, _⟩ => show (x 0).val = 0 + 1 * (x 0).val; omega
        | ⟨1, _⟩ => show (x 1).val = 0 + 1 * (x 1).val; omega))
    · exact absurd hpc List.not_mem_nil

/-- What the body leaves in the output block, from the loaded blocks. -/
theorem out16_eq (x0 : Vec Ideal S2000x192 .f32) (x1 : Vec Ideal S2000x1 .f32) (x2 : Vec Ideal S96x96 .f32) (x3 : Vec Ideal S1x96 .f32) (x4 : Vec Ideal S96x96 .f32) (x5 : Vec Ideal S1x96 .f32) (x6 : Vec Ideal S96x96 .f32) (x7 : Vec Ideal S96x96 .f32) (x8 : Vec Ideal S1x96 .f32) (x9 : Vec Ideal S96x96 .f32) (x10 : Vec Ideal S1x96 .f32) (x11 : Vec Ideal S96x96 .f32) (x12 : Vec Ideal S96x96 .f32) (x13 : Vec Ideal S96x96 .f32) (x14 : Vec Ideal S96x96 .f32) (x15 : Vec Ideal S96x96 .f32) :
    out0_16 (F := Ideal) x0 x1 x2 x3 x4 x5 x6 x7 x8 x9 x10 x11 x12 x13 x14 x15
      = blkFn (k0_pay2 (F := Ideal) (k0_pay4 x1) (k0_pay5 x1 x0 x2 x3 x4 x5 x6 x7 x8) x9 x10 x15 x13 x11)
          (k0_pay3 (F := Ideal) (k0_pay4 x1) (k0_pay5 x1 x0 x2 x3 x4 x5 x6 x7 x8) x9 x10 x15 x14 x12) := by
  unfold out0_16
  simp only [View.ld_unit_zero (S := S2000x1) hz, View.ld_unit_zero (S := S2000x192) hz, View.ld_unit_zero (S := S96x96) hz, View.ld_unit_zero (S := S1x96) hz]
  exact funext fun y => canon_two _ _ y

/-- The printed index maps over the 25 grid points: the aggregate, the normaliser and the output sit at block (t, 0),
    every weight and bias array at block (0, 0). -/
theorem idx_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_16.index t (0 : Fin 2) = t.val ∧ win0_16.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0) :=
  (by decide +kernel : ∀ t : Fin grid0.N, _)

/-! ### From the blocks to the array -/

/-- Row p of block t of a 50000-row array with 2000-row blocks is row 2000 t + p: the aggregate's window … -/
theorem emb0 (t : Fin cfg0.N) (p : Fin 2000) (q : Fin 192) (n : Fin 50000) (hn : n.val = 2000 * t.val + p.val) :
    ((cfg0.win 0).blk t).view.emb (ix2 p q) = (ix2 n q : S50000x192.Idx) := by
  obtain ⟨⟨e0, e1⟩, -, -, -, -, -, -, -, -, -, -, -, -, -, -, -, -⟩ := idx_facts t
  refine funext fun a => Fin.ext ?_
  match a with
  | ⟨0, _⟩ => show win0_0.index t (0 : Fin 2) * 2000 + 1 * p.val = n.val; rw [e0, hn]; omega
  | ⟨1, _⟩ => show win0_0.index t (1 : Fin 2) * 192 + 1 * q.val = q.val; rw [e1]; omega
/-- … the normaliser's … -/
theorem emb1 (t : Fin cfg0.N) (p : Fin 2000) (q : Fin 1) (n : Fin 50000) (hn : n.val = 2000 * t.val + p.val) :
    ((cfg0.win 1).blk t).view.emb (ix2 p q) = (ix2 n q : S50000x1.Idx) := by
  obtain ⟨-, ⟨e0, e1⟩, -, -, -, -, -, -, -, -, -, -, -, -, -, -, -⟩ := idx_facts t
  refine funext fun a => Fin.ext ?_
  match a with
  | ⟨0, _⟩ => show win0_1.index t (0 : Fin 2) * 2000 + 1 * p.val = n.val; rw [e0, hn]; omega
  | ⟨1, _⟩ => show win0_1.index t (1 : Fin 2) * 1 + 1 * q.val = q.val; rw [e1]; omega
/-- … and the output's. -/
theorem emb16 (t : Fin cfg0.N) (p : Fin 2000) (q : Fin 192) (n : Fin 50000) (hn : n.val = 2000 * t.val + p.val) :
    ((cfg0.win 16).blk t).view.emb (ix2 p q) = (ix2 n q : S50000x192.Idx) := by
  obtain ⟨-, -, ⟨e0, e1⟩, -, -, -, -, -, -, -, -, -, -, -, -, -, -⟩ := idx_facts t
  refine funext fun a => Fin.ext ?_
  match a with
  | ⟨0, _⟩ => show win0_16.index t (0 : Fin 2) * 2000 + 1 * p.val = n.val; rw [e0, hn]; omega
  | ⟨1, _⟩ => show win0_16.index t (1 : Fin 2) * 192 + 1 * q.val = q.val; rw [e1]; omega

/-- The aggregate's block at point t holds rows 2000 t … 2000 t + 1999 of the aggregate. -/
theorem blk0_apply (c : Dev nD) (t : Fin cfg0.N) (p : Fin 2000) (q : Fin 192) (n : Fin 50000) (hn : n.val = 2000 * t.val + p.val) :
    (iblk0 V c 0 t : Vec Ideal S2000x192 .f32) (ix2 p q) = (V c main_v29 : S50000x192.Idx → EReal) (ix2 n q) := by
  unfold iblk0
  rw [View.read_apply]
  show (V c main_v29 : S50000x192.Idx → EReal) _ = V c main_v29 (ix2 n q)
  exact congrArg (V c main_v29 : S50000x192.Idx → EReal) (emb0 t p q n hn)
/-- The normaliser's block at point t holds those rows of the normaliser. -/
theorem blk1_apply (c : Dev nD) (t : Fin cfg0.N) (p : Fin 2000) (q : Fin 1) (n : Fin 50000) (hn : n.val = 2000 * t.val + p.val) :
    (iblk0 V c 1 t : Vec Ideal S2000x1 .f32) (ix2 p q) = (V c main_v41 : S50000x1.Idx → EReal) (ix2 n q) := by
  unfold iblk0
  rw [View.read_apply]
  show (V c main_v41 : S50000x1.Idx → EReal) _ = V c main_v41 (ix2 n q)
  exact congrArg (V c main_v41 : S50000x1.Idx → EReal) (emb1 t p q n hn)

/-! Each weight or bias window's block is its whole array, at every point. -/
theorem blk2_eq (c : Dev nD) (t : Fin cfg0.N) : (iblk0 V c 2 t : Vec Ideal S96x96 .f32) = (V c main_arg4 : S96x96.Idx → EReal) := by
  obtain ⟨-, -, -, ⟨e0, e1⟩, -, -, -, -, -, -, -, -, -, -, -, -, -⟩ := idx_facts t
  funext y
  unfold iblk0
  rw [View.read_apply]
  show (V c main_arg4 : S96x96.Idx → EReal) _ = V c main_arg4 y
  refine congrArg (V c main_arg4 : S96x96.Idx → EReal) (funext fun a => Fin.ext ?_)
  match a with
  | ⟨0, _⟩ => show win0_2.index t (0 : Fin 2) * 96 + 1 * (y 0).val = (y 0).val; rw [e0]; omega
  | ⟨1, _⟩ => show win0_2.index t (1 : Fin 2) * 96 + 1 * (y 1).val = (y 1).val; rw [e1]; omega
theorem blk3_eq (c : Dev nD) (t : Fin cfg0.N) : (iblk0 V c 3 t : Vec Ideal S1x96 .f32) = (V c main_v37 : S1x96.Idx → EReal) := by
  obtain ⟨-, -, -, -, ⟨e0, e1⟩, -, -, -, -, -, -, -, -, -, -, -, -⟩ := idx_facts t
  funext y
  unfold iblk0
  rw [View.read_apply]
  show (V c main_v37 : S1x96.Idx → EReal) _ = V c main_v37 y
  refine congrArg (V c main_v37 : S1x96.Idx → EReal) (funext fun a => Fin.ext ?_)
  match a with
  | ⟨0, _⟩ => show win0_3.index t (0 : Fin 2) * 1 + 1 * (y 0).val = (y 0).val; rw [e0]; omega
  | ⟨1, _⟩ => show win0_3.index t (1 : Fin 2) * 96 + 1 * (y 1).val = (y 1).val; rw [e1]; omega
theorem blk4_eq (c : Dev nD) (t : Fin cfg0.N) : (iblk0 V c 4 t : Vec Ideal S96x96 .f32) = (V c main_arg6 : S96x96.Idx → EReal) := by
  obtain ⟨-, -, -, -, -, ⟨e0, e1⟩, -, -, -, -, -, -, -, -, -, -, -⟩ := idx_facts t
  funext y
  unfold iblk0
  rw [View.read_apply]
  show (V c main_arg6 : S96x96.Idx → EReal) _ = V c main_arg6 y
  refine congrArg (V c main_arg6 : S96x96.Idx → EReal) (funext fun a => Fin.ext ?_)
  match a with
  | ⟨0, _⟩ => show win0_4.index t (0 : Fin 2) * 96 + 1 * (y 0).val = (y 0).val; rw [e0]; omega
  | ⟨1, _⟩ => show win0_4.index t (1 : Fin 2) * 96 + 1 * (y 1).val = (y 1).val; rw [e1]; omega
theorem blk5_eq (c : Dev nD) (t : Fin cfg0.N) : (iblk0 V c 5 t : Vec Ideal S1x96 .f32) = (V c main_v38 : S1x96.Idx → EReal) := by
  obtain ⟨-, -, -, -, -, -, ⟨e0, e1⟩, -, -, -, -, -, -, -, -, -, -⟩ := idx_facts t
  funext y
  unfold iblk0
  rw [View.read_apply]
  show (V c main_v38 : S1x96.Idx → EReal) _ = V c main_v38 y
  refine congrArg (V c main_v38 : S1x96.Idx → EReal) (funext fun a => Fin.ext ?_)
  match a with
  | ⟨0, _⟩ => show win0_5.index t (0 : Fin 2) * 1 + 1 * (y 0).val = (y 0).val; rw [e0]; omega
  | ⟨1, _⟩ => show win0_5.index t (1 : Fin 2) * 96 + 1 * (y 1).val = (y 1).val; rw [e1]; omega
theorem blk6_eq (c : Dev nD) (t : Fin cfg0.N) : (iblk0 V c 6 t : Vec Ideal S96x96 .f32) = (V c main_v30 : S96x96.Idx → EReal) := by
  obtain ⟨-, -, -, -, -, -, -, ⟨e0, e1⟩, -, -, -, -, -, -, -, -, -⟩ := idx_facts t
  funext y
  unfold iblk0
  rw [View.read_apply]
  show (V c main_v30 : S96x96.Idx → EReal) _ = V c main_v30 y
  refine congrArg (V c main_v30 : S96x96.Idx → EReal) (funext fun a => Fin.ext ?_)
  match a with
  | ⟨0, _⟩ => show win0_6.index t (0 : Fin 2) * 96 + 1 * (y 0).val = (y 0).val; rw [e0]; omega
  | ⟨1, _⟩ => show win0_6.index t (1 : Fin 2) * 96 + 1 * (y 1).val = (y 1).val; rw [e1]; omega
theorem blk7_eq (c : Dev nD) (t : Fin cfg0.N) : (iblk0 V c 7 t : Vec Ideal S96x96 .f32) = (V c main_v31 : S96x96.Idx → EReal) := by
  obtain ⟨-, -, -, -, -, -, -, -, ⟨e0, e1⟩, -, -, -, -, -, -, -, -⟩ := idx_facts t
  funext y
  unfold iblk0
  rw [View.read_apply]
  show (V c main_v31 : S96x96.Idx → EReal) _ = V c main_v31 y
  refine congrArg (V c main_v31 : S96x96.Idx → EReal) (funext fun a => Fin.ext ?_)
  match a with
  | ⟨0, _⟩ => show win0_7.index t (0 : Fin 2) * 96 + 1 * (y 0).val = (y 0).val; rw [e0]; omega
  | ⟨1, _⟩ => show win0_7.index t (1 : Fin 2) * 96 + 1 * (y 1).val = (y 1).val; rw [e1]; omega
theorem blk8_eq (c : Dev nD) (t : Fin cfg0.N) : (iblk0 V c 8 t : Vec Ideal S1x96 .f32) = (V c main_v39 : S1x96.Idx → EReal) := by
  obtain ⟨-, -, -, -, -, -, -, -, -, ⟨e0, e1⟩, -, -, -, -, -, -, -⟩ := idx_facts t
  funext y
  unfold iblk0
  rw [View.read_apply]
  show (V c main_v39 : S1x96.Idx → EReal) _ = V c main_v39 y
  refine congrArg (V c main_v39 : S1x96.Idx → EReal) (funext fun a => Fin.ext ?_)
  match a with
  | ⟨0, _⟩ => show win0_8.index t (0 : Fin 2) * 1 + 1 * (y 0).val = (y 0).val; rw [e0]; omega
  | ⟨1, _⟩ => show win0_8.index t (1 : Fin 2) * 96 + 1 * (y 1).val = (y 1).val; rw [e1]; omega
theorem blk9_eq (c : Dev nD) (t : Fin cfg0.N) : (iblk0 V c 9 t : Vec Ideal S96x96 .f32) = (V c main_arg10 : S96x96.Idx → EReal) := by
  obtain ⟨-, -, -, -, -, -, -, -, -, -, ⟨e0, e1⟩, -, -, -, -, -, -⟩ := idx_facts t
  funext y
  unfold iblk0
  rw [View.read_apply]
  show (V c main_arg10 : S96x96.Idx → EReal) _ = V c main_arg10 y
  refine congrArg (V c main_arg10 : S96x96.Idx → EReal) (funext fun a => Fin.ext ?_)
  match a with
  | ⟨0, _⟩ => show win0_9.index t (0 : Fin 2) * 96 + 1 * (y 0).val = (y 0).val; rw [e0]; omega
  | ⟨1, _⟩ => show win0_9.index t (1 : Fin 2) * 96 + 1 * (y 1).val = (y 1).val; rw [e1]; omega
theorem blk10_eq (c : Dev nD) (t : Fin cfg0.N) : (iblk0 V c 10 t : Vec Ideal S1x96 .f32) = (V c main_v40 : S1x96.Idx → EReal) := by
  obtain ⟨-, -, -, -, -, -, -, -, -, -, -, ⟨e0, e1⟩, -, -, -, -, -⟩ := idx_facts t
  funext y
  unfold iblk0
  rw [View.read_apply]
  show (V c main_v40 : S1x96.Idx → EReal) _ = V c main_v40 y
  refine congrArg (V c main_v40 : S1x96.Idx → EReal) (funext fun a => Fin.ext ?_)
  match a with
  | ⟨0, _⟩ => show win0_10.index t (0 : Fin 2) * 1 + 1 * (y 0).val = (y 0).val; rw [e0]; omega
  | ⟨1, _⟩ => show win0_10.index t (1 : Fin 2) * 96 + 1 * (y 1).val = (y 1).val; rw [e1]; omega
theorem blk11_eq (c : Dev nD) (t : Fin cfg0.N) : (iblk0 V c 11 t : Vec Ideal S96x96 .f32) = (V c main_v32 : S96x96.Idx → EReal) := by
  obtain ⟨-, -, -, -, -, -, -, -, -, -, -, -, ⟨e0, e1⟩, -, -, -, -⟩ := idx_facts t
  funext y
  unfold iblk0
  rw [View.read_apply]
  show (V c main_v32 : S96x96.Idx → EReal) _ = V c main_v32 y
  refine congrArg (V c main_v32 : S96x96.Idx → EReal) (funext fun a => Fin.ext ?_)
  match a with
  | ⟨0, _⟩ => show win0_11.index t (0 : Fin 2) * 96 + 1 * (y 0).val = (y 0).val; rw [e0]; omega
  | ⟨1, _⟩ => show win0_11.index t (1 : Fin 2) * 96 + 1 * (y 1).val = (y 1).val; rw [e1]; omega
theorem blk12_eq (c : Dev nD) (t : Fin cfg0.N) : (iblk0 V c 12 t : Vec Ideal S96x96 .f32) = (V c main_v33 : S96x96.Idx → EReal) := by
  obtain ⟨-, -, -, -, -, -, -, -, -, -, -, -, -, ⟨e0, e1⟩, -, -, -⟩ := idx_facts t
  funext y
  unfold iblk0
  rw [View.read_apply]
  show (V c main_v33 : S96x96.Idx → EReal) _ = V c main_v33 y
  refine congrArg (V c main_v33 : S96x96.Idx → EReal) (funext fun a => Fin.ext ?_)
  match a with
  | ⟨0, _⟩ => show win0_12.index t (0 : Fin 2) * 96 + 1 * (y 0).val = (y 0).val; rw [e0]; omega
  | ⟨1, _⟩ => show win0_12.index t (1 : Fin 2) * 96 + 1 * (y 1).val = (y 1).val; rw [e1]; omega
theorem blk13_eq (c : Dev nD) (t : Fin cfg0.N) : (iblk0 V c 13 t : Vec Ideal S96x96 .f32) = (V c main_v34 : S96x96.Idx → EReal) := by
  obtain ⟨-, -, -, -, -, -, -, -, -, -, -, -, -, -, ⟨e0, e1⟩, -, -⟩ := idx_facts t
  funext y
  unfold iblk0
  rw [View.read_apply]
  show (V c main_v34 : S96x96.Idx → EReal) _ = V c main_v34 y
  refine congrArg (V c main_v34 : S96x96.Idx → EReal) (funext fun a => Fin.ext ?_)
  match a with
  | ⟨0, _⟩ => show win0_13.index t (0 : Fin 2) * 96 + 1 * (y 0).val = (y 0).val; rw [e0]; omega
  | ⟨1, _⟩ => show win0_13.index t (1 : Fin 2) * 96 + 1 * (y 1).val = (y 1).val; rw [e1]; omega
theorem blk14_eq (c : Dev nD) (t : Fin cfg0.N) : (iblk0 V c 14 t : Vec Ideal S96x96 .f32) = (V c main_v35 : S96x96.Idx → EReal) := by
  obtain ⟨-, -, -, -, -, -, -, -, -, -, -, -, -, -, -, ⟨e0, e1⟩, -⟩ := idx_facts t
  funext y
  unfold iblk0
  rw [View.read_apply]
  show (V c main_v35 : S96x96.Idx → EReal) _ = V c main_v35 y
  refine congrArg (V c main_v35 : S96x96.Idx → EReal) (funext fun a => Fin.ext ?_)
  match a with
  | ⟨0, _⟩ => show win0_14.index t (0 : Fin 2) * 96 + 1 * (y 0).val = (y 0).val; rw [e0]; omega
  | ⟨1, _⟩ => show win0_14.index t (1 : Fin 2) * 96 + 1 * (y 1).val = (y 1).val; rw [e1]; omega
theorem blk15_eq (c : Dev nD) (t : Fin cfg0.N) : (iblk0 V c 15 t : Vec Ideal S96x96 .f32) = (V c main_v36 : S96x96.Idx → EReal) := by
  obtain ⟨-, -, -, -, -, -, -, -, -, -, -, -, -, -, -, -, ⟨e0, e1⟩⟩ := idx_facts t
  funext y
  unfold iblk0
  rw [View.read_apply]
  show (V c main_v36 : S96x96.Idx → EReal) _ = V c main_v36 y
  refine congrArg (V c main_v36 : S96x96.Idx → EReal) (funext fun a => Fin.ext ?_)
  match a with
  | ⟨0, _⟩ => show win0_15.index t (0 : Fin 2) * 96 + 1 * (y 0).val = (y 0).val; rw [e0]; omega
  | ⟨1, _⟩ => show win0_15.index t (1 : Fin 2) * 96 + 1 * (y 1).val = (y 1).val; rw [e1]; omega

/-- The gradient halves of every node, from the arrays as the region finds them. -/
def KQ (c : Dev nD) : Mat NN HH := kgq (cur (V c main_v29 : S50000x192.Idx → EReal)) (fun n => cur (V c main_v41 : S50000x1.Idx → EReal) n (0 : Fin 1))
    (cur (V c main_arg4 : S96x96.Idx → EReal)) (cur (V c main_v37 : S1x96.Idx → EReal) (0 : Fin 1))
    (cur (V c main_arg6 : S96x96.Idx → EReal)) (cur (V c main_v38 : S1x96.Idx → EReal) (0 : Fin 1))
    (cur (V c main_v30 : S96x96.Idx → EReal)) (cur (V c main_v31 : S96x96.Idx → EReal))
    (cur (V c main_v39 : S1x96.Idx → EReal) (0 : Fin 1))
    (cur (V c main_arg10 : S96x96.Idx → EReal)) (cur (V c main_v40 : S1x96.Idx → EReal) (0 : Fin 1))
    (cur (V c main_v32 : S96x96.Idx → EReal)) (cur (V c main_v34 : S96x96.Idx → EReal)) (cur (V c main_v36 : S96x96.Idx → EReal))
def KP (c : Dev nD) : Mat NN HH := kgp (cur (V c main_v29 : S50000x192.Idx → EReal)) (fun n => cur (V c main_v41 : S50000x1.Idx → EReal) n (0 : Fin 1))
    (cur (V c main_arg4 : S96x96.Idx → EReal)) (cur (V c main_v37 : S1x96.Idx → EReal) (0 : Fin 1))
    (cur (V c main_arg6 : S96x96.Idx → EReal)) (cur (V c main_v38 : S1x96.Idx → EReal) (0 : Fin 1))
    (cur (V c main_v30 : S96x96.Idx → EReal)) (cur (V c main_v31 : S96x96.Idx → EReal))
    (cur (V c main_v39 : S1x96.Idx → EReal) (0 : Fin 1))
    (cur (V c main_arg10 : S96x96.Idx → EReal)) (cur (V c main_v40 : S1x96.Idx → EReal) (0 : Fin 1))
    (cur (V c main_v33 : S96x96.Idx → EReal)) (cur (V c main_v35 : S96x96.Idx → EReal)) (cur (V c main_v36 : S96x96.Idx → EReal))
/-- The whole output array: the two halves side by side. -/
def G16 (c : Dev nD) : S50000x192.Idx → EReal := fun i => cat (KQ V c) (KP V c) (i 0) (i 1)

/-- What point t writes back is block t of that array: rows 2000 t … 2000 t + 1999. -/
theorem flushed_eq (c : Dev nD) (t : Fin cfg0.N) :
    (dat0 V c).flushed 16 t = ((cfg0.win 16).blk t).view.read (Elt Ideal) (G16 V c) := by
  show (cfg0.win 16).cut (grid0.coords t) ((dat0 V c).after 16 t) = _
  rw [after0_16, blk2_eq V c t, blk3_eq V c t, blk4_eq V c t, blk5_eq V c t, blk6_eq V c t, blk7_eq V c t, blk8_eq V c t, blk9_eq V c t, blk10_eq V c t, blk11_eq V c t, blk12_eq V c t, blk13_eq V c t, blk14_eq V c t, blk15_eq V c t]
  funext y
  obtain ⟨p, q, rfl⟩ : ∃ (p : Fin 2000) (q : Fin 192), y = ix2 p q := ⟨y 0, y 1, eq_ix2 y⟩
  have hp : p.val < 2000 := p.isLt
  have ht : t.val < 25 := lt_of_lt_of_eq t.isLt N_0
  obtain ⟨n, hn⟩ : ∃ n : Fin 50000, n.val = 2000 * t.val + p.val := ⟨⟨2000 * t.val + p.val, by omega⟩, rfl⟩
  rw [View.read_apply]
  show out0_16 (F := Ideal) (iblk0 V c 0 t) (iblk0 V c 1 t) (V c main_arg4) (V c main_v37) (V c main_arg6) (V c main_v38) (V c main_v30) (V c main_v31) (V c main_v39) (V c main_arg10) (V c main_v40) (V c main_v32) (V c main_v33) (V c main_v34) (V c main_v35) (V c main_v36) (ix2 p q)
      = G16 V c (((cfg0.win 16).blk t).view.emb (ix2 p q))
  rw [emb16 t p q n hn, out16_eq]
  have hA : ∀ c' : Fin 192, (iblk0 V c 0 t : Vec Ideal S2000x192 .f32) (ix2 p c') = cur (V c main_v29 : S50000x192.Idx → EReal) n c' :=
    fun c' => blk0_apply V c t p c' n hn
  have hr : (iblk0 V c 1 t : Vec Ideal S2000x1 .f32) (ix2 p (0 : Fin 1)) = (fun n => cur (V c main_v41 : S50000x1.Idx → EReal) n (0 : Fin 1)) n :=
    blk1_apply V c t p 0 n hn
  have hT := t_row (cur (V c main_v29 : S50000x192.Idx → EReal)) (fun n => cur (V c main_v41 : S50000x1.Idx → EReal) n (0 : Fin 1)) n p
    (iblk0 V c 0 t) (iblk0 V c 1 t) hA hr (V c main_arg4) (V c main_v37) (V c main_arg6) (V c main_v38) (V c main_v30) (V c main_v31) (V c main_v39)
  by_cases hq : q.val < 96
  · obtain ⟨j, rfl⟩ : ∃ j : Fin 96, q = lo j := ⟨⟨q.val, hq⟩, Fin.ext rfl⟩
    rw [blkFn_lo]
    refine (gq_row (cur (V c main_v29 : S50000x192.Idx → EReal)) (fun n => cur (V c main_v41 : S50000x1.Idx → EReal) n (0 : Fin 1))
      (cur (V c main_arg4 : S96x96.Idx → EReal)) (cur (V c main_v37 : S1x96.Idx → EReal) (0 : Fin 1))
      (cur (V c main_arg6 : S96x96.Idx → EReal)) (cur (V c main_v38 : S1x96.Idx → EReal) (0 : Fin 1))
      (cur (V c main_v30 : S96x96.Idx → EReal)) (cur (V c main_v31 : S96x96.Idx → EReal))
      (cur (V c main_v39 : S1x96.Idx → EReal) (0 : Fin 1))
      n p _ hT (iblk0 V c 1 t) hr (V c main_arg10) (V c main_v40) (V c main_v36) (V c main_v34) (V c main_v32) j).trans ?_
    exact (cat_lo (KQ V c) (KP V c) n j).symm
  · have hq2 : q.val < 192 := q.isLt
    obtain ⟨j, rfl⟩ : ∃ j : Fin 96, q = hi j := ⟨⟨q.val - 96, by omega⟩, Fin.ext (show q.val = 96 + (q.val - 96) by omega)⟩
    rw [blkFn_hi]
    refine (gp_row (cur (V c main_v29 : S50000x192.Idx → EReal)) (fun n => cur (V c main_v41 : S50000x1.Idx → EReal) n (0 : Fin 1))
      (cur (V c main_arg4 : S96x96.Idx → EReal)) (cur (V c main_v37 : S1x96.Idx → EReal) (0 : Fin 1))
      (cur (V c main_arg6 : S96x96.Idx → EReal)) (cur (V c main_v38 : S1x96.Idx → EReal) (0 : Fin 1))
      (cur (V c main_v30 : S96x96.Idx → EReal)) (cur (V c main_v31 : S96x96.Idx → EReal))
      (cur (V c main_v39 : S1x96.Idx → EReal) (0 : Fin 1))
      n p _ hT (iblk0 V c 1 t) hr (V c main_arg10) (V c main_v40) (V c main_v36) (V c main_v35) (V c main_v33) j).trans ?_
    exact (cat_hi (KQ V c) (KP V c) n j).symm

/-- Every row lies in one point's block: row n in the block of point n / 2000. -/
theorem cover16 (i : S50000x192.Idx) :
    ∃ t : Fin cfg0.N, (cfg0.win 16).flush t = true ∧ i ∈ ((cfg0.win 16).blk t).view.set := by
  have hi0 : (i 0).val < 50000 := (i 0).isLt
  have hi1 : (i 1).val < 192 := (i 1).isLt
  obtain ⟨t, ht⟩ : ∃ t : Fin cfg0.N, t.val = (i 0).val / 2000 :=
    ⟨⟨(i 0).val / 2000, by rw [show cfg0.N = 25 from N_0]; omega⟩, rfl⟩
  obtain ⟨-, -, ⟨e0, e1⟩, -, -, -, -, -, -, -, -, -, -, -, -, -, -⟩ := idx_facts t
  refine ⟨t, flush0_16 t, ?_⟩
  show i ∈ ((View.whole main_v43).slice (win0_16.rect t)).set
  rw [View.set_slice_whole, Rect.mem_set_unit]
  intro a
  match a with
  | ⟨0, _⟩ =>
    show win0_16.index t (0 : Fin 2) * 2000 ≤ (i 0).val ∧ (i 0).val < win0_16.index t (0 : Fin 2) * 2000 + 2000
    rw [e0, ht]; omega
  | ⟨1, _⟩ =>
    show win0_16.index t (1 : Fin 2) * 192 ≤ (i 1).val ∧ (i 1).val < win0_16.index t (1 : Fin 2) * 192 + 192
    rw [e1]; omega

/-- So the output array ends holding the two gradient halves side by side. -/
theorem arr16 (c : Dev nD) : (dat0 (F := Ideal) V c).arrAt 16 cfg0.N = G16 V c :=
  (dat0 V c).arrAt_eq_of_cover 16 (G16 V c) (fun t _ => flushed_eq V c t) cover16

theorem out16_lo (c : Dev nD) (n : Fin 50000) (j : Fin 96) :
    cur ((dat0 (F := Ideal) V c).arrAt 16 cfg0.N : S50000x192.Idx → EReal) n (lo j)
      = kgq (cur (V c main_v29 : S50000x192.Idx → EReal)) (fun n => cur (V c main_v41 : S50000x1.Idx → EReal) n (0 : Fin 1))
          (cur (V c main_arg4 : S96x96.Idx → EReal)) (cur (V c main_v37 : S1x96.Idx → EReal) (0 : Fin 1))
          (cur (V c main_arg6 : S96x96.Idx → EReal)) (cur (V c main_v38 : S1x96.Idx → EReal) (0 : Fin 1))
          (cur (V c main_v30 : S96x96.Idx → EReal)) (cur (V c main_v31 : S96x96.Idx → EReal))
          (cur (V c main_v39 : S1x96.Idx → EReal) (0 : Fin 1))
          (cur (V c main_arg10 : S96x96.Idx → EReal)) (cur (V c main_v40 : S1x96.Idx → EReal) (0 : Fin 1))
          (cur (V c main_v32 : S96x96.Idx → EReal)) (cur (V c main_v34 : S96x96.Idx → EReal)) (cur (V c main_v36 : S96x96.Idx → EReal)) n j := by
  rw [arr16 V c]
  exact cat_lo (KQ V c) (KP V c) n j

theorem out16_hi (c : Dev nD) (n : Fin 50000) (j : Fin 96) :
    cur ((dat0 (F := Ideal) V c).arrAt 16 cfg0.N : S50000x192.Idx → EReal) n (hi j)
      = kgp (cur (V c main_v29 : S50000x192.Idx → EReal)) (fun n => cur (V c main_v41 : S50000x1.Idx → EReal) n (0 : Fin 1))
          (cur (V c main_arg4 : S96x96.Idx → EReal)) (cur (V c main_v37 : S1x96.Idx → EReal) (0 : Fin 1))
          (cur (V c main_arg6 : S96x96.Idx → EReal)) (cur (V c main_v38 : S1x96.Idx → EReal) (0 : Fin 1))
          (cur (V c main_v30 : S96x96.Idx → EReal)) (cur (V c main_v31 : S96x96.Idx → EReal))
          (cur (V c main_v39 : S1x96.Idx → EReal) (0 : Fin 1))
          (cur (V c main_arg10 : S96x96.Idx → EReal)) (cur (V c main_v40 : S1x96.Idx → EReal) (0 : Fin 1))
          (cur (V c main_v33 : S96x96.Idx → EReal)) (cur (V c main_v35 : S96x96.Idx → EReal)) (cur (V c main_v36 : S96x96.Idx → EReal)) n j := by
  rw [arr16 V c]
  exact cat_hi (KQ V c) (KP V c) n j

end Cert.KernelIdeal.Region0

end
-- ==== Proof.KRegion1.lean ====
/-
  The second region's two output arrays after its run, read at an index: the leapfrog step, node by node.

  The region walks 25 points; at point t every window holds rows 2000 t to 2000 t + 1999 of its array. The body
  adds to (subtracts from) the block of main_arg0 (main_arg1) one times the block of main_v55 (main_v54) times the
  normaliser column main_v42 broadcast across the 96 columns, and writes the result block back. Each result
  array is therefore one function of the arrays the region finds, index by index; the 25 blocks cover the 50000
  rows (row n is in block n / 2000), so the array after the run is that function everywhere.
-/
import proofs.«408811_j18047452578207_2_alg».proof.Proof.Gen.KernelIdeal.Frame
import proofs.«408811_j18047452578207_2_alg».proof.Proof.Spec
import proofs.«408811_j18047452578207_2_alg».proof.Proof.LibKeepdims
import Idealize.ShloMosaic.Lib.IdealHost
import Idealize.ShloMosaic.Lib.Pipeline.Value

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-- The zero offsets of a whole-block access, in the two spellings the library meets. -/
theorem zero_offsets : (![0, 0] : Fin 2 → Nat) = fun _ => 0 := funext fun a => by fin_cases a <;> rfl

/-- The normaliser column of a block, cast to itself and broadcast across the 96 columns, reads at (p, q) the
    column's entry of row p. -/
theorem column_read (x2 : Vec Ideal S2000x1 .f32) (p : Fin 2000) (q : Fin 96) :
    broadcastTo S2000x96 (k1_pay1 x2) broadcasts_S2000x1_S2000x96 (ix2 p q) = x2 (ix2 p (0 : Fin 1)) := by
  unfold k1_pay1
  rw [shapeCast_self]
  exact Cert.LibKeepdims.broadcastTo_a1_ab_apply x2 broadcasts_S2000x1_S2000x96 p q

/-- The word 0x3F800000 is the number one. -/
theorem one_word : (FloatOps.ofBits FTy.f32 1065353216#32 : Ideal .f32) = (1 : EReal) :=
  Ideal.ofBits_one_f32

/-- The first store's payload at (p, q): x3 + 1 * (x1 * the normaliser of row p). -/
theorem sum_payload (x2 : Vec Ideal S2000x1 .f32) (x1 x3 : Vec Ideal S2000x96 .f32) (p : Fin 2000) (q : Fin 96) :
    k1_pay2 x2 x1 x3 (ix2 p q) = x3 (ix2 p q) + 1 * (x1 (ix2 p q) * x2 (ix2 p (0 : Fin 1))) := by
  unfold k1_pay2
  rw [addf_apply, mulf_apply, mulf_apply, broadcast_apply, shapeCast_self, column_read, one_word]

/-- The second store's payload at (p, q): x4 - 1 * (x0 * the normaliser of row p). -/
theorem diff_payload (x2 : Vec Ideal S2000x1 .f32) (x0 x4 : Vec Ideal S2000x96 .f32) (p : Fin 2000) (q : Fin 96) :
    k1_pay3 x2 x0 x4 (ix2 p q) = x4 (ix2 p q) - 1 * (x0 (ix2 p q) * x2 (ix2 p (0 : Fin 1))) := by
  unfold k1_pay3
  rw [subf_apply, mulf_apply, mulf_apply, broadcast_apply, shapeCast_self, column_read, one_word]

/-- The grid has 25 points. -/
theorem point_lt (t : Fin cfg1.N) : t.val < 25 := by
  have h : t.val < cfg1.N := t.isLt
  have e : cfg1.N = 25 := N_1
  omega

/-- Every window of the region is indexed by (t, 0) at point t (decided over the 25 points). -/
theorem index_facts : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_4.index t (0 : Fin 2) = t.val ∧ win1_4.index t (1 : Fin 2) = 0)
    ∧ (win1_5.index t (0 : Fin 2) = t.val ∧ win1_5.index t (1 : Fin 2) = 0)
    ∧ (win1_6.index t (0 : Fin 2) = t.val ∧ win1_6.index t (1 : Fin 2) = 0) :=
  (by decide +kernel : ∀ t : Fin grid1.N, _)

/-- Entry (p, q) of block t of a window of 2000 rows and 96 columns is entry (2000 t + p, q) of its array:
    windows 0, 1, 3, 4 (inputs) and 5, 6 (results). -/
theorem emb0 (t : Fin cfg1.N) (p : Fin 2000) (q : Fin 96) (n : Fin 50000) (hn : n.val = 2000 * t.val + p.val) :
    ((cfg1.win 0).blk t).view.emb (ix2 p q) = (ix2 n q : S50000x96.Idx) := by
  obtain ⟨⟨e0, e1⟩, -, -, -, -, -, -⟩ := index_facts t
  funext a; apply Fin.ext
  match a with
  | ⟨0, _⟩ => show win1_0.index t (0 : Fin 2) * 2000 + 1 * p.val = n.val; omega
  | ⟨1, _⟩ => show win1_0.index t (1 : Fin 2) * 96 + 1 * q.val = q.val; omega

theorem emb1 (t : Fin cfg1.N) (p : Fin 2000) (q : Fin 96) (n : Fin 50000) (hn : n.val = 2000 * t.val + p.val) :
    ((cfg1.win 1).blk t).view.emb (ix2 p q) = (ix2 n q : S50000x96.Idx) := by
  obtain ⟨-, ⟨e0, e1⟩, -, -, -, -, -⟩ := index_facts t
  funext a; apply Fin.ext
  match a with
  | ⟨0, _⟩ => show win1_1.index t (0 : Fin 2) * 2000 + 1 * p.val = n.val; omega
  | ⟨1, _⟩ => show win1_1.index t (1 : Fin 2) * 96 + 1 * q.val = q.val; omega

/-- Entry (p, 0) of block t of the normaliser's window (2000 rows, one column) is entry (2000 t + p, 0) of its array. -/
theorem emb2 (t : Fin cfg1.N) (p : Fin 2000) (n : Fin 50000) (hn : n.val = 2000 * t.val + p.val) :
    ((cfg1.win 2).blk t).view.emb (ix2 p (0 : Fin 1)) = (ix2 n (0 : Fin 1) : S50000x1.Idx) := by
  obtain ⟨-, -, ⟨e0, e1⟩, -, -, -, -⟩ := index_facts t
  funext a; apply Fin.ext
  match a with
  | ⟨0, _⟩ => show win1_2.index t (0 : Fin 2) * 2000 + 1 * p.val = n.val; omega
  | ⟨1, _⟩ => show win1_2.index t (1 : Fin 2) * 1 + 1 * 0 = 0; omega

theorem emb3 (t : Fin cfg1.N) (p : Fin 2000) (q : Fin 96) (n : Fin 50000) (hn : n.val = 2000 * t.val + p.val) :
    ((cfg1.win 3).blk t).view.emb (ix2 p q) = (ix2 n q : S50000x96.Idx) := by
  obtain ⟨-, -, -, ⟨e0, e1⟩, -, -, -⟩ := index_facts t
  funext a; apply Fin.ext
  match a with
  | ⟨0, _⟩ => show win1_3.index t (0 : Fin 2) * 2000 + 1 * p.val = n.val; omega
  | ⟨1, _⟩ => show win1_3.index t (1 : Fin 2) * 96 + 1 * q.val = q.val; omega

theorem emb4 (t : Fin cfg1.N) (p : Fin 2000) (q : Fin 96) (n : Fin 50000) (hn : n.val = 2000 * t.val + p.val) :
    ((cfg1.win 4).blk t).view.emb (ix2 p q) = (ix2 n q : S50000x96.Idx) := by
  obtain ⟨-, -, -, -, ⟨e0, e1⟩, -, -⟩ := index_facts t
  funext a; apply Fin.ext
  match a with
  | ⟨0, _⟩ => show win1_4.index t (0 : Fin 2) * 2000 + 1 * p.val = n.val; omega
  | ⟨1, _⟩ => show win1_4.index t (1 : Fin 2) * 96 + 1 * q.val = q.val; omega

theorem emb5 (t : Fin cfg1.N) (p : Fin 2000) (q : Fin 96) (n : Fin 50000) (hn : n.val = 2000 * t.val + p.val) :
    ((cfg1.win 5).blk t).view.emb (ix2 p q) = (ix2 n q : S50000x96.Idx) := by
  obtain ⟨-, -, -, -, -, ⟨e0, e1⟩, -⟩ := index_facts t
  funext a; apply Fin.ext
  match a with
  | ⟨0, _⟩ => show win1_5.index t (0 : Fin 2) * 2000 + 1 * p.val = n.val; omega
  | ⟨1, _⟩ => show win1_5.index t (1 : Fin 2) * 96 + 1 * q.val = q.val; omega

theorem emb6 (t : Fin cfg1.N) (p : Fin 2000) (q : Fin 96) (n : Fin 50000) (hn : n.val = 2000 * t.val + p.val) :
    ((cfg1.win 6).blk t).view.emb (ix2 p q) = (ix2 n q : S50000x96.Idx) := by
  obtain ⟨-, -, -, -, -, -, ⟨e0, e1⟩⟩ := index_facts t
  funext a; apply Fin.ext
  match a with
  | ⟨0, _⟩ => show win1_6.index t (0 : Fin 2) * 2000 + 1 * p.val = n.val; omega
  | ⟨1, _⟩ => show win1_6.index t (1 : Fin 2) * 96 + 1 * q.val = q.val; omega

variable (V : (c : Dev nD) → (b : Ref sig .tc) → Buf (Elt Ideal) ((c : Thread nD τ).loc b))

/-- What each input window's block holds at point t, entry by entry: the array's entry of row 2000 t + p. -/
theorem read0 (c : Dev nD) (t : Fin cfg1.N) (p : Fin 2000) (q : Fin 96) (n : Fin 50000) (hn : n.val = 2000 * t.val + p.val) :
    iblk1 V c 0 t (ix2 p q) = (V c main_v54 : S50000x96.Idx → EReal) (ix2 n q) :=
  congrArg (V c main_v54 : S50000x96.Idx → EReal) (emb0 t p q n hn)

theorem read1 (c : Dev nD) (t : Fin cfg1.N) (p : Fin 2000) (q : Fin 96) (n : Fin 50000) (hn : n.val = 2000 * t.val + p.val) :
    iblk1 V c 1 t (ix2 p q) = (V c main_v55 : S50000x96.Idx → EReal) (ix2 n q) :=
  congrArg (V c main_v55 : S50000x96.Idx → EReal) (emb1 t p q n hn)

theorem read2 (c : Dev nD) (t : Fin cfg1.N) (p : Fin 2000) (n : Fin 50000) (hn : n.val = 2000 * t.val + p.val) :
    iblk1 V c 2 t (ix2 p (0 : Fin 1)) = (V c main_v42 : S50000x1.Idx → EReal) (ix2 n (0 : Fin 1)) :=
  congrArg (V c main_v42 : S50000x1.Idx → EReal) (emb2 t p n hn)

theorem read3 (c : Dev nD) (t : Fin cfg1.N) (p : Fin 2000) (q : Fin 96) (n : Fin 50000) (hn : n.val = 2000 * t.val + p.val) :
    iblk1 V c 3 t (ix2 p q) = (V c main_arg0 : S50000x96.Idx → EReal) (ix2 n q) :=
  congrArg (V c main_arg0 : S50000x96.Idx → EReal) (emb3 t p q n hn)

theorem read4 (c : Dev nD) (t : Fin cfg1.N) (p : Fin 2000) (q : Fin 96) (n : Fin 50000) (hn : n.val = 2000 * t.val + p.val) :
    iblk1 V c 4 t (ix2 p q) = (V c main_arg1 : S50000x96.Idx → EReal) (ix2 n q) :=
  congrArg (V c main_arg1 : S50000x96.Idx → EReal) (emb4 t p q n hn)

/-- The first result as one function of the arrays the region finds: entry i of main_arg0 plus one times
    (entry i of main_v55 times the normaliser of i's row). -/
abbrev stepUp (a3 a1 : S50000x96.Idx → EReal) (a2 : S50000x1.Idx → EReal) : S50000x96.Idx → EReal :=
  fun i => a3 i + 1 * (a1 i * a2 (ix2 (i 0 : Fin 50000) (0 : Fin 1)))

/-- The second result: entry i of main_arg1 minus one times (entry i of main_v54 times the normaliser of i's row). -/
abbrev stepDown (a4 a0 : S50000x96.Idx → EReal) (a2 : S50000x1.Idx → EReal) : S50000x96.Idx → EReal :=
  fun i => a4 i - 1 * (a0 i * a2 (ix2 (i 0 : Fin 50000) (0 : Fin 1)))

/-- Point t writes back block t (rows 2000 t to 2000 t + 1999) of the first result's function. -/
theorem block5 (c : Dev nD) (t : Fin cfg1.N) :
    (dat1 (F := Ideal) V c).flushed 5 t
      = ((cfg1.win 5).blk t).view.read (Elt Ideal)
          (stepUp (V c main_arg0 : S50000x96.Idx → EReal) (V c main_v55 : S50000x96.Idx → EReal) (V c main_v42 : S50000x1.Idx → EReal)) := by
  show (cfg1.win 5).cut (grid1.coords t) ((dat1 (F := Ideal) V c).after 5 t) = _
  rw [after1_5]
  unfold out1_5
  rw [View.canon_unit_zero zero_offsets]
  simp only [View.ld_unit_zero (S := S2000x96) zero_offsets, View.ld_unit_zero (S := S2000x1) zero_offsets]
  funext j
  obtain ⟨p, q, rfl⟩ : ∃ (p : Fin 2000) (q : Fin 96), j = ix2 p q := ⟨j 0, j 1, eq_ix2 j⟩
  have hn : 2000 * t.val + p.val < 50000 := by
    have h1 := point_lt t
    have h2 : p.val < 2000 := p.isLt
    omega
  show k1_pay2 (iblk1 V c 2 t) (iblk1 V c 1 t) (iblk1 V c 3 t) (ix2 p q)
    = stepUp (V c main_arg0 : S50000x96.Idx → EReal) (V c main_v55 : S50000x96.Idx → EReal) (V c main_v42 : S50000x1.Idx → EReal)
        (((cfg1.win 5).blk t).view.emb (ix2 p q))
  rw [emb5 t p q ⟨2000 * t.val + p.val, hn⟩ rfl]
  refine (sum_payload (iblk1 V c 2 t) (iblk1 V c 1 t) (iblk1 V c 3 t) p q).trans ?_
  exact congrArg₂ (· + ·) (read3 V c t p q ⟨2000 * t.val + p.val, hn⟩ rfl)
    (congrArg (fun z : EReal => 1 * z)
      (congrArg₂ (· * ·) (read1 V c t p q ⟨2000 * t.val + p.val, hn⟩ rfl) (read2 V c t p ⟨2000 * t.val + p.val, hn⟩ rfl)))

/-- Point t writes back block t of the second result's function. -/
theorem block6 (c : Dev nD) (t : Fin cfg1.N) :
    (dat1 (F := Ideal) V c).flushed 6 t
      = ((cfg1.win 6).blk t).view.read (Elt Ideal)
          (stepDown (V c main_arg1 : S50000x96.Idx → EReal) (V c main_v54 : S50000x96.Idx → EReal) (V c main_v42 : S50000x1.Idx → EReal)) := by
  show (cfg1.win 6).cut (grid1.coords t) ((dat1 (F := Ideal) V c).after 6 t) = _
  rw [after1_6]
  unfold out1_6
  rw [View.canon_unit_zero zero_offsets]
  simp only [View.ld_unit_zero (S := S2000x96) zero_offsets, View.ld_unit_zero (S := S2000x1) zero_offsets]
  funext j
  obtain ⟨p, q, rfl⟩ : ∃ (p : Fin 2000) (q : Fin 96), j = ix2 p q := ⟨j 0, j 1, eq_ix2 j⟩
  have hn : 2000 * t.val + p.val < 50000 := by
    have h1 := point_lt t
    have h2 : p.val < 2000 := p.isLt
    omega
  show k1_pay3 (iblk1 V c 2 t) (iblk1 V c 0 t) (iblk1 V c 4 t) (ix2 p q)
    = stepDown (V c main_arg1 : S50000x96.Idx → EReal) (V c main_v54 : S50000x96.Idx → EReal) (V c main_v42 : S50000x1.Idx → EReal)
        (((cfg1.win 6).blk t).view.emb (ix2 p q))
  rw [emb6 t p q ⟨2000 * t.val + p.val, hn⟩ rfl]
  refine (diff_payload (iblk1 V c 2 t) (iblk1 V c 0 t) (iblk1 V c 4 t) p q).trans ?_
  exact congrArg₂ (· - ·) (read4 V c t p q ⟨2000 * t.val + p.val, hn⟩ rfl)
    (congrArg (fun z : EReal => 1 * z)
      (congrArg₂ (· * ·) (read0 V c t p q ⟨2000 * t.val + p.val, hn⟩ rfl) (read2 V c t p ⟨2000 * t.val + p.val, hn⟩ rfl)))

/-- An index of a result array is in point t's block iff each coordinate is in the block's range on its axis. -/
theorem mem_blk5 (t : Fin cfg1.N) (i : S50000x96.Idx) :
    i ∈ ((cfg1.win 5).blk t).view.set ↔ ∀ a : Fin 2, win1_5.index t a * S2000x96.size a ≤ (i a).val ∧ (i a).val < win1_5.index t a * S2000x96.size a + S2000x96.size a := by
  show i ∈ ((View.whole main_v56_0).slice (win1_5.rect t)).set ↔ _
  rw [View.set_slice_whole, Rect.mem_set_unit]
  exact Iff.rfl

theorem mem_blk6 (t : Fin cfg1.N) (i : S50000x96.Idx) :
    i ∈ ((cfg1.win 6).blk t).view.set ↔ ∀ a : Fin 2, win1_6.index t a * S2000x96.size a ≤ (i a).val ∧ (i a).val < win1_6.index t a * S2000x96.size a + S2000x96.size a := by
  show i ∈ ((View.whole main_v56_1).slice (win1_6.rect t)).set ↔ _
  rw [View.set_slice_whole, Rect.mem_set_unit]
  exact Iff.rfl

/-- Row n lies in block n / 2000, and every point writes back: the blocks cover the first result array. -/
theorem cover5 (i : S50000x96.Idx) :
    ∃ t : Fin cfg1.N, (cfg1.win 5).flush t = true ∧ i ∈ ((cfg1.win 5).blk t).view.set := by
  have hi0 : (i 0).val < 50000 := (i 0).isLt
  have hi1 : (i 1).val < 96 := (i 1).isLt
  have hN : cfg1.N = 25 := N_1
  have ht : (i 0).val / 2000 < cfg1.N := by rw [hN]; omega
  obtain ⟨-, -, -, -, -, ⟨e0, e1⟩, -⟩ := index_facts ⟨(i 0).val / 2000, ht⟩
  refine ⟨⟨(i 0).val / 2000, ht⟩, flush1_5 _, ?_⟩
  rw [mem_blk5]
  intro a
  match a with
  | ⟨0, _⟩ =>
    show win1_5.index ⟨(i 0).val / 2000, ht⟩ (0 : Fin 2) * 2000 ≤ (i 0).val
      ∧ (i 0).val < win1_5.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_5.index ⟨(i 0).val / 2000, ht⟩ (1 : Fin 2) * 96 ≤ (i 1).val
      ∧ (i 1).val < win1_5.index ⟨(i 0).val / 2000, ht⟩ (1 : Fin 2) * 96 + 96
    rw [e1]
    omega

/-- The same for the second result array. -/
theorem cover6 (i : S50000x96.Idx) :
    ∃ t : Fin cfg1.N, (cfg1.win 6).flush t = true ∧ i ∈ ((cfg1.win 6).blk t).view.set := by
  have hi0 : (i 0).val < 50000 := (i 0).isLt
  have hi1 : (i 1).val < 96 := (i 1).isLt
  have hN : cfg1.N = 25 := N_1
  have ht : (i 0).val / 2000 < cfg1.N := by rw [hN]; omega
  obtain ⟨-, -, -, -, -, -, ⟨e0, e1⟩⟩ := index_facts ⟨(i 0).val / 2000, ht⟩
  refine ⟨⟨(i 0).val / 2000, ht⟩, flush1_6 _, ?_⟩
  rw [mem_blk6]
  intro a
  match a with
  | ⟨0, _⟩ =>
    show win1_6.index ⟨(i 0).val / 2000, ht⟩ (0 : Fin 2) * 2000 ≤ (i 0).val
      ∧ (i 0).val < win1_6.index ⟨(i 0).val / 2000, ht⟩ (0 : Fin 2) * 2000 + 2000
    rw [e0]
    show (i 0).val / 2000 * 2000 ≤ (i 0).val ∧ (i 0).val < (i 0).val / 2000 * 2000 + 2000
    omega
  | ⟨1, _⟩ =>
    show win1_6.index ⟨(i 0).val / 2000, ht⟩ (1 : Fin 2) * 96 ≤ (i 1).val
      ∧ (i 1).val < win1_6.index ⟨(i 0).val / 2000, ht⟩ (1 : Fin 2) * 96 + 96
    rw [e1]
    omega

/-- So each result array ends holding its function everywhere. -/
theorem final5 (c : Dev nD) :
    (dat1 (F := Ideal) V c).arrAt 5 cfg1.N
      = stepUp (V c main_arg0 : S50000x96.Idx → EReal) (V c main_v55 : S50000x96.Idx → EReal) (V c main_v42 : S50000x1.Idx → EReal) :=
  (dat1 (F := Ideal) V c).arrAt_eq_of_cover 5 _ (fun t _ => block5 V c t) cover5

theorem final6 (c : Dev nD) :
    (dat1 (F := Ideal) V c).arrAt 6 cfg1.N
      = stepDown (V c main_arg1 : S50000x96.Idx → EReal) (V c main_v54 : S50000x96.Idx → EReal) (V c main_v42 : S50000x1.Idx → EReal) :=
  (dat1 (F := Ideal) V c).arrAt_eq_of_cover 6 _ (fun t _ => block6 V c t) cover6

/-- The first result at node n, column j: q + 1 * (the scaled aggregate times the node's normaliser). -/
theorem out5 (c : Dev nD) (n : Fin 50000) (j : Fin 96) :
    cur ((dat1 (F := Ideal) V c).arrAt 5 cfg1.N : S50000x96.Idx → EReal) n j
      = cur (V c main_arg0 : S50000x96.Idx → EReal) n j
        + 1 * (cur (V c main_v55 : S50000x96.Idx → EReal) n j * cur (V c main_v42 : S50000x1.Idx → EReal) n (0 : Fin 1)) := by
  unfold cur
  rw [final5 V c]

/-- The second result at node n, column j: p - 1 * (the scaled aggregate times the node's normaliser). -/
theorem out6 (c : Dev nD) (n : Fin 50000) (j : Fin 96) :
    cur ((dat1 (F := Ideal) V c).arrAt 6 cfg1.N : S50000x96.Idx → EReal) n j
      = cur (V c main_arg1 : S50000x96.Idx → EReal) n j
        - 1 * (cur (V c main_v54 : S50000x96.Idx → EReal) n j * cur (V c main_v42 : S50000x1.Idx → EReal) n (0 : Fin 1)) := by
  unfold cur
  rw [final6 V c]

end Cert.KernelIdeal.Region1

end
-- ==== Proof.LibRowGather.lean ====
/-
  A gather of whole rows, read at an index.

  What `x[idx]` of a matrix `x : [N, C]` at a vector of row numbers lowers to: a gather with offset axis 1, the
  collapsed slice axis 0, start index map `[0]`, slice sizes `[1, C]`, over the indices as a column `[R, 1]`.
  Result element `(r, q)` is `x` at row `idx[r, 0]` (read signed, clamped into `[0, N − 1]`) and column `q`: the
  gather selects whole rows, so any function applied row by row commutes with it.
-/
import Idealize.ShloMosaic.Lib.ValueIdx

noncomputable section

namespace Idealize.ShloMosaic.ValueIdx

section RowGather
variable {α : Type}

/-- Those dimension numbers for an operand `[N, C]`, start indices `[R, 1]` and result `[R, C]`. -/
abbrev rowGatherDims (N R C : Nat)
    (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- The operand row that result row `r` reads: its start index, read signed and clamped into `[0, N − 1]`. -/
def gatherRow {N R w : Nat} (hN : 0 < N) (idx : IVec ⟨2, ![R, 1]⟩ w) (r : Fin R) : Fin N :=
  ⟨min (idx (ix2 r (0 : Fin 1))).toInt.toNat (N - 1), by omega⟩

/-- THE ROW GATHER READ AT `(r, q)`: the operand at the row `r` reads and the same column. -/
theorem rowGather_apply {N R C w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowGatherDims N R C wf) x idx (ix2 r q) = x (ix2 (gatherRow hN idx r) q) := by
  unfold Host.gather
  congr 1
  funext a
  refine Fin.ext ?_
  match a with
  | ⟨0, _⟩ =>
    show (rowGatherDims N R C wf).start (ix2 r q) idx 0 + (rowGatherDims N R C wf).batchCoord (ix2 r q) 0
      + (rowGatherDims N R C wf).offCoord (ix2 r q) 0 = min (idx (ix2 r (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N R C wf).startIndexMap from List.mem_singleton.mpr rfl)]
    have hsi : (rowGatherDims N R C wf).siIdx (ix2 r q) ⟨List.idxOf (0 : Fin 2) (rowGatherDims N R C wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowGatherDims N R C wf).start (ix2 r q) idx 1 + (rowGatherDims N R C wf).batchCoord (ix2 r q) 1
      + (rowGatherDims N R C wf).offCoord (ix2 r q) 1 = q.val
    have hmem : (1 : Fin 2) ∈ (rowGatherDims N R C wf).sKept :=
      (GatherDims.mem_sKept _ _).mpr ⟨show (1 : Fin 2) ∉ [(0 : Fin 2)] by decide, List.not_mem_nil⟩
    have hnot : (1 : Fin 2) ∉ (rowGatherDims N R C wf).startIndexMap := show (1 : Fin 2) ∉ [(0 : Fin 2)] by decide
    rw [GatherDims.batchCoord_eq_zero _ _ _ List.not_mem_nil]
    unfold GatherDims.start GatherDims.offCoord
    rw [dif_neg hnot, dif_pos hmem]
    simp only [Nat.zero_add]
    rfl

end RowGather

end Idealize.ShloMosaic.ValueIdx

end
-- ==== Proof.LibRowScatterAdd.lean ====
/-
  An accumulating scatter of whole rows, read at an index on the extended reals.

  `segment_sum(upd, idx)` of rows `upd : [R, C]` into `[N, C]` lowers to a scatter with an `add` body, update window
  axis 1, inserted window axis 0, the scatter index naming operand axis 0, over the indices as a column `[R, 1]`.
  Update element `(r, q')` lands on operand element `(idx[r, 0], q')` (the index read signed, NOT clamped; outside
  `[0, N)` the update is dropped). So element `(n, q)` of the result is the operand's plus the sum over the rows `r`
  whose index is `n` of `upd (r, q)`: columns never mix, which is why scattering rows laid side by side is scattering
  each part on its own.
-/
import Idealize.ShloMosaic.Lib.ValueIdx
import Idealize.ShloMosaic.PureOps.Ideal.Laws

noncomputable section

namespace Idealize.ShloMosaic.ValueIdx

section RowScatterAdd

/-- Those dimension numbers for an operand `[N, C]`, scatter indices `[R, 1]` and updates `[R, C]`. -/
abbrev rowScatterDims (N R C : Nat)
    (wf : ScatterDims.WF ⟨2, ![N, C]⟩ ⟨2, ![R, 1]⟩ ⟨2, ![R, C]⟩ [1] [0] [0] 1) :
    ScatterDims ⟨2, ![N, C]⟩ ⟨2, ![R, 1]⟩ ⟨2, ![R, C]⟩ where
  updateWindowDims := [1]
  insertedWindowDims := [0]
  scatterDimsToOperandDims := [0]
  indexVectorDim := 1
  wf := wf

/-- Operand axis 1 is not an inserted window axis: it is the one axis the update window runs over. -/
theorem rs_mem_sKept {N R C : Nat}
    (wf : ScatterDims.WF ⟨2, ![N, C]⟩ ⟨2, ![R, 1]⟩ ⟨2, ![R, C]⟩ [1] [0] [0] 1) :
    (1 : Fin 2) ∈ (rowScatterDims N R C wf).sKept := by
  show (1 : Fin 2) ∈ (List.finRange 2).filter (fun a => a ∉ [(0 : Fin 2)])
  decide

/-- Operand axis 0 is the inserted window axis. -/
theorem rs_not_mem_sKept {N R C : Nat}
    (wf : ScatterDims.WF ⟨2, ![N, C]⟩ ⟨2, ![R, 1]⟩ ⟨2, ![R, C]⟩ [1] [0] [0] 1) :
    (0 : Fin 2) ∉ (rowScatterDims N R C wf).sKept := by
  show (0 : Fin 2) ∉ (List.finRange 2).filter (fun a => a ∉ [(0 : Fin 2)])
  decide

/-- On operand axis 0 the window coordinate is `0`. -/
theorem rs_window0 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 0 = 0 := by
  unfold ScatterDims.window
  rw [dif_neg (rs_not_mem_sKept wf)]

/-- On operand axis 1 the window coordinate is the update's column `q'`. -/
theorem rs_window1 {N R C : Nat}
    (wf : ScatterDims.WF ⟨2, ![N, C]⟩ ⟨2, ![R, 1]⟩ ⟨2, ![R, C]⟩ [1] [0] [0] 1) (r : Fin R) (q' : Fin C) :
    (rowScatterDims N R C wf).window (ix2 r q') 1 = q'.val := by
  unfold ScatterDims.window
  rw [dif_pos (rs_mem_sKept wf)]
  rfl

/-- On operand axis 1, which the scatter index does not name, the window starts at `0`. -/
theorem rs_start1 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 1 = 0 := by
  unfold ScatterDims.start
  rw [dif_neg (show (1 : Fin 2) ∉ [(0 : Fin 2)] by decide)]

/-- On operand axis 0 the window starts at row `r`'s index `idx[r, 0]`, read signed. -/
theorem rs_start0 {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) :
    (rowScatterDims N R C wf).start (ix2 r q') idx 0 = (idx (ix2 r (0 : Fin 1))).toInt := by
  unfold ScatterDims.start
  rw [dif_pos (show (0 : Fin 2) ∈ (rowScatterDims N R C wf).scatterDimsToOperandDims from List.mem_singleton.mpr rfl)]
  have hsi : (rowScatterDims N R C wf).siIdx (ix2 r q') ⟨List.idxOf (0 : Fin 2) (rowScatterDims N R C wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update element `(r, q')` lands on `(n, q)` iff row `r`'s index, read signed, is `n`, and the columns agree. -/
theorem rowScatter_resultIdx_iff {N R C w : Nat}
    (wf : ScatterDims.WF ⟨2, ![N, C]⟩ ⟨2, ![R, 1]⟩ ⟨2, ![R, C]⟩ [1] [0] [0] 1)
    (idx : IVec ⟨2, ![R, 1]⟩ w) (r : Fin R) (q' : Fin C) (n : Fin N) (q : Fin C) :
    (rowScatterDims N R C wf).resultIdx? (ix2 r q') idx = some (ix2 n q)
      ↔ (idx (ix2 r (0 : Fin 1))).toInt = (n.val : Int) ∧ q' = q := by
  unfold ScatterDims.resultIdx?
  have hN : (![N, C] 0 : Nat) = N := rfl
  have hC : (![N, C] 1 : Nat) = C := rfl
  have hn := n.isLt
  have hq' := q'.isLt
  simp only [Fin.forall_fin_two, rs_start0, rs_start1, rs_window0, rs_window1]
  split
  · rw [Option.some.injEq]
    constructor
    · intro he
      have e0 : ((rowScatterDims N R C wf).start (ix2 r q') idx 0
          + ((rowScatterDims N R C wf).window (ix2 r q') 0 : Nat)).toNat = n.val :=
        congrArg (fun f => (f 0).val) he
      have e1 : ((rowScatterDims N R C wf).start (ix2 r q') idx 1
          + ((rowScatterDims N R C wf).window (ix2 r q') 1 : Nat)).toNat = q.val :=
        congrArg (fun f => (f 1).val) he
      rw [rs_start0, rs_window0] at e0
      rw [rs_start1, rs_window1] at e1
      exact ⟨by omega, Fin.ext (by omega)⟩
    · rintro ⟨e0, e1⟩
      funext a
      refine Fin.ext ?_
      match a with
      | ⟨0, _⟩ =>
        show ((rowScatterDims N R C wf).start (ix2 r q') idx 0
          + ((rowScatterDims N R C wf).window (ix2 r q') 0 : Nat)).toNat = n.val
        rw [rs_start0, rs_window0]; omega
      | ⟨1, _⟩ =>
        show ((rowScatterDims N R C wf).start (ix2 r q') idx 1
          + ((rowScatterDims N R C wf).window (ix2 r q') 1 : Nat)).toNat = q.val
        rw [rs_start1, rs_window1, e1]; omega
  · rename_i h
    constructor
    · intro he; cases he
    · rintro ⟨e0, e1⟩
      exact absurd ⟨⟨by omega, by omega⟩, by omega, by omega⟩ h

/-- THE ROW SCATTER-ADD READ AT `(n, q)` on the extended reals: the operand's element plus the sum, over the rows whose
    index is `n`, of the update's element in column `q`. -/
theorem rowScatterAdd_apply {N R C w : Nat}
    (wf : ScatterDims.WF ⟨2, ![N, C]⟩ ⟨2, ![R, 1]⟩ ⟨2, ![R, C]⟩ [1] [0] [0] 1)
    (x : (⟨2, ![N, C]⟩ : Shape).Idx → EReal) (idx : IVec ⟨2, ![R, 1]⟩ w)
    (upd : (⟨2, ![R, C]⟩ : Shape).Idx → EReal) (n : Fin N) (q : Fin C) :
    Ideal.hostScatterAdd (rowScatterDims N R C wf) x idx upd (ix2 n q)
      = x (ix2 n q) + ∑ r : Fin R, if (idx (ix2 r (0 : Fin 1))).toInt = (n.val : Int) then upd (ix2 r q) else 0 := by
  show x (ix2 n q) + ∑ j ∈ Finset.univ.filter
      (fun j => (rowScatterDims N R C wf).resultIdx? j idx = some (ix2 n q)), upd j = _
  congr 1
  rw [Finset.sum_filter, sum_idx2]
  refine Finset.sum_congr rfl (fun r _ => ?_)
  simp only [rowScatter_resultIdx_iff]
  by_cases h : (idx (ix2 r (0 : Fin 1))).toInt = (n.val : Int)
  · simp only [h, true_and, if_true]
    rw [Finset.sum_ite_eq' Finset.univ q (fun q' => upd (ix2 r q')), if_pos (Finset.mem_univ q)]
  · simp only [h, false_and, if_false, Finset.sum_const_zero]

end RowScatterAdd

end Idealize.ShloMosaic.ValueIdx

end
-- ==== Proof.LibCount.lean ====
/-
  An integer accumulating scatter counts. The host's `scatter` with an integer `add` body is a left fold over the
  updates in row-major order; because word addition is commutative and associative, the fold's value at an operand index
  is the operand's word plus the sum of the updates whose result index is that index. With every update the word 1 into a
  zero operand that sum is the NUMBER of updates landing there; while that number is below 2^31 the word read signed is
  the number, and converting it to a float gives, on the extended reals, exactly what the accumulating float scatter of
  ones into zeros gives: the two ways of counting in-degrees agree.
-/
import Idealize.ShloMosaic.PureOps.Ideal
import Idealize.ShloMosaic.PureOps.Ideal.Laws
import Idealize.ShloMosaic.Lib.WordSum

noncomputable section

namespace Idealize.ShloMosaic.LibCount

open Idealize.ShloMosaic

/-- One pass of the scatter's fold over ANY list of update positions, read at one operand index: the accumulator's word
    there plus, over the list, each update whose result index is that operand index (the others add the word zero).
    A step whose update lands at the index adds that update to the entry; a step that lands elsewhere, or outside the
    operand, leaves the entry as it was; associativity of word addition collects the additions on the right. -/
private theorem foldl_step_apply {s si u : Shape} {w w' : Nat} (d : ScatterDims s si u) (idx : IVec si w')
    (upd : u.Idx → BitVec w) (i : s.Idx) (l : List (Fin u.numel)) (r : s.Idx → BitVec w) :
    (l.foldl (fun r n =>
        match d.resultIdx? (u.rowMajor.symm n) idx with
        | some i => fun i' => if i' = i then IntOp.addi (r i) (upd (u.rowMajor.symm n)) else r i'
        | none => r) r) i
      = r i + (l.map (fun n =>
          if d.resultIdx? (u.rowMajor.symm n) idx = some i then upd (u.rowMajor.symm n) else 0)).sum := by
  induction l generalizing r with
  | nil => simp
  | cons n l ih =>
    rw [List.foldl_cons, ih, List.map_cons, List.sum_cons]
    cases hk : d.resultIdx? (u.rowMajor.symm n) idx with
    | none => simp
    | some k =>
      by_cases hki : k = i
      · subst hki
        simp [IntOp.addi, add_assoc]
      · have hik : ¬ i = k := fun h => hki h.symm
        simp [hki, hik]

/-- The integer accumulating scatter at an operand index: the operand's word plus the sum of the updates that land there. -/
theorem scatter_addi_apply {s si u : Shape} {w w' : Nat} (d : ScatterDims s si u) (x : s.Idx → BitVec w) (idx : IVec si w')
    (upd : u.Idx → BitVec w) (i : s.Idx) :
    Host.scatter d IntOp.addi x idx upd i
      = x i + ∑ j ∈ Finset.univ.filter (fun j => d.resultIdx? j idx = some i), upd j := by
  -- the fold over all positions in order, then: a list sum over every position is the sum over the positions' finite
  -- type; the row-major numbering is a bijection with the update indices; and a sum of "the update or zero" is the sum
  -- over the indices that pass the test
  refine (foldl_step_apply d idx upd i (List.finRange u.numel) x).trans ?_
  rw [← Fin.sum_univ_def, Finset.sum_filter,
    ← Equiv.sum_comp u.rowMajor.symm (fun j => if d.resultIdx? j idx = some i then upd j else 0)]

/-- Counting with words and counting with reals agree: the signed reading of the integer scatter of ones into zeros,
    as a float, is the float accumulating scatter of ones into zeros (fewer than 2^31 updates in all). -/
theorem sitofp_scatter_ones {s si u : Shape} {w' : Nat} (d : ScatterDims s si u) (idx : IVec si w') (hu : u.numel < 2 ^ 31)
    (i : s.Idx) :
    FloatOps.sitofp (F := Ideal) .f32 (Host.scatter d IntOp.addi (fun _ => 0#32) idx (fun _ => 1#32) i)
      = Ideal.hostScatterAdd d (fun _ => (0 : EReal)) idx (fun _ => (1 : EReal)) i := by
  -- the set of updates that land at the index, and its size: at most the number of update indices, so below 2^31
  set S := Finset.univ.filter (fun j : u.Idx => d.resultIdx? j idx = some i) with hS
  have hcard : S.card < 2 ^ 31 :=
    lt_of_le_of_lt ((Finset.card_le_univ S).trans_eq u.card_idx) hu
  -- the word: zero plus a sum of ones that stays inside the word, so its value is the size of the set
  have hnat : (∑ _j ∈ S, (1#32 : BitVec 32)).toNat = S.card := by
    have h1 : ∑ _j ∈ S, ((1#32 : BitVec 32)).toNat = S.card := by simp
    rw [WordSum.toNat_sum S (fun _ => (1#32 : BitVec 32)) (by rw [h1]; omega), h1]
  -- below 2^31 the signed reading is the value
  have hint : (∑ _j ∈ S, (1#32 : BitVec 32)).toInt = (S.card : ℤ) := by
    rw [BitVec.toInt_eq_toNat_of_lt (by rw [hnat]; omega), hnat]
  rw [scatter_addi_apply]
  show ((((0#32 : BitVec 32) + ∑ _j ∈ S, (1#32 : BitVec 32)).toInt : ℝ) : EReal) = (0 : EReal) + ∑ _j ∈ S, (1 : EReal)
  rw [show (0#32 : BitVec 32) = 0 from rfl, zero_add, zero_add, hint, Finset.sum_const, nsmul_one,
    Int.cast_natCast, EReal.coe_natCast]

end Idealize.ShloMosaic.LibCount

end
-- ==== Proof.LibHostRead.lean ====
/-
  Two readings at the ideal values that the library's index vocabulary does not have: the host's float quotient at an
  index, and a 32-bit index word read signed that lands in a range [0, K).
-/
import Idealize.ShloMosaic.PureOps.Ideal
import Idealize.ShloMosaic.Lib.ValueIdx

namespace Idealize.ShloMosaic.ValueIdx

open Idealize.ShloMosaic

/-- The host's float quotient (`stablehlo.divide`) read at an index, at the ideal values: the extended reals' quotient
    of the operands' entries (the host's twin of `divf_apply`). -/
theorem hostDivf_apply {s : Shape} {φ : FTy} (a b : FVec Ideal s φ) (i : s.Idx) :
    Host.divf a b i = Ideal.div (a i) (b i) := rfl

/-- A 32-bit word read SIGNED lies in [0, K) at the natural number `k < K` (with K ≤ 2³¹) exactly when the word read
    UNSIGNED is `k`: what a scatter's or a gather's start index, which is read signed and dropped outside the operand,
    says of an index word when the target position is inside the operand. -/
theorem toInt_lands_iff (w : BitVec 32) {K : ℤ} {k : ℕ} (hK : K ≤ 2 ^ 31) (hk : (k : ℤ) < K) :
    (0 ≤ w.toInt ∧ w.toInt < K ∧ w.toInt.toNat = k) ↔ w.toNat = k := by
  have h := w.isLt
  rw [BitVec.toInt_eq_toNat_cond]
  split <;> omega

end Idealize.ShloMosaic.ValueIdx
-- ==== Proof.KHostA.lean ====
/-
  The host operations before the first region, read at an index: what each array the region stages holds.
-/
import proofs.«408811_j18047452578207_2_alg».proof.Proof.Gen.KernelIdeal.Frame
import proofs.«408811_j18047452578207_2_alg».proof.Proof.Spec
import proofs.«408811_j18047452578207_2_alg».proof.Proof.LibRowGather
import proofs.«408811_j18047452578207_2_alg».proof.Proof.LibRowScatterAdd
import proofs.«408811_j18047452578207_2_alg».proof.Proof.LibCount
import proofs.«408811_j18047452578207_2_alg».proof.Proof.LibKeepdims
import proofs.«408811_j18047452578207_2_alg».proof.Proof.LibHostRead

set_option maxRecDepth 16384

noncomputable section

namespace Cert.KernelIdeal.HostA

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD) (s d : Ends)

/-- Argument k of the program as launched on core c. -/
abbrev arg (b : Ref sig .tc) := m ((c : Thread nD τ).loc b)

/-! ### A buffer no operation of a stretch writes keeps its contents -/

/-- A reference in a list lies, as a device buffer, in the list's set of device buffers. -/
private theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- Every reference each stretch before the first region writes. -/
def wr0 : List (Ref sig .tc) :=
  [main_c, main_v0, main_c_0, main_v1, main_v2, main_v3, main_v4, main_c_1, main_v5, main_v6, main_v7, main_v8, main_cst]
def wr1 : List (Ref sig .tc) := [main_call0_v0, main_call0_v1, main_v9]
def wr2 : List (Ref sig .tc) := [main_cst_2]
def wr3 : List (Ref sig .tc) := [main_call1_v0, main_call1_v1, main_v10]
def wr4 : List (Ref sig .tc) :=
  [main_v11, main_v12, main_v13, main_v14, main_v15, main_v16, main_v17, main_v18, main_v19, main_c_3, main_v20, main_v21,
    main_c_4, main_v22, main_v23, main_v24, main_v25, main_v26, main_cst_5, main_v27, main_v28, main_v29, main_v30, main_v31,
    main_v32, main_v33, main_v34, main_v35, main_v36, main_v37, main_v38, main_v39, main_v40, main_v41, main_v42]

/-- Each stretch writes only the references listed for it. -/
theorem writes0 : (hostOps0 (F := Ideal)).Forall fun op => op.writes ⊆ (wr0.map (Proc.devRef (τ := τ) .tc)).toFinset := by
  simp only [hostOps0, List.Forall, StableHlo.nullary_writes, StableHlo.unary_writes, StableHlo.binary_writes,
    StableHlo.ternary_writes, StableHlo.reshape_writes]
  repeat' apply And.intro
  all_goals exact single_sub_of_mem (by decide)
theorem writes1 : (hostOps0_1 (F := Ideal)).Forall fun op => op.writes ⊆ (wr1.map (Proc.devRef (τ := τ) .tc)).toFinset := by
  simp only [hostOps0_1, List.Forall, StableHlo.nullary_writes, StableHlo.unary_writes, StableHlo.binary_writes,
    StableHlo.ternary_writes, StableHlo.reshape_writes]
  repeat' apply And.intro
  all_goals exact single_sub_of_mem (by decide)
theorem writes2 : (hostOps0_2 (F := Ideal)).Forall fun op => op.writes ⊆ (wr2.map (Proc.devRef (τ := τ) .tc)).toFinset := by
  simp only [hostOps0_2, List.Forall, StableHlo.nullary_writes, StableHlo.unary_writes, StableHlo.binary_writes,
    StableHlo.ternary_writes, StableHlo.reshape_writes]
  exact single_sub_of_mem (by decide)
theorem writes3 : (hostOps0_3 (F := Ideal)).Forall fun op => op.writes ⊆ (wr3.map (Proc.devRef (τ := τ) .tc)).toFinset := by
  simp only [hostOps0_3, List.Forall, StableHlo.nullary_writes, StableHlo.unary_writes, StableHlo.binary_writes,
    StableHlo.ternary_writes, StableHlo.reshape_writes]
  repeat' apply And.intro
  all_goals exact single_sub_of_mem (by decide)
theorem writes4 : (hostOps0_4 (F := Ideal)).Forall fun op => op.writes ⊆ (wr4.map (Proc.devRef (τ := τ) .tc)).toFinset := by
  simp only [hostOps0_4, List.Forall, StableHlo.nullary_writes, StableHlo.unary_writes, StableHlo.binary_writes,
    StableHlo.ternary_writes, StableHlo.reshape_writes]
  repeat' apply And.intro
  all_goals exact single_sub_of_mem (by decide)

/-- A reference none of the first four stretches writes holds, when the last stretch begins, what it held at launch. -/
theorem W4_keep (r : Ref sig .tc) (h0 : r ∉ wr0) (h1 : r ∉ wr1) (h2 : r ∉ wr2) (h3 : r ∉ wr3) :
    W4 m ρ c (Proc.devRef .tc r) = m ((c : Thread nD τ).loc r) :=
  calc W4 m ρ c (Proc.devRef .tc r)
    _ = W3 m ρ c (Proc.devRef .tc r) := StableHlo.after_of_writes_sub _ _ writes3 h3
    _ = W2 m ρ c (Proc.devRef .tc r) := StableHlo.after_of_writes_sub _ _ writes2 h2
    _ = W1 m ρ c (Proc.devRef .tc r) := StableHlo.after_of_writes_sub _ _ writes1 h1
    _ = W0 m ρ c (Proc.devRef .tc r) := StableHlo.after_of_writes_sub _ _ writes0 h0
    _ = m ((c : Thread nD τ).loc r) := rfl
/-- And if the last stretch does not write it either, it holds that when the first region is entered. -/
theorem W5_keep (r : Ref sig .tc) (h0 : r ∉ wr0) (h1 : r ∉ wr1) (h2 : r ∉ wr2) (h3 : r ∉ wr3) (h4 : r ∉ wr4) :
    W5 m ρ c (Proc.devRef .tc r) = m ((c : Thread nD τ).loc r) :=
  (StableHlo.after_of_writes_sub _ _ writes4 h4).trans (W4_keep m ρ c r h0 h1 h2 h3)

/-- The argument arrays the region stages directly are as launched. -/
theorem arg4_eq : V5 m ρ c main_arg4 = arg m c main_arg4 := W5_keep m ρ c main_arg4 (by decide) (by decide) (by decide) (by decide) (by decide)
theorem arg6_eq : V5 m ρ c main_arg6 = arg m c main_arg6 := W5_keep m ρ c main_arg6 (by decide) (by decide) (by decide) (by decide) (by decide)
theorem arg10_eq : V5 m ρ c main_arg10 = arg m c main_arg10 := W5_keep m ρ c main_arg10 (by decide) (by decide) (by decide) (by decide) (by decide)

/-! ### The last stretch before the first region, from any contents `V`: what each result buffer holds -/

section Last
variable (V : Valuation τ sig (Elt Ideal))

/-- The two halves of the hidden layer's matrix are slices of it; the transposed matrices are transposes of the arguments or of those slices; the bias rows are the bias vectors cast to one row; the normaliser columns are the inverse square roots of the clipped degrees cast to one column. -/
theorem r30 : (StableHlo.after hostOps0_4 V (Proc.devRef .tc main_v30) : S96x96.Idx → EReal)
    = extractStridedSlice S96x96 ![0, 0] (V (Proc.devRef .tc main_arg8) : S192x96.Idx → EReal) slices_S192x96_S96x96_0_0 := by
  after_results_simp
theorem r31 : (StableHlo.after hostOps0_4 V (Proc.devRef .tc main_v31) : S96x96.Idx → EReal)
    = extractStridedSlice S96x96 ![96, 0] (V (Proc.devRef .tc main_arg8) : S192x96.Idx → EReal) slices_S192x96_S96x96_96_0 := by
  after_results_simp
theorem r32 : (StableHlo.after hostOps0_4 V (Proc.devRef .tc main_v32) : S96x96.Idx → EReal)
    = transpose S96x96 [1, 0] (V (Proc.devRef .tc main_arg4) : S96x96.Idx → EReal) transposes_S96x96_S96x96_1_0 := by
  after_results_simp
theorem r33 : (StableHlo.after hostOps0_4 V (Proc.devRef .tc main_v33) : S96x96.Idx → EReal)
    = transpose S96x96 [1, 0] (V (Proc.devRef .tc main_arg6) : S96x96.Idx → EReal) transposes_S96x96_S96x96_1_0 := by
  after_results_simp
theorem r34 : (StableHlo.after hostOps0_4 V (Proc.devRef .tc main_v34) : S96x96.Idx → EReal)
    = transpose S96x96 [1, 0] (extractStridedSlice S96x96 ![0, 0] (V (Proc.devRef .tc main_arg8) : S192x96.Idx → EReal)
        slices_S192x96_S96x96_0_0) transposes_S96x96_S96x96_1_0 := by
  after_results_simp
theorem r35 : (StableHlo.after hostOps0_4 V (Proc.devRef .tc main_v35) : S96x96.Idx → EReal)
    = transpose S96x96 [1, 0] (extractStridedSlice S96x96 ![96, 0] (V (Proc.devRef .tc main_arg8) : S192x96.Idx → EReal)
        slices_S192x96_S96x96_96_0) transposes_S96x96_S96x96_1_0 := by
  after_results_simp
theorem r36 : (StableHlo.after hostOps0_4 V (Proc.devRef .tc main_v36) : S96x96.Idx → EReal)
    = transpose S96x96 [1, 0] (V (Proc.devRef .tc main_arg10) : S96x96.Idx → EReal) transposes_S96x96_S96x96_1_0 := by
  after_results_simp
theorem r37 : (StableHlo.after hostOps0_4 V (Proc.devRef .tc main_v37) : S1x96.Idx → EReal)
    = shapeCast S1x96 (V (Proc.devRef .tc main_arg5) : S96.Idx → EReal) shapeCasts_S96_S1x96 := by
  after_results_simp
  try rfl
theorem r38 : (StableHlo.after hostOps0_4 V (Proc.devRef .tc main_v38) : S1x96.Idx → EReal)
    = shapeCast S1x96 (V (Proc.devRef .tc main_arg7) : S96.Idx → EReal) shapeCasts_S96_S1x96 := by
  after_results_simp
  try rfl
theorem r39 : (StableHlo.after hostOps0_4 V (Proc.devRef .tc main_v39) : S1x96.Idx → EReal)
    = shapeCast S1x96 (V (Proc.devRef .tc main_arg9) : S96.Idx → EReal) shapeCasts_S96_S1x96 := by
  after_results_simp
  try rfl
theorem r40 : (StableHlo.after hostOps0_4 V (Proc.devRef .tc main_v40) : S1x96.Idx → EReal)
    = shapeCast S1x96 (V (Proc.devRef .tc main_arg11) : S96.Idx → EReal) shapeCasts_S96_S1x96 := by
  after_results_simp
  try rfl
theorem r41 : (StableHlo.after hostOps0_4 V (Proc.devRef .tc main_v41) : S50000x1.Idx → EReal)
    = shapeCast S50000x1 (Host.rsqrt (F := Ideal) (s := S50000) (φ := .f32) (V (Proc.devRef .tc main_v10))) shapeCasts_S50000_S50000x1 := by
  after_results_simp
  try rfl
theorem r42 : (StableHlo.after hostOps0_4 V (Proc.devRef .tc main_v42) : S50000x1.Idx → EReal)
    = shapeCast S50000x1 (Host.rsqrt (F := Ideal) (s := S50000) (φ := .f32) (V (Proc.devRef .tc main_v9))) shapeCasts_S50000_S50000x1 := by
  after_results_simp
  try rfl
end Last

/-! ### Counting the edges at a node

  A scatter of scalars into a vector of `N` entries at a column `[R, 1]` of indices: update `e` lands on entry
  `idx[e, 0]` (read signed, not clamped), so entry `n` of the accumulating scatter is the operand's plus the sum of the
  updates whose index is `n`. -/

section Count

/-- Those dimension numbers for an operand `[N]`, scatter indices `[R, 1]` and updates `[R]`. -/
abbrev countDims (N R : Nat) (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: the window coordinate there is `0`. -/
theorem cd_window0 {N R : Nat} (wf : ScatterDims.WF ⟨1, ![N]⟩ ⟨2, ![R, 1]⟩ ⟨1, ![R]⟩ [] [0] [0] 1) (e : Fin R) :
    (countDims N R wf).window (ix1 e) 0 = 0 := by
  unfold ScatterDims.window
  rw [dif_neg (show (0 : Fin 1) ∉ (countDims N R wf).sKept from by
    show (0 : Fin 1) ∉ (List.finRange 1).filter (fun a => a ∉ [(0 : Fin 1)])
    decide)]

/-- On that axis the window starts at update `e`'s index `idx[e, 0]`, read signed. -/
theorem cd_start0 {N R w : Nat} (wf : ScatterDims.WF ⟨1, ![N]⟩ ⟨2, ![R, 1]⟩ ⟨1, ![R]⟩ [] [0] [0] 1)
    (idx : IVec ⟨2, ![R, 1]⟩ w) (e : Fin R) :
    (countDims N R wf).start (ix1 e) idx 0 = (idx (ix2 e (0 : Fin 1))).toInt := by
  unfold ScatterDims.start
  rw [dif_pos (show (0 : Fin 1) ∈ (countDims N R wf).scatterDimsToOperandDims from List.mem_singleton.mpr rfl)]
  have hsi : (countDims N R wf).siIdx (ix1 e) ⟨List.idxOf (0 : Fin 1) (countDims N R wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- Update `e` lands on entry `n` iff its index, read signed, is `n`. -/
theorem count_resultIdx_iff {N R w : Nat} (wf : ScatterDims.WF ⟨1, ![N]⟩ ⟨2, ![R, 1]⟩ ⟨1, ![R]⟩ [] [0] [0] 1)
    (idx : IVec ⟨2, ![R, 1]⟩ w) (e : Fin R) (n : Fin N) :
    (countDims N R wf).resultIdx? (ix1 e) idx = some (ix1 n) ↔ (idx (ix2 e (0 : Fin 1))).toInt = (n.val : Int) := by
  unfold ScatterDims.resultIdx?
  have hN : (![N] 0 : Nat) = N := rfl
  have hn := n.isLt
  simp only [Fin.forall_fin_one, cd_start0, cd_window0]
  split
  · rw [Option.some.injEq]
    constructor
    · intro he
      have e0 : ((countDims N R wf).start (ix1 e) idx 0 + ((countDims N R wf).window (ix1 e) 0 : Nat)).toNat = n.val :=
        congrArg (fun f => (f 0).val) he
      rw [cd_start0, cd_window0] at e0
      omega
    · intro e0
      funext a
      refine Fin.ext ?_
      match a with
      | ⟨0, _⟩ =>
        show ((countDims N R wf).start (ix1 e) idx 0 + ((countDims N R wf).window (ix1 e) 0 : Nat)).toNat = n.val
        rw [cd_start0, cd_window0]; omega
  · rename_i h
    constructor
    · intro he; cases he
    · intro e0
      exact absurd ⟨by omega, by omega⟩ h

/-- A vector's indices are its coordinate's range. -/
def idx1Equiv {n : Nat} : (⟨1, ![n]⟩ : Shape).Idx ≃ Fin n where
  toFun i := i 0
  invFun := ix1
  left_inv i := (eq_ix1 i).symm
  right_inv _ := rfl

/-- THE SCALAR SCATTER-ADD READ AT `n` on the extended reals: the operand's entry plus the sum of the updates whose
    index is `n`. -/
theorem countScatterAdd_apply {N R w : Nat} (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w) (upd : (⟨1, ![R]⟩ : Shape).Idx → EReal) (n : Fin N) :
    Ideal.hostScatterAdd (countDims N R wf) x idx upd (ix1 n)
      = x (ix1 n) + ∑ e : Fin R, if (idx (ix2 e (0 : Fin 1))).toInt = (n.val : Int) then upd (ix1 e) else 0 := by
  show x (ix1 n) + ∑ j ∈ Finset.univ.filter
      (fun j => (countDims N R wf).resultIdx? j idx = some (ix1 n)), upd j = _
  congr 1
  rw [Finset.sum_filter]
  refine Fintype.sum_equiv idx1Equiv _ _ fun j => ?_
  obtain ⟨e, rfl⟩ : ∃ e, j = ix1 e := ⟨j 0, eq_ix1 j⟩
  show (if (countDims N R wf).resultIdx? (ix1 e) idx = some (ix1 n) then upd (ix1 e) else 0)
    = if (idx (ix2 e (0 : Fin 1))).toInt = (n.val : Int) then upd (ix1 e) else 0
  exact if_congr (count_resultIdx_iff wf idx e n) rfl rfl

end Count

/-! ### The degrees: the first four stretches -/

section First
variable (V : Valuation τ sig (Elt Ideal))

/-- The number of edges at each node, as the host computes it from a column of node words: ones scattered with integer
    addition into zeros, then converted. -/
def countOf (w : S800000.Idx → BitVec 32) : S50000.Idx → EReal :=
  sitofp (F := Ideal) .f32 (Host.scatter scatter_S50000_S800000x1_S800000_n_0_0_1 IntOp.addi
    (broadcastInDim S50000 ![] bcast_S_S50000 (constantI S_ 32 0#32))
    (broadcastInDim S800000x1 ![0] bcast_S800000_S800000x1_0 w)
    (broadcastInDim S800000 ![] bcast_S_S800000 (constantI S_ 32 1#32)))

/-- The clipped degree: the larger of one and the count. -/
def degOf (w : S800000.Idx → BitVec 32) : S50000.Idx → EReal :=
  maximumf (F := Ideal) (s := S50000) (φ := .f32)
    (broadcastInDim S50000 ![] bcast_S_S50000 (constant (F := Ideal) S_ .f32 0x3F800000#32)) (countOf w)

/-- What the first four stretches leave in the count, constant and clipped-degree buffers, from any contents. -/
theorem r4 : (StableHlo.after hostOps0 V (Proc.devRef .tc main_v4) : S50000.Idx → EReal)
    = countOf (V (Proc.devRef .tc main_arg2)) := by
  after_results_simp
  try rfl
theorem r8 : (StableHlo.after hostOps0 V (Proc.devRef .tc main_v8) : S50000.Idx → EReal)
    = countOf (V (Proc.devRef .tc main_arg3)) := by
  after_results_simp
  try rfl
theorem rcst : (StableHlo.after hostOps0 V (Proc.devRef .tc main_cst) : S_.Idx → EReal)
    = constant (F := Ideal) S_ .f32 0x3F800000#32 := by
  after_results_simp
  try rfl
theorem r9 : (StableHlo.after hostOps0_1 V (Proc.devRef .tc main_v9) : S50000.Idx → EReal)
    = maximumf (F := Ideal) (s := S50000) (φ := .f32)
        (broadcastInDim S50000 ![] bcast_S_S50000 (V (Proc.devRef .tc main_cst) : S_.Idx → EReal))
        (V (Proc.devRef .tc main_v4)) := by
  after_results_simp
  try rfl
theorem rcst2 : (StableHlo.after hostOps0_2 V (Proc.devRef .tc main_cst_2) : S_.Idx → EReal)
    = constant (F := Ideal) S_ .f32 0x3F800000#32 := by
  after_results_simp
  try rfl
theorem r10 : (StableHlo.after hostOps0_3 V (Proc.devRef .tc main_v10) : S50000.Idx → EReal)
    = maximumf (F := Ideal) (s := S50000) (φ := .f32)
        (broadcastInDim S50000 ![] bcast_S_S50000 (V (Proc.devRef .tc main_cst_2) : S_.Idx → EReal))
        (V (Proc.devRef .tc main_v8)) := by
  after_results_simp
  try rfl
end First

/-- When the last stretch begins, the source-side clipped degree is that of the source column as launched … -/
theorem W4_v9 : (W4 m ρ c (Proc.devRef .tc main_v9) : S50000.Idx → EReal) = degOf (arg m c main_arg2 : S800000.Idx → BitVec 32) :=
  (StableHlo.after_of_writes_sub (r := main_v9) hostOps0_3 (W3 m ρ c) writes3 (by decide)).trans
    ((StableHlo.after_of_writes_sub (r := main_v9) hostOps0_2 (W2 m ρ c) writes2 (by decide)).trans
      ((r9 (W1 m ρ c)).trans (by
        rw [show (W1 m ρ c (Proc.devRef .tc main_cst) : S_.Idx → EReal) = _ from rcst (W0 m ρ c),
          show (W1 m ρ c (Proc.devRef .tc main_v4) : S50000.Idx → EReal) = _ from r4 (W0 m ρ c)]
        rfl)))
/-- … and the target-side one that of the target column. -/
theorem W4_v10 : (W4 m ρ c (Proc.devRef .tc main_v10) : S50000.Idx → EReal) = degOf (arg m c main_arg3 : S800000.Idx → BitVec 32) :=
  (r10 (W3 m ρ c)).trans (by
    rw [show (W3 m ρ c (Proc.devRef .tc main_cst_2) : S_.Idx → EReal) = _ from rcst2 (W2 m ρ c),
      show (W3 m ρ c (Proc.devRef .tc main_v8) : S50000.Idx → EReal) = W1 m ρ c (Proc.devRef .tc main_v8) from
        (StableHlo.after_of_writes_sub (r := main_v8) hostOps0_2 (W2 m ρ c) writes2 (by decide)).trans
          (StableHlo.after_of_writes_sub (r := main_v8) hostOps0_1 (W1 m ρ c) writes1 (by decide)),
      show (W1 m ρ c (Proc.devRef .tc main_v8) : S50000.Idx → EReal) = _ from r8 (W0 m ρ c)]
    rfl)

/-! ### The degrees at a node -/

/-- The f32 word of one is the extended real one. -/
theorem one_f32 : Ideal.ofBits .f32 0x3F800000#32 = 1 := by
  rw [show (1 : EReal) = ((1 : ℝ) : EReal) by norm_cast]
  simp [Ideal.ofBits, Ideal.ieee, -EReal.coe_mul]; norm_num

/-- A node word in range, read signed, is the node's number. -/
theorem toInt_inRange {w : S800000.Idx → BitVec 32} {ix : Ends} (h : InRange w ix) (e : Fin 800000) :
    (w (ix1 e)).toInt = ((ix e).val : Int) := by
  have h5 : (ix e).val < 50000 := (ix e).isLt
  rw [h e, BitVec.toInt_eq_toNat_of_lt (by rw [BitVec.toNat_ofNat]; omega), BitVec.toNat_ofNat]
  congr 1
  omega

/-- The host's count at node `n` is the number of edges whose end is `n`. -/
theorem countOf_apply (w : S800000.Idx → BitVec 32) (ix : Ends) (h : InRange w ix) (n : Fin 50000) :
    countOf w (ix1 n) = cnt ix n := by
  unfold countOf
  have hz : (broadcastInDim S50000 ![] bcast_S_S50000 (constantI S_ 32 0#32) : S50000.Idx → BitVec 32) = fun _ => 0#32 :=
    funext fun j => Cert.LibKeepdims.broadcastInDim_scalar_apply _ _ j
  have ho : (broadcastInDim S800000 ![] bcast_S_S800000 (constantI S_ 32 1#32) : S800000.Idx → BitVec 32) = fun _ => 1#32 :=
    funext fun j => Cert.LibKeepdims.broadcastInDim_scalar_apply _ _ j
  rw [hz, ho]
  refine (LibCount.sitofp_scatter_ones scatter_S50000_S800000x1_S800000_n_0_0_1 _ ?_ (ix1 n)).trans ?_
  · rw [Shape.numel_rank1]
    show (800000 : ℕ) < 2 ^ 31
    norm_num
  refine (countScatterAdd_apply scatter_S50000_S800000x1_S800000_n_0_0_1_wf _ _ _ n).trans ?_
  unfold cnt
  refine congrArg (fun z => (0 : EReal) + z) (Finset.sum_congr rfl fun e _ => ?_)
  rw [Cert.LibKeepdims.broadcastInDim_a_a1_apply, toInt_inRange h e]
  exact if_congr ⟨fun hh => Fin.ext (by exact_mod_cast hh), fun hh => by rw [hh]⟩ rfl rfl

/-- The clipped degree at node `n`. -/
theorem degOf_apply (w : S800000.Idx → BitVec 32) (ix : Ends) (h : InRange w ix) (n : Fin 50000) :
    degOf w (ix1 n) = max 1 (cnt ix n) := by
  unfold degOf
  rw [maximumf_apply, Cert.LibKeepdims.broadcastInDim_scalar_apply, constant_apply, one_f32, countOf_apply w ix h n]

/-- Its inverse square root is the normaliser. -/
theorem rsqrt_degOf_apply (w : S800000.Idx → BitVec 32) (ix : Ends) (h : InRange w ix) (n : Fin 50000) :
    Host.rsqrt (F := Ideal) (s := S50000) (φ := .f32) (degOf w) (ix1 n) = rs ix n := by
  show Ideal.rsqrt (degOf w (ix1 n)) = _
  rw [degOf_apply w ix h n]
  rfl

/-- The target-side and the source-side normaliser, each as a column. -/
theorem v41_eq (hd : InRange (arg m c main_arg3) d) (n : Fin 50000) :
    cur (V5 m ρ c main_v41 : S50000x1.Idx → EReal) n (0 : Fin 1) = rs d n := by
  have e : (V5 m ρ c main_v41 : S50000x1.Idx → EReal)
      = shapeCast S50000x1 (Host.rsqrt (F := Ideal) (s := S50000) (φ := .f32) (degOf (arg m c main_arg3))) shapeCasts_S50000_S50000x1 :=
    (r41 (W4 m ρ c)).trans (by rw [W4_v10])
  unfold cur
  rw [e, Cert.LibKeepdims.shapeCast_a_a1_apply]
  exact rsqrt_degOf_apply _ d hd n
/-- The source-side normaliser as a column. -/
theorem v42_eq (hs : InRange (arg m c main_arg2) s) (n : Fin 50000) :
    cur (V5 m ρ c main_v42 : S50000x1.Idx → EReal) n (0 : Fin 1) = rs s n := by
  have e : (V5 m ρ c main_v42 : S50000x1.Idx → EReal)
      = shapeCast S50000x1 (Host.rsqrt (F := Ideal) (s := S50000) (φ := .f32) (degOf (arg m c main_arg2))) shapeCasts_S50000_S50000x1 :=
    (r42 (W4 m ρ c)).trans (by rw [W4_v9])
  unfold cur
  rw [e, Cert.LibKeepdims.shapeCast_a_a1_apply]
  exact rsqrt_degOf_apply _ s hs n

/-! ### The raw forward aggregate -/

/-- The source column with negative words wrapped round by the number of nodes. -/
def wrapOf (w : S800000.Idx → BitVec 32) : S800000.Idx → BitVec 32 :=
  select (cmpi .slt w (broadcastInDim S800000 ![] bcast_S_S800000 (constantI S_ 32 0#32)))
    (addi w (broadcastInDim S800000 ![] bcast_S_S800000 (constantI S_ 32 50000#32))) w

/-- A feature array with each row scaled by that row's entry of a vector. -/
def scaleOf (x : S50000x96.Idx → EReal) (r : S50000.Idx → EReal) : S50000x96.Idx → EReal :=
  mulf (F := Ideal) (s := S50000x96) (φ := .f32) x
    (broadcastInDim S50000x96 ![0, 1] bcast_S50000x1_S50000x96_0_1 (broadcastInDim S50000x1 ![0] bcast_S50000_S50000x1_0 r))

/-- Two arrays of 96 columns side by side. -/
def xsOf (a b : S50000x96.Idx → EReal) : S50000x192.Idx → EReal :=
  concatenate S50000x192 1 [⟨S50000x96, a⟩, ⟨S50000x96, b⟩] concatenates_S50000x96_S50000x96_S50000x192_d1

/-- The rows of `X` gathered at the wrapped source column and added up at the target column, from zeros. -/
def aggOf (X : S50000x192.Idx → EReal) (ws wd : S800000.Idx → BitVec 32) : S50000x192.Idx → EReal :=
  Host.scatterAdd (F := Ideal) (φ := .f32) scatter_S50000x192_S800000x1_S800000x192_1_0_0_1
    (broadcastInDim S50000x192 ![] bcast_S_S50000x192 (constant (F := Ideal) S_ .f32 0x00000000#32))
    (broadcastInDim S800000x1 ![0] bcast_S800000_S800000x1_0 wd)
    (Host.gather gather_S50000x192_S800000x1_S800000x192_1_0_n_n_0_1_1192 X
      (broadcastInDim S800000x1 ![0] bcast_S800000_S800000x1_0 (wrapOf ws)))

/-- What the last stretch leaves in the aggregate's buffer, from any contents. -/
theorem r29 (V : Valuation τ sig (Elt Ideal)) :
    (StableHlo.after hostOps0_4 V (Proc.devRef .tc main_v29) : S50000x192.Idx → EReal)
      = aggOf (xsOf
          (scaleOf (V (Proc.devRef .tc main_arg0)) (Host.rsqrt (F := Ideal) (s := S50000) (φ := .f32) (V (Proc.devRef .tc main_v9))))
          (scaleOf (V (Proc.devRef .tc main_arg1)) (Host.rsqrt (F := Ideal) (s := S50000) (φ := .f32) (V (Proc.devRef .tc main_v9)))))
        (V (Proc.devRef .tc main_arg2)) (V (Proc.devRef .tc main_arg3)) := by
  after_results_simp
  refine congrArg₂ (fun a b => aggOf (xsOf a b) (V (Proc.devRef .tc main_arg2)) (V (Proc.devRef .tc main_arg3))) ?_ ?_
  · after_results_simp
    try rfl
  · after_results_simp
    try rfl

/-- In range the wrap changes nothing: a node word is not negative. -/
theorem wrapOf_apply {w : S800000.Idx → BitVec 32} {ix : Ends} (h : InRange w ix) (e : Fin 800000) :
    wrapOf w (ix1 e) = w (ix1 e) := by
  have hb : (broadcastInDim S800000 ![] bcast_S_S800000 (constantI S_ 32 0#32) : S800000.Idx → BitVec 32) (ix1 e) = 0#32 :=
    Cert.LibKeepdims.broadcastInDim_scalar_apply _ _ _
  have hlt : (w (ix1 e)).slt 0#32 = false := by
    show decide ((w (ix1 e)).toInt < (0#32 : BitVec 32).toInt) = false
    rw [toInt_inRange h e, BitVec.toInt_zero]
    exact decide_eq_false (by omega)
  show Scalar.select (IntOp.cmpi .slt (w (ix1 e))
      ((broadcastInDim S800000 ![] bcast_S_S800000 (constantI S_ 32 0#32) : S800000.Idx → BitVec 32) (ix1 e))) _ (w (ix1 e))
    = w (ix1 e)
  rw [hb]
  show Scalar.select (BitVec.ofBool ((w (ix1 e)).slt 0#32)) _ (w (ix1 e)) = w (ix1 e)
  rw [hlt]
  exact select_zero _ _

/-- The two scaled arrays side by side, at row `a` and column `j`: the entry of the side by side arrays times the
    vector's entry of that row. -/
theorem xsOf_scale_apply (q p : S50000x96.Idx → EReal) (r : S50000.Idx → EReal) (a : Fin 50000) (j : Fin 192) :
    xsOf (scaleOf q r) (scaleOf p r) (ix2 a j) = cat (cur q) (cur p) a j * r (ix1 a) := by
  have hsc : ∀ (x : S50000x96.Idx → EReal) (k : Fin 96), scaleOf x r (ix2 a k) = cur x a k * r (ix1 a) := fun x k => by
    unfold scaleOf cur
    rw [mulf_apply, Cert.LibKeepdims.broadcastInDim_a1_ab_apply, Cert.LibKeepdims.broadcastInDim_a_a1_apply]
  have h192 : j.val < 192 := j.isLt
  unfold xsOf cat
  by_cases hj : j.val < 96
  · rw [dif_pos hj]
    refine (concatenate_pair_apply_left (t := S50000x192) (s₁ := S50000x96) (s₂ := S50000x96) (1 : Fin 2) _ _ _ (ix2 a j) rfl (ix2 a (⟨j.val, hj⟩ : Fin 96)) fun b => ?_).trans (hsc q _)
    match b with
    | ⟨0, _⟩ => rfl
    | ⟨1, _⟩ => rfl
  · rw [dif_neg hj]
    refine (concatenate_pair_apply_right (t := S50000x192) (s₁ := S50000x96) (s₂ := S50000x96) (1 : Fin 2) _ _ _ (ix2 a j) rfl rfl
      (ix2 a (⟨j.val - 96, by omega⟩ : Fin 96)) (fun b hb => ?_) ?_).trans (hsc p _)
    · match b with
      | ⟨0, _⟩ => rfl
      | ⟨1, _⟩ => exact absurd rfl hb
    · show j.val - 96 + 96 = j.val
      omega

/-- On the extended reals the host's accumulating scatter is the exact one. -/
theorem hostScatterAdd_eq {s' si u : Shape} {w : Nat} (dd : ScatterDims s' si u) (x : s'.Idx → EReal) (idx : IVec si w)
    (upd : u.Idx → EReal) :
    Host.scatterAdd (F := Ideal) (φ := .f32) dd x idx upd = Ideal.hostScatterAdd dd x idx upd := rfl
/-- The program's scatter and gather of rows of 192 columns are the row scatter and the row gather. -/
theorem rowScatter_dims : scatter_S50000x192_S800000x1_S800000x192_1_0_0_1
    = rowScatterDims 50000 800000 192 scatter_S50000x192_S800000x1_S800000x192_1_0_0_1_wf := rfl
theorem rowGather_dims : gather_S50000x192_S800000x1_S800000x192_1_0_n_n_0_1_1192
    = rowGatherDims 50000 800000 192 gather_S50000x192_S800000x1_S800000x192_1_0_n_n_0_1_1192_wf := rfl

/-- The row a gathered row reads, at an in-range source column: the edge's source. -/
theorem gatherRow_wrap {ws : S800000.Idx → BitVec 32} (hs : InRange ws s) (e : Fin 800000) :
    gatherRow (N := 50000) (by norm_num) (broadcastInDim S800000x1 ![0] bcast_S800000_S800000x1_0 (wrapOf ws)) e = s e := by
  have h5 : (s e).val < 50000 := (s e).isLt
  refine Fin.ext ?_
  show min ((broadcastInDim S800000x1 ![0] bcast_S800000_S800000x1_0 (wrapOf ws) : S800000x1.Idx → BitVec 32)
    (ix2 e (0 : Fin 1))).toInt.toNat (50000 - 1) = (s e).val
  rw [Cert.LibKeepdims.broadcastInDim_a_a1_apply, wrapOf_apply hs e, toInt_inRange hs e]
  omega

/-- THE AGGREGATE READ AT `(n, j)`: over the edges into `n`, the source's row of `X`. -/
theorem aggOf_apply (X : S50000x192.Idx → EReal) (ws wd : S800000.Idx → BitVec 32) (hs : InRange ws s) (hd : InRange wd d)
    (n : Fin 50000) (j : Fin 192) :
    aggOf X ws wd (ix2 n j) = 0 + ∑ e : Fin 800000, if d e = n then X (ix2 (s e) j) else 0 := by
  unfold aggOf
  rw [hostScatterAdd_eq, rowScatter_dims, rowGather_dims, rowScatterAdd_apply,
    Cert.LibKeepdims.broadcastInDim_scalar_apply, constant_apply, Ideal.ofBits_zero_f32]
  refine congrArg (fun z => (0 : EReal) + z) (Finset.sum_congr rfl fun e _ => ?_)
  rw [Cert.LibKeepdims.broadcastInDim_a_a1_apply, toInt_inRange hd e, rowGather_apply (by norm_num), gatherRow_wrap s hs e]
  exact if_congr ⟨fun hh => Fin.ext (by exact_mod_cast hh), fun hh => by rw [hh]⟩ rfl rfl

/-- The raw forward aggregate of the two feature arrays side by side. -/
theorem v29_eq (hs : InRange (arg m c main_arg2) s) (hd : InRange (arg m c main_arg3) d) (n : Fin 50000) (j : Fin 192) :
    cur (V5 m ρ c main_v29 : S50000x192.Idx → EReal) n j
      = fwd s d (cat (cur (arg m c main_arg0 : S50000x96.Idx → EReal)) (cur (arg m c main_arg1 : S50000x96.Idx → EReal))) n j := by
  have e : (V5 m ρ c main_v29 : S50000x192.Idx → EReal)
      = aggOf (xsOf
          (scaleOf (arg m c main_arg0) (Host.rsqrt (F := Ideal) (s := S50000) (φ := .f32) (degOf (arg m c main_arg2))))
          (scaleOf (arg m c main_arg1) (Host.rsqrt (F := Ideal) (s := S50000) (φ := .f32) (degOf (arg m c main_arg2)))))
        (arg m c main_arg2) (arg m c main_arg3) :=
    (r29 (W4 m ρ c)).trans (by
      rw [W4_v9, W4_keep m ρ c main_arg0 (by decide) (by decide) (by decide) (by decide),
        W4_keep m ρ c main_arg1 (by decide) (by decide) (by decide) (by decide),
        W4_keep m ρ c main_arg2 (by decide) (by decide) (by decide) (by decide),
        W4_keep m ρ c main_arg3 (by decide) (by decide) (by decide) (by decide)])
  show (V5 m ρ c main_v29 : S50000x192.Idx → EReal) (ix2 n j) = _
  rw [e, aggOf_apply s d _ _ _ hs hd n j]
  unfold fwd
  refine congrArg (fun z => (0 : EReal) + z) (Finset.sum_congr rfl fun e _ => ?_)
  rw [xsOf_scale_apply, rsqrt_degOf_apply _ s hs]

/-! ### The weight arrays the first region stages, read at an index -/

/-- The two halves of the hidden layer's matrix. -/
theorem v30_eq (k j : Fin 96) : cur (V5 m ρ c main_v30 : S96x96.Idx → EReal) k j = cur (arg m c main_arg8 : S192x96.Idx → EReal) (lo k) j := by
  have e : (V5 m ρ c main_v30 : S96x96.Idx → EReal)
      = extractStridedSlice S96x96 ![0, 0] (arg m c main_arg8 : S192x96.Idx → EReal) slices_S192x96_S96x96_0_0 :=
    (r30 (W4 m ρ c)).trans (by rw [W4_keep m ρ c main_arg8 (by decide) (by decide) (by decide) (by decide)])
  unfold cur
  rw [e]
  refine extractStridedSlice_apply _ _ _ (ix2 k j) (ix2 (lo k) j) fun a => ?_
  match a with
  | ⟨0, _⟩ => show k.val = 0 + k.val; omega
  | ⟨1, _⟩ => show j.val = 0 + j.val; omega

/-- The second half of the hidden layer's matrix. -/
theorem v31_eq (k j : Fin 96) : cur (V5 m ρ c main_v31 : S96x96.Idx → EReal) k j = cur (arg m c main_arg8 : S192x96.Idx → EReal) (hi k) j := by
  have e : (V5 m ρ c main_v31 : S96x96.Idx → EReal)
      = extractStridedSlice S96x96 ![96, 0] (arg m c main_arg8 : S192x96.Idx → EReal) slices_S192x96_S96x96_96_0 :=
    (r31 (W4 m ρ c)).trans (by rw [W4_keep m ρ c main_arg8 (by decide) (by decide) (by decide) (by decide)])
  unfold cur
  rw [e]
  refine extractStridedSlice_apply _ _ _ (ix2 k j) (ix2 (hi k) j) fun a => ?_
  match a with
  | ⟨0, _⟩ => show 96 + k.val = 96 + k.val; rfl
  | ⟨1, _⟩ => show j.val = 0 + j.val; omega

/-- A transposed square array read at `(k, j)` is the array at `(j, k)`. -/
private theorem transpose96_apply (x : S96x96.Idx → EReal) (k j : Fin 96) :
    transpose S96x96 [1, 0] x transposes_S96x96_S96x96_1_0 (ix2 k j) = x (ix2 j k) := by
  refine transpose_apply _ _ _ (ix2 k j) (ix2 j k) fun b => ?_
  match b with
  | ⟨0, _⟩ => rfl
  | ⟨1, _⟩ => rfl

/-- The transposed matrices. -/
theorem v32_eq (k j : Fin 96) : cur (V5 m ρ c main_v32 : S96x96.Idx → EReal) k j = cur (arg m c main_arg4 : S96x96.Idx → EReal) j k := by
  have e : (V5 m ρ c main_v32 : S96x96.Idx → EReal)
      = transpose S96x96 [1, 0] (arg m c main_arg4 : S96x96.Idx → EReal) transposes_S96x96_S96x96_1_0 :=
    (r32 (W4 m ρ c)).trans (by rw [W4_keep m ρ c main_arg4 (by decide) (by decide) (by decide) (by decide)])
  unfold cur
  rw [e]
  exact transpose96_apply _ k j
theorem v33_eq (k j : Fin 96) : cur (V5 m ρ c main_v33 : S96x96.Idx → EReal) k j = cur (arg m c main_arg6 : S96x96.Idx → EReal) j k := by
  have e : (V5 m ρ c main_v33 : S96x96.Idx → EReal)
      = transpose S96x96 [1, 0] (arg m c main_arg6 : S96x96.Idx → EReal) transposes_S96x96_S96x96_1_0 :=
    (r33 (W4 m ρ c)).trans (by rw [W4_keep m ρ c main_arg6 (by decide) (by decide) (by decide) (by decide)])
  unfold cur
  rw [e]
  exact transpose96_apply _ k j
theorem v34_eq (k j : Fin 96) : cur (V5 m ρ c main_v34 : S96x96.Idx → EReal) k j = cur (arg m c main_arg8 : S192x96.Idx → EReal) (lo j) k := by
  have e : (V5 m ρ c main_v34 : S96x96.Idx → EReal)
      = transpose S96x96 [1, 0] (extractStridedSlice S96x96 ![0, 0] (arg m c main_arg8 : S192x96.Idx → EReal)
          slices_S192x96_S96x96_0_0) transposes_S96x96_S96x96_1_0 :=
    (r34 (W4 m ρ c)).trans (by rw [W4_keep m ρ c main_arg8 (by decide) (by decide) (by decide) (by decide)])
  unfold cur
  rw [e, transpose96_apply]
  refine extractStridedSlice_apply _ _ _ (ix2 j k) (ix2 (lo j) k) fun a => ?_
  match a with
  | ⟨0, _⟩ => show j.val = 0 + j.val; omega
  | ⟨1, _⟩ => show k.val = 0 + k.val; omega
theorem v35_eq (k j : Fin 96) : cur (V5 m ρ c main_v35 : S96x96.Idx → EReal) k j = cur (arg m c main_arg8 : S192x96.Idx → EReal) (hi j) k := by
  have e : (V5 m ρ c main_v35 : S96x96.Idx → EReal)
      = transpose S96x96 [1, 0] (extractStridedSlice S96x96 ![96, 0] (arg m c main_arg8 : S192x96.Idx → EReal)
          slices_S192x96_S96x96_96_0) transposes_S96x96_S96x96_1_0 :=
    (r35 (W4 m ρ c)).trans (by rw [W4_keep m ρ c main_arg8 (by decide) (by decide) (by decide) (by decide)])
  unfold cur
  rw [e, transpose96_apply]
  refine extractStridedSlice_apply _ _ _ (ix2 j k) (ix2 (hi j) k) fun a => ?_
  match a with
  | ⟨0, _⟩ => show 96 + j.val = 96 + j.val; rfl
  | ⟨1, _⟩ => show k.val = 0 + k.val; omega
theorem v36_eq (k j : Fin 96) : cur (V5 m ρ c main_v36 : S96x96.Idx → EReal) k j = cur (arg m c main_arg10 : S96x96.Idx → EReal) j k := by
  have e : (V5 m ρ c main_v36 : S96x96.Idx → EReal)
      = transpose S96x96 [1, 0] (arg m c main_arg10 : S96x96.Idx → EReal) transposes_S96x96_S96x96_1_0 :=
    (r36 (W4 m ρ c)).trans (by rw [W4_keep m ρ c main_arg10 (by decide) (by decide) (by decide) (by decide)])
  unfold cur
  rw [e]
  exact transpose96_apply _ k j

/-- A vector of 96 entries cast to a row reads, at `(0, j)`, the vector at `j`. -/
private theorem row96_apply (x : S96.Idx → EReal) (j : Fin 96) :
    shapeCast S1x96 x shapeCasts_S96_S1x96 (ix2 (0 : Fin 1) j) = x (ix1 j) :=
  shapeCast_apply x _ _ _ (by
    rw [Shape.rowMajor_val_two, Shape.rowMajor_val_one]
    show j.val = 0 * 96 + j.val
    omega)

/-- The bias vectors as rows. -/
theorem v37_eq (j : Fin 96) : cur (V5 m ρ c main_v37 : S1x96.Idx → EReal) (0 : Fin 1) j = cur1 (arg m c main_arg5 : S96.Idx → EReal) j := by
  have e : (V5 m ρ c main_v37 : S1x96.Idx → EReal) = shapeCast S1x96 (arg m c main_arg5 : S96.Idx → EReal) shapeCasts_S96_S1x96 :=
    (r37 (W4 m ρ c)).trans (by rw [W4_keep m ρ c main_arg5 (by decide) (by decide) (by decide) (by decide)])
  unfold cur cur1
  rw [e]
  exact row96_apply _ j
theorem v38_eq (j : Fin 96) : cur (V5 m ρ c main_v38 : S1x96.Idx → EReal) (0 : Fin 1) j = cur1 (arg m c main_arg7 : S96.Idx → EReal) j := by
  have e : (V5 m ρ c main_v38 : S1x96.Idx → EReal) = shapeCast S1x96 (arg m c main_arg7 : S96.Idx → EReal) shapeCasts_S96_S1x96 :=
    (r38 (W4 m ρ c)).trans (by rw [W4_keep m ρ c main_arg7 (by decide) (by decide) (by decide) (by decide)])
  unfold cur cur1
  rw [e]
  exact row96_apply _ j
theorem v39_eq (j : Fin 96) : cur (V5 m ρ c main_v39 : S1x96.Idx → EReal) (0 : Fin 1) j = cur1 (arg m c main_arg9 : S96.Idx → EReal) j := by
  have e : (V5 m ρ c main_v39 : S1x96.Idx → EReal) = shapeCast S1x96 (arg m c main_arg9 : S96.Idx → EReal) shapeCasts_S96_S1x96 :=
    (r39 (W4 m ρ c)).trans (by rw [W4_keep m ρ c main_arg9 (by decide) (by decide) (by decide) (by decide)])
  unfold cur cur1
  rw [e]
  exact row96_apply _ j
theorem v40_eq (j : Fin 96) : cur (V5 m ρ c main_v40 : S1x96.Idx → EReal) (0 : Fin 1) j = cur1 (arg m c main_arg11 : S96.Idx → EReal) j := by
  have e : (V5 m ρ c main_v40 : S1x96.Idx → EReal) = shapeCast S1x96 (arg m c main_arg11 : S96.Idx → EReal) shapeCasts_S96_S1x96 :=
    (r40 (W4 m ρ c)).trans (by rw [W4_keep m ρ c main_arg11 (by decide) (by decide) (by decide) (by decide)])
  unfold cur cur1
  rw [e]
  exact row96_apply _ j

end Cert.KernelIdeal.HostA

end
-- ==== Proof.RefGraph.lean ====
/-
  The graph part of the reference, read at an index: the two degree normalisers (each computed twice) and the raw
  forward aggregates of the two feature arrays, as sums over the edges.
-/
import proofs.«408811_j18047452578207_2_alg».proof.Proof.Gen.ReferenceIdeal.Read
import proofs.«408811_j18047452578207_2_alg».proof.Proof.Spec
import proofs.«408811_j18047452578207_2_alg».proof.Proof.LibRowGather
import proofs.«408811_j18047452578207_2_alg».proof.Proof.LibRowScatterAdd
import proofs.«408811_j18047452578207_2_alg».proof.Proof.LibKeepdims
import proofs.«408811_j18047452578207_2_alg».proof.Proof.LibHostRead
import Idealize.ShloMosaic.Lib.StableHlo.Predicate
import Idealize.ShloMosaic.Lib.IdealHost

noncomputable section

namespace Cert.ReferenceIdeal.RefGraph

open Cert.ReferenceIdeal Cert.ReferenceIdeal.Gen Cert.ReferenceIdeal.Read Cert.Spec
open Idealize.ShloMosaic Idealize.ShloMosaic.TcCoe Idealize.ShloMosaic.ValueIdx Idealize.SL.Sem

/-! ### A sum over a rank-1 index set -/

/-- A rank-1 index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-! ### An accumulating scatter of scalars into a vector

  Operand `[N]`, scatter indices a column `[R, 1]`, updates `[R]`: no update window axis, operand axis 0 inserted and
  named by the scatter index. Update `r` lands on element `idx[r, 0]` (read signed, dropped outside `[0, N)`). -/

/-- Those dimension numbers for an operand `[N]`, scatter indices `[R, 1]` and updates `[R]`. -/
abbrev vecScatterDims (N R : Nat)
    (wf : ScatterDims.WF ⟨1, ![N]⟩ ⟨2, ![R, 1]⟩ ⟨1, ![R]⟩ [] [0] [0] 1) :
    ScatterDims ⟨1, ![N]⟩ ⟨2, ![R, 1]⟩ ⟨1, ![R]⟩ where
  updateWindowDims := []
  insertedWindowDims := [0]
  scatterDimsToOperandDims := [0]
  indexVectorDim := 1
  wf := wf

/-- The operand's one axis is the inserted window axis: the window coordinate on it is `0`. -/
theorem vs_window0 {N R : Nat}
    (wf : ScatterDims.WF ⟨1, ![N]⟩ ⟨2, ![R, 1]⟩ ⟨1, ![R]⟩ [] [0] [0] 1) (r : Fin R) :
    (vecScatterDims N R wf).window (ix1 r) 0 = 0 := by
  unfold ScatterDims.window
  rw [dif_neg (show (0 : Fin 1) ∉ (vecScatterDims N R wf).sKept by
    show (0 : Fin 1) ∉ (List.finRange 1).filter (fun a => a ∉ [(0 : Fin 1)])
    decide)]

/-- On that axis the window starts at update `r`'s index `idx[r, 0]`, read signed. -/
theorem vs_start0 {N R w : Nat}
    (wf : ScatterDims.WF ⟨1, ![N]⟩ ⟨2, ![R, 1]⟩ ⟨1, ![R]⟩ [] [0] [0] 1)
    (idx : IVec ⟨2, ![R, 1]⟩ w) (r : Fin R) :
    (vecScatterDims N R wf).start (ix1 r) idx 0 = (idx (ix2 r (0 : Fin 1))).toInt := by
  unfold ScatterDims.start
  rw [dif_pos (show (0 : Fin 1) ∈ (vecScatterDims N R wf).scatterDimsToOperandDims from List.mem_singleton.mpr rfl)]
  have hsi : (vecScatterDims N R wf).siIdx (ix1 r) ⟨List.idxOf (0 : Fin 1) (vecScatterDims N R wf).scatterDimsToOperandDims,
      List.idxOf_lt_length_iff.2 (List.mem_singleton.mpr rfl)⟩ = ix2 r (0 : Fin 1) := by
    funext b; refine Fin.ext ?_
    match b with
    | ⟨0, _⟩ => rfl
    | ⟨1, _⟩ => rfl
  rw [hsi]

/-- Update `r` lands on element `n` iff its index, read signed, is `n`. -/
theorem vecScatter_resultIdx_iff {N R w : Nat}
    (wf : ScatterDims.WF ⟨1, ![N]⟩ ⟨2, ![R, 1]⟩ ⟨1, ![R]⟩ [] [0] [0] 1)
    (idx : IVec ⟨2, ![R, 1]⟩ w) (r : Fin R) (n : Fin N) :
    (vecScatterDims N R wf).resultIdx? (ix1 r) idx = some (ix1 n)
      ↔ (idx (ix2 r (0 : Fin 1))).toInt = (n.val : Int) := by
  unfold ScatterDims.resultIdx?
  have hN : (![N] 0 : Nat) = N := rfl
  have hn := n.isLt
  simp only [Fin.forall_fin_one, vs_start0, vs_window0]
  split
  · rw [Option.some.injEq]
    constructor
    · intro he
      have e0 : ((vecScatterDims N R wf).start (ix1 r) idx 0
          + ((vecScatterDims N R wf).window (ix1 r) 0 : Nat)).toNat = n.val :=
        congrArg (fun f => (f 0).val) he
      rw [vs_start0, vs_window0] at e0
      omega
    · intro e0
      funext a
      refine Fin.ext ?_
      match a with
      | ⟨0, _⟩ =>
        show ((vecScatterDims N R wf).start (ix1 r) idx 0
          + ((vecScatterDims N R wf).window (ix1 r) 0 : Nat)).toNat = n.val
        rw [vs_start0, vs_window0]; omega
  · rename_i h
    constructor
    · intro he; cases he
    · intro e0
      exact absurd ⟨by omega, by omega⟩ h

/-- THE SCALAR SCATTER-ADD READ AT `n` on the extended reals: the operand's element plus the sum, over the updates whose
    index is `n`, of the update. -/
theorem vecScatterAdd_apply {N R w : Nat}
    (wf : ScatterDims.WF ⟨1, ![N]⟩ ⟨2, ![R, 1]⟩ ⟨1, ![R]⟩ [] [0] [0] 1)
    (x : (⟨1, ![N]⟩ : Shape).Idx → EReal) (idx : IVec ⟨2, ![R, 1]⟩ w)
    (upd : (⟨1, ![R]⟩ : Shape).Idx → EReal) (n : Fin N) :
    Ideal.hostScatterAdd (vecScatterDims N R wf) x idx upd (ix1 n)
      = x (ix1 n) + ∑ r : Fin R, if (idx (ix2 r (0 : Fin 1))).toInt = (n.val : Int) then upd (ix1 r) else 0 := by
  show x (ix1 n) + ∑ j ∈ Finset.univ.filter
      (fun j => (vecScatterDims N R wf).resultIdx? j idx = some (ix1 n)), upd j = _
  congr 1
  rw [Finset.sum_filter, sum_idx1]
  refine Finset.sum_congr rfl (fun r _ => ?_)
  simp only [vecScatter_resultIdx_iff]

/-! ### The index words of an end of the edges -/

section Words
variable {w : (⟨1, ![EE]⟩ : Shape).Idx → BitVec 32} {ix : Ends}

/-- The word of an edge's node, read unsigned, is the node's number. -/
theorem toNat_inRange (h : InRange w ix) (e : Fin EE) : (w (ix1 e)).toNat = (ix e).val := by
  have hlt : (ix e).val < 50000 := (ix e).isLt
  rw [h e, BitVec.toNat_ofNat]
  exact Nat.mod_eq_of_lt (by omega)

/-- Read signed it is the same number: the nodes' numbers are below 2^31. -/
theorem toInt_inRange (h : InRange w ix) (e : Fin EE) : (w (ix1 e)).toInt = ((ix e).val : Int) := by
  have hlt : (ix e).val < 50000 := (ix e).isLt
  rw [h e]
  exact StableHlo.Predicate.toInt_ofNat_small _ (by omega)

/-- So the word read signed is the number of the node `n` exactly when the edge's node is `n`. -/
theorem toInt_inRange_eq_iff (h : InRange w ix) (e : Fin EE) (n : Fin NN) :
    (w (ix1 e)).toInt = (n.val : Int) ↔ ix e = n := by
  rw [toInt_inRange h e]
  constructor
  · intro h'; exact Fin.ext (by exact_mod_cast h')
  · intro h'; rw [h']

/-- The wrap of a negative index (add the number of nodes when the word is negative) leaves such a word alone: it is
    not negative. -/
theorem wrap_inRange (h : InRange w ix) (e : Fin EE) :
    Scalar.select (IntOp.cmpi .slt (w (ix1 e)) 0#32) (IntOp.addi (w (ix1 e)) 50000#32) (w (ix1 e)) = w (ix1 e) := by
  have hlt : (ix e).val < 50000 := (ix e).isLt
  have htn := toNat_inRange h e
  have h0 : (0#32 : BitVec 32).toNat = 0 := rfl
  have hc : IntOp.cmpi .slt (w (ix1 e)) 0#32 = 0#1 := by
    apply eq_zero_of_ne_one
    intro hc
    have := (StableHlo.Predicate.slt_iff_toNat (by omega) (by omega)).1 hc
    omega
  rw [hc, select_zero]

end Words

/-! ### The degree count and the normaliser, as the program computes them -/

/-- There is at least one node. -/
theorem nn_pos : 0 < 50000 := by norm_num

section Degree
variable {w : (⟨1, ![EE]⟩ : Shape).Idx → BitVec 32} {ix : Ends}

/-- The column `[E, 1]` of an end's words reads, at row `e`, the word of edge `e`. -/
theorem col_read (w : S800000.Idx → BitVec 32) (e : Fin 800000) :
    broadcastInDim S800000x1 ![0] bcast_S800000_S800000x1_0 w (ix2 e (0 : Fin 1)) = w (ix1 e) :=
  Cert.LibKeepdims.broadcastInDim_a_a1_apply w _ e 0

/-- Ones scattered, with addition, into zeros at an end's words: at node `n` the result is zero plus one for every
    edge whose end is `n`. -/
theorem cnt_read (h : InRange w ix) (x : S50000.Idx → EReal) (idx : IVec S800000x1 32) (upd : S800000.Idx → EReal)
    (hx : ∀ i, x i = 0) (hidx : ∀ e : Fin 800000, idx (ix2 e (0 : Fin 1)) = w (ix1 e)) (hupd : ∀ i, upd i = 1)
    (n : Fin 50000) :
    Host.scatterAdd (F := Ideal) (φ := .f32) scatter_S50000_S800000x1_S800000_n_0_0_1 x idx upd (ix1 n) = cnt ix n := by
  refine (vecScatterAdd_apply scatter_S50000_S800000x1_S800000_n_0_0_1_wf x idx upd n).trans ?_
  rw [hx]
  unfold cnt
  refine congrArg (fun t => (0 : EReal) + t) (Finset.sum_congr rfl fun e _ => ?_)
  rw [hidx, hupd]
  by_cases he : ix e = n
  · rw [if_pos he, if_pos ((toInt_inRange_eq_iff h e n).2 he)]
  · rw [if_neg he, if_neg (fun h' => he ((toInt_inRange_eq_iff h e n).1 h'))]

/-- The reciprocal square root of the larger of one and that count is the normaliser. -/
theorem rs_read (one c : S50000.Idx → EReal) (hone : ∀ i, one i = 1) (hc : ∀ m, c (ix1 m) = cnt ix m) (n : Fin 50000) :
    FloatOps.hostUnary (F := Ideal) (φ := .f32) .rsqrt (FloatOps.maximumf (one (ix1 n)) (c (ix1 n))) = rs ix n := by
  unfold rs
  rw [hone, hc, Ideal.hostUnary_rsqrt_def, Ideal.maximumf_def]

end Degree

/-! ### The forward aggregate, as the program computes it -/

section Forward
variable {ws wd : (⟨1, ![EE]⟩ : Shape).Idx → BitVec 32} {s d : Ends}

/-- Rows gathered at the source words from the array `x (m, j) * rs s m`, then scattered, with addition, into zeros at
    the target words: at `(n, j)` the result is zero plus, for every edge into `n`, the source's entry times the source's
    normaliser. -/
theorem fwd_read (hs : InRange ws s) (hd : InRange wd d) (x : S50000x96.Idx → EReal)
    (z : S50000x96.Idx → EReal) (si : IVec S800000x1 32) (y : S50000x96.Idx → EReal) (gi : IVec S800000x1 32)
    (hz : ∀ i, z i = 0) (hsi : ∀ e : Fin 800000, si (ix2 e (0 : Fin 1)) = wd (ix1 e))
    (hy : ∀ (m : Fin 50000) (j : Fin 96), y (ix2 m j) = x (ix2 m j) * rs s m)
    (hgi : ∀ e : Fin 800000, gi (ix2 e (0 : Fin 1)) = ws (ix1 e))
    (n : Fin 50000) (j : Fin 96) :
    Host.scatterAdd (F := Ideal) (φ := .f32) scatter_S50000x96_S800000x1_S800000x96_1_0_0_1 z si
      (Host.gather gather_S50000x96_S800000x1_S800000x96_1_0_n_n_0_1_196 y gi) (ix2 n j) = fwd s d (cur x) n j := by
  refine (rowScatterAdd_apply scatter_S50000x96_S800000x1_S800000x96_1_0_0_1_wf z si
    (Host.gather gather_S50000x96_S800000x1_S800000x96_1_0_n_n_0_1_196 y gi) n j).trans ?_
  rw [hz]
  unfold fwd cur
  refine congrArg (fun t => (0 : EReal) + t) (Finset.sum_congr rfl fun e _ => ?_)
  rw [hsi]
  by_cases he : d e = n
  · rw [if_pos he, if_pos ((toInt_inRange_eq_iff hd e n).2 he)]
    have hrow : gatherRow nn_pos gi e = s e := by
      apply Fin.ext
      show min (gi (ix2 e (0 : Fin 1))).toInt.toNat (50000 - 1) = (s e).val
      rw [hgi, toInt_inRange hs e]
      have hlt : (s e).val < 50000 := (s e).isLt
      omega
    refine (rowGather_apply nn_pos gather_S50000x96_S800000x1_S800000x96_1_0_n_n_0_1_196_wf y gi e j).trans ?_
    rw [hrow, hy]
  · rw [if_neg he, if_neg (fun h' => he ((toInt_inRange_eq_iff hd e n).1 h'))]

end Forward

variable (x0 x1 : (⟨S50000x96, .f32⟩ : BufTy).Contents (Elt Ideal)) (x2 x3 : (⟨S800000, .i32⟩ : BufTy).Contents (Elt Ideal))
  (x4 : (⟨S96x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 : (⟨S192x96, .f32⟩ : BufTy).Contents (Elt Ideal)) (x9 : (⟨S96, .f32⟩ : BufTy).Contents (Elt Ideal))
  (x10 : (⟨S96x96, .f32⟩ : BufTy).Contents (Elt Ideal)) (x11 : (⟨S96, .f32⟩ : BufTy).Contents (Elt Ideal))
  (s d : Ends)

/-- The source-side normaliser (computed twice by the program, once per feature array). -/
theorem rs_v9 (hs : InRange x2 s) (n : Fin 50000) : cur1 (val_main_v9 x2) n = rs s n := by
  unfold cur1
  rw [val_main_v9_apply, val_main_v4_apply]
  refine rs_read (val_main_call0_v1 (F := Ideal)) (val_main_v3 (F := Ideal) x2) (fun i => ?_) (fun m => ?_) n
  · rw [val_main_call0_v1_apply, val_main_call0_v0_apply, val_main_cst_1_apply, Ideal.ofBits_def, Ideal.ofBits_one_f32]
  · unfold val_main_v3
    refine cnt_read hs _ _ _ (fun i => ?_) (fun e => ?_) (fun i => ?_) m
    · rw [val_main_v1_apply, val_main_cst_0_apply, Ideal.ofBits_def, Ideal.ofBits_zero_f32]
    · unfold val_main_v2
      exact col_read x2 e
    · rw [val_main_v0_apply, val_main_cst_apply, Ideal.ofBits_def, Ideal.ofBits_one_f32]
theorem rs_v41 (hs : InRange x2 s) (n : Fin 50000) : cur1 (val_main_v41 x2) n = rs s n := by
  unfold cur1
  rw [val_main_v41_apply, val_main_v36_apply]
  refine rs_read (val_main_call2_v1 (F := Ideal)) (val_main_v35 (F := Ideal) x2) (fun i => ?_) (fun m => ?_) n
  · rw [val_main_call2_v1_apply, val_main_call2_v0_apply, val_main_cst_9_apply, Ideal.ofBits_def, Ideal.ofBits_one_f32]
  · unfold val_main_v35
    refine cnt_read hs _ _ _ (fun i => ?_) (fun e => ?_) (fun i => ?_) m
    · rw [val_main_v33_apply, val_main_cst_8_apply, Ideal.ofBits_def, Ideal.ofBits_zero_f32]
    · unfold val_main_v34
      exact col_read x2 e
    · rw [val_main_v32_apply, val_main_cst_7_apply, Ideal.ofBits_def, Ideal.ofBits_one_f32]
/-- The target-side normaliser (also computed twice). -/
theorem rs_v24 (hd : InRange x3 d) (n : Fin 50000) : cur1 (val_main_v24 x3) n = rs d n := by
  unfold cur1
  rw [val_main_v24_apply, val_main_v8_apply]
  refine rs_read (val_main_call1_v1 (F := Ideal)) (val_main_v7 (F := Ideal) x3) (fun i => ?_) (fun m => ?_) n
  · rw [val_main_call1_v1_apply, val_main_call1_v0_apply, val_main_cst_3_apply, Ideal.ofBits_def, Ideal.ofBits_one_f32]
  · unfold val_main_v7
    refine cnt_read hd _ _ _ (fun i => ?_) (fun e => ?_) (fun i => ?_) m
    · rw [val_main_v5_apply, val_main_cst_2_apply, Ideal.ofBits_def, Ideal.ofBits_zero_f32]
    · unfold val_main_v6
      exact col_read x3 e
    · rw [val_main_v0_apply, val_main_cst_apply, Ideal.ofBits_def, Ideal.ofBits_one_f32]
theorem rs_v56 (hd : InRange x3 d) (n : Fin 50000) : cur1 (val_main_v56 x3) n = rs d n := by
  unfold cur1
  rw [val_main_v56_apply, val_main_v40_apply]
  refine rs_read (val_main_call3_v1 (F := Ideal)) (val_main_v39 (F := Ideal) x3) (fun i => ?_) (fun m => ?_) n
  · rw [val_main_call3_v1_apply, val_main_call3_v0_apply, val_main_cst_11_apply, Ideal.ofBits_def, Ideal.ofBits_one_f32]
  · unfold val_main_v39
    refine cnt_read hd _ _ _ (fun i => ?_) (fun e => ?_) (fun i => ?_) m
    · rw [val_main_v37_apply, val_main_cst_10_apply, Ideal.ofBits_def, Ideal.ofBits_zero_f32]
    · unfold val_main_v38
      exact col_read x3 e
    · rw [val_main_v32_apply, val_main_cst_7_apply, Ideal.ofBits_def, Ideal.ofBits_one_f32]

/-- The raw forward aggregate of the first feature array, and of the second. -/
theorem fwd_v22 (hs : InRange x2 s) (hd : InRange x3 d) (n : Fin 50000) (j : Fin 96) :
    cur (val_main_v22 x0 x2 x3) n j = fwd s d (cur x0) n j := by
  show val_main_v22 (F := Ideal) x0 x2 x3 (ix2 n j) = fwd s d (cur x0) n j
  unfold val_main_v22 val_main_v19
  refine fwd_read hs hd x0 _ _ _ _ (fun i => ?_) (fun e => ?_) (fun m k => ?_) (fun e => ?_) n j
  · rw [val_main_v20_apply, val_main_cst_5_apply, Ideal.ofBits_def, Ideal.ofBits_zero_f32]
  · unfold val_main_v21
    exact col_read x3 e
  · rw [val_main_v12_apply, Ideal.mulf_def]
    unfold val_main_v11 val_main_v10
    rw [Cert.LibKeepdims.broadcastInDim_a1_ab_apply, Cert.LibKeepdims.broadcastInDim_a_a1_apply]
    exact congrArg (fun t => x0 (ix2 m k) * t) (rs_v9 x2 s hs m)
  · unfold val_main_v18
    rw [col_read, val_main_v17_apply, val_main_v14_apply, val_main_v16_apply, val_main_v13_apply,
      val_main_v15_apply, val_main_c_apply, val_main_c_4_apply]
    exact wrap_inRange hs e
theorem fwd_v54 (hs : InRange x2 s) (hd : InRange x3 d) (n : Fin 50000) (j : Fin 96) :
    cur (val_main_v54 x1 x2 x3) n j = fwd s d (cur x1) n j := by
  show val_main_v54 (F := Ideal) x1 x2 x3 (ix2 n j) = fwd s d (cur x1) n j
  unfold val_main_v54 val_main_v51
  refine fwd_read hs hd x1 _ _ _ _ (fun i => ?_) (fun e => ?_) (fun m k => ?_) (fun e => ?_) n j
  · rw [val_main_v52_apply, val_main_cst_14_apply, Ideal.ofBits_def, Ideal.ofBits_zero_f32]
  · unfold val_main_v53
    exact col_read x3 e
  · rw [val_main_v44_apply, Ideal.mulf_def]
    unfold val_main_v43 val_main_v42
    rw [Cert.LibKeepdims.broadcastInDim_a1_ab_apply, Cert.LibKeepdims.broadcastInDim_a_a1_apply]
    exact congrArg (fun t => x1 (ix2 m k) * t) (rs_v41 x2 s hs m)
  · unfold val_main_v50
    rw [col_read, val_main_v49_apply, val_main_v46_apply, val_main_v48_apply, val_main_v45_apply,
      val_main_v47_apply, val_main_c_12_apply, val_main_c_13_apply]
    exact wrap_inRange hs e

end Cert.ReferenceIdeal.RefGraph

end
-- ==== Proof.KGraphReads.lean ====
/-
  The kernel's three edge computations read at an index, each as a sum over the edges: the integer count of the
  edges at a node turned into a float, the forward aggregate of 192 columns, and the backward aggregate of 192 columns.
-/
import proofs.«408811_j18047452578207_2_alg».proof.Proof.Gen.KernelIdeal
import proofs.«408811_j18047452578207_2_alg».proof.Proof.Spec
import proofs.«408811_j18047452578207_2_alg».proof.Proof.RefGraph
import proofs.«408811_j18047452578207_2_alg».proof.Proof.LibRowGather
import proofs.«408811_j18047452578207_2_alg».proof.Proof.LibRowScatterAdd
import proofs.«408811_j18047452578207_2_alg».proof.Proof.LibCount
import proofs.«408811_j18047452578207_2_alg».proof.Proof.LibHostRead
import Idealize.ShloMosaic.Lib.StableHlo.Predicate
import Idealize.ShloMosaic.Lib.IdealHost

noncomputable section

namespace Cert.KernelIdeal.GraphReads

open Cert.KernelIdeal Cert.Spec
open Idealize.ShloMosaic Idealize.ShloMosaic.ValueIdx

open Cert.ReferenceIdeal.RefGraph (vecScatterAdd_apply toInt_inRange toInt_inRange_eq_iff nn_pos)

/-- The row a gather reads at an in-range index word is the edge's node: the word read signed is the node's number,
    which is already inside the operand, so the clamp leaves it. -/
theorem gatherRow_inRange {w : (⟨1, ![EE]⟩ : Shape).Idx → BitVec 32} {ix : Ends} (h : InRange w ix)
    (gi : IVec S800000x1 32) (hgi : ∀ e : Fin 800000, gi (ix2 e (0 : Fin 1)) = w (ix1 e)) (e : Fin 800000) :
    gatherRow nn_pos gi e = ix e := by
  apply Fin.ext
  show min (gi (ix2 e (0 : Fin 1))).toInt.toNat (50000 - 1) = (ix e).val
  rw [hgi, toInt_inRange h e]
  have hlt : (ix e).val < 50000 := (ix e).isLt
  omega

variable {ws wd : (⟨1, ![EE]⟩ : Shape).Idx → BitVec 32} {s d : Ends}

/-- The integer scatter of ones into zeros at the column of an in-range index array, read signed and turned into a
    float, is the number of edges at the node. -/
theorem cnt_read {w : (⟨1, ![EE]⟩ : Shape).Idx → BitVec 32} {ix : Ends} (h : InRange w ix)
    (x : IVec S50000 32) (idx : IVec S800000x1 32) (upd : IVec S800000 32)
    (hx : ∀ i, x i = 0#32) (hidx : ∀ e : Fin 800000, idx (ix2 e (0 : Fin 1)) = w (ix1 e)) (hupd : ∀ i, upd i = 1#32)
    (n : Fin 50000) :
    FloatOps.sitofp (F := Ideal) .f32 (Host.scatter scatter_S50000_S800000x1_S800000_n_0_0_1 IntOp.addi x idx upd (ix1 n))
      = cnt ix n := by
  obtain rfl : x = fun _ => 0#32 := funext hx
  obtain rfl : upd = fun _ => 1#32 := funext hupd
  refine (LibCount.sitofp_scatter_ones scatter_S50000_S800000x1_S800000_n_0_0_1 idx (by decide) (ix1 n)).trans ?_
  refine (vecScatterAdd_apply Gen.scatter_S50000_S800000x1_S800000_n_0_0_1_wf (fun _ => (0 : EReal)) idx
    (fun _ => (1 : EReal)) n).trans ?_
  unfold cnt
  refine congrArg (fun t => (0 : EReal) + t) (Finset.sum_congr rfl fun e _ => ?_)
  rw [hidx]
  by_cases he : ix e = n
  · rw [if_pos he, if_pos ((toInt_inRange_eq_iff h e n).2 he)]
  · rw [if_neg he, if_neg (fun h' => he ((toInt_inRange_eq_iff h e n).1 h'))]

/-- Rows of y gathered at the source column and scatter-added into zeros at the target column: the forward aggregate,
    when y is X scaled row by row by the source normaliser. -/
theorem fwd_read (hs : InRange ws s) (hd : InRange wd d) (X : Mat NN H2)
    (z : S50000x192.Idx → EReal) (si : IVec S800000x1 32) (y : S50000x192.Idx → EReal) (gi : IVec S800000x1 32)
    (hz : ∀ i, z i = 0) (hsi : ∀ e : Fin 800000, si (ix2 e (0 : Fin 1)) = wd (ix1 e))
    (hy : ∀ (m : Fin 50000) (j : Fin 192), y (ix2 m j) = X m j * rs s m)
    (hgi : ∀ e : Fin 800000, gi (ix2 e (0 : Fin 1)) = ws (ix1 e))
    (n : Fin 50000) (j : Fin 192) :
    Host.scatterAdd (F := Ideal) (φ := .f32) scatter_S50000x192_S800000x1_S800000x192_1_0_0_1 z si
      (Host.gather gather_S50000x192_S800000x1_S800000x192_1_0_n_n_0_1_1192 y gi) (ix2 n j) = fwd s d X n j := by
  refine (rowScatterAdd_apply Gen.scatter_S50000x192_S800000x1_S800000x192_1_0_0_1_wf z si
    (Host.gather gather_S50000x192_S800000x1_S800000x192_1_0_n_n_0_1_1192 y gi) n j).trans ?_
  rw [hz]
  unfold fwd
  refine congrArg (fun t => (0 : EReal) + t) (Finset.sum_congr rfl fun e _ => ?_)
  rw [hsi]
  by_cases he : d e = n
  · rw [if_pos he, if_pos ((toInt_inRange_eq_iff hd e n).2 he)]
    refine (rowGather_apply nn_pos Gen.gather_S50000x192_S800000x1_S800000x192_1_0_n_n_0_1_1192_wf y gi e j).trans ?_
    rw [gatherRow_inRange hs gi hgi e, hy]
  · rw [if_neg he, if_neg (fun h' => he ((toInt_inRange_eq_iff hd e n).1 h'))]

/-- Rows of y gathered at the target column and scatter-added into zeros at the source column: the backward aggregate. -/
theorem bwd_read (hs : InRange ws s) (hd : InRange wd d)
    (z : S50000x192.Idx → EReal) (si : IVec S800000x1 32) (y : S50000x192.Idx → EReal) (gi : IVec S800000x1 32)
    (hz : ∀ i, z i = 0) (hsi : ∀ e : Fin 800000, si (ix2 e (0 : Fin 1)) = ws (ix1 e))
    (hgi : ∀ e : Fin 800000, gi (ix2 e (0 : Fin 1)) = wd (ix1 e))
    (n : Fin 50000) (j : Fin 192) :
    Host.scatterAdd (F := Ideal) (φ := .f32) scatter_S50000x192_S800000x1_S800000x192_1_0_0_1 z si
      (Host.gather gather_S50000x192_S800000x1_S800000x192_1_0_n_n_0_1_1192 y gi) (ix2 n j) = bwd s d (cur y) n j := by
  refine (rowScatterAdd_apply Gen.scatter_S50000x192_S800000x1_S800000x192_1_0_0_1_wf z si
    (Host.gather gather_S50000x192_S800000x1_S800000x192_1_0_n_n_0_1_1192 y gi) n j).trans ?_
  rw [hz]
  unfold bwd cur
  refine congrArg (fun t => (0 : EReal) + t) (Finset.sum_congr rfl fun e _ => ?_)
  rw [hsi]
  by_cases he : s e = n
  · rw [if_pos he, if_pos ((toInt_inRange_eq_iff hs e n).2 he)]
    refine (rowGather_apply nn_pos Gen.gather_S50000x192_S800000x1_S800000x192_1_0_n_n_0_1_1192_wf y gi e j).trans ?_
    rw [gatherRow_inRange hd gi hgi e]
  · rw [if_neg he, if_neg (fun h' => he ((toInt_inRange_eq_iff hs e n).1 h'))]

end Cert.KernelIdeal.GraphReads

end
-- ==== Proof.KHostB.lean ====
/-
  The host operations between the two regions, read at an index: the backward aggregate of the first region's output.
-/
import proofs.«408811_j18047452578207_2_alg».proof.Proof.Gen.KernelIdeal.Frame
import proofs.«408811_j18047452578207_2_alg».proof.Proof.Spec
import proofs.«408811_j18047452578207_2_alg».proof.Proof.LibRowGather
import proofs.«408811_j18047452578207_2_alg».proof.Proof.LibRowScatterAdd
import proofs.«408811_j18047452578207_2_alg».proof.Proof.LibKeepdims
import proofs.«408811_j18047452578207_2_alg».proof.Proof.LibHostRead
import proofs.«408811_j18047452578207_2_alg».proof.Proof.KGraphReads
import Idealize.ShloMosaic.Lib.StableHlo.Predicate

set_option maxRecDepth 16384

noncomputable section

namespace Cert.KernelIdeal.HostB

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg) (c : Dev nD) (s d : Ends)

/-- Argument k of the program as launched on core c. -/
abbrev arg (b : Ref sig .tc) := m ((c : Thread nD τ).loc b)

/-! ### The target words wrapped -/

/-- Wrapping a target word that names a node leaves it: it is not negative, so the sum with 50000 is not taken. -/
theorem wrap_apply (hb : S_.BroadcastsInDim S800000 (![] : Fin 0 → Fin S800000.rank))
    (a3 : IVec S800000 32) (hd : InRange a3 d) (e : Fin 800000) :
    select (cmpi .slt a3 (broadcastInDim S800000 ![] hb (constantI S_ 32 0#32)))
      (addi a3 (broadcastInDim S800000 ![] hb (constantI S_ 32 50000#32))) a3 (ix1 e)
      = a3 (ix1 e) := by
  have hlt : (d e).val < 2 ^ 31 := by have h : (d e).val < 50000 := (d e).isLt; omega
  have h0 : IntOp.cmpi .slt (BitVec.ofNat 32 (d e).val) 0#32 = 0#1 :=
    eq_zero_of_ne_one fun h => absurd ((StableHlo.Predicate.slt_ofNat_iff (d e).val 0 hlt (by omega)).mp h) (by omega)
  show Scalar.select (IntOp.cmpi .slt (a3 (ix1 e)) (broadcastInDim S800000 ![] hb (constantI S_ 32 0#32) (ix1 e))) _ (a3 (ix1 e)) = _
  rw [Cert.LibKeepdims.broadcastInDim_scalar_apply, hd e]
  show Scalar.select (IntOp.cmpi .slt (BitVec.ofNat 32 (d e).val) 0#32) _ _ = _
  rw [h0, select_zero]

/-! ### The host operations between the regions as one function of their three inputs -/

/-- What the host operations between the regions make of the source words a2, the target words a3 and the array x:
    the rows of x at the wrapped target words, added up at the source words into zeros. -/
def agg (a2 a3 : IVec S800000 32) (x : FVec Ideal S50000x192 .f32) : FVec Ideal S50000x192 .f32 :=
  Host.scatterAdd scatter_S50000x192_S800000x1_S800000x192_1_0_0_1
    (broadcastInDim S50000x192 ![] bcast_S_S50000x192 (constant (F := Ideal) S_ .f32 0x00000000#32))
    (broadcastInDim S800000x1 ![0] bcast_S800000_S800000x1_0 a2)
    (Host.gather gather_S50000x192_S800000x1_S800000x192_1_0_n_n_0_1_1192 x
      (broadcastInDim S800000x1 ![0] bcast_S800000_S800000x1_0
        (select (cmpi .slt a3 (broadcastInDim S800000 ![] bcast_S_S800000 (constantI S_ 32 0#32)))
          (addi a3 (broadcastInDim S800000 ![] bcast_S_S800000 (constantI S_ 32 50000#32))) a3)))

/-- That array read at (n, q) is the backward aggregate of x: over the edges leaving n, the target's row of x. -/
theorem agg_apply (a2 a3 : IVec S800000 32) (x : FVec Ideal S50000x192 .f32) (hs : InRange a2 s) (hd : InRange a3 d)
    (n : Fin 50000) (q : Fin 192) : agg a2 a3 x (ix2 n q) = bwd s d (cur x) n q :=
  Cert.KernelIdeal.GraphReads.bwd_read hs hd _ _ x _
    (fun i => by rw [Cert.LibKeepdims.broadcastInDim_scalar_apply, constant_apply, Ideal.ofBits_zero_f32])
    (fun e => Cert.LibKeepdims.broadcastInDim_a_a1_apply a2 _ e 0)
    (fun e => (Cert.LibKeepdims.broadcastInDim_a_a1_apply _ _ e 0).trans (wrap_apply d bcast_S_S800000 a3 hd e)) n q

/-- Its first 96 columns, and its last 96. -/
def res54 (a2 a3 : IVec S800000 32) (x : FVec Ideal S50000x192 .f32) : FVec Ideal S50000x96 .f32 :=
  extractStridedSlice S50000x96 ![0, 0] (agg a2 a3 x) slices_S50000x192_S50000x96_0_0
def res55 (a2 a3 : IVec S800000 32) (x : FVec Ideal S50000x192 .f32) : FVec Ideal S50000x96 .f32 :=
  extractStridedSlice S50000x96 ![0, 96] (agg a2 a3 x) slices_S50000x192_S50000x96_0_96

/-- Column j of the first half is column lo j of the whole. -/
theorem res54_apply (a2 a3 : IVec S800000 32) (x : FVec Ideal S50000x192 .f32) (hs : InRange a2 s) (hd : InRange a3 d)
    (n : Fin 50000) (j : Fin 96) : res54 a2 a3 x (ix2 n j) = bwd s d (cur x) n (lo j) := by
  unfold res54
  refine (extractStridedSlice_apply _ _ _ (ix2 n j) (ix2 n (lo j)) fun a => ?_).trans (agg_apply s d a2 a3 x hs hd n (lo j))
  match a with
  | ⟨0, _⟩ => exact (Nat.zero_add _).symm
  | ⟨1, _⟩ => exact (Nat.zero_add _).symm

/-- Column j of the second half is column hi j = 96 + j of the whole. -/
theorem res55_apply (a2 a3 : IVec S800000 32) (x : FVec Ideal S50000x192 .f32) (hs : InRange a2 s) (hd : InRange a3 d)
    (n : Fin 50000) (j : Fin 96) : res55 a2 a3 x (ix2 n j) = bwd s d (cur x) n (hi j) := by
  unfold res55
  refine (extractStridedSlice_apply _ _ _ (ix2 n j) (ix2 n (hi j)) fun a => ?_).trans (agg_apply s d a2 a3 x hs hd n (hi j))
  match a with
  | ⟨0, _⟩ => exact (Nat.zero_add _).symm
  | ⟨1, _⟩ => rfl

/-! ### The run between the regions -/

set_option maxHeartbeats 400000 in
/-- From any contents V, the operations between the regions leave in their two results the two halves of that function
    of V's source words, target words and first-region output. -/
theorem after_v54 (V : Valuation τ sig (Elt Ideal)) :
    StableHlo.after hostOps1 V (Proc.devRef .tc main_v54) =
      res54 (V (Proc.devRef .tc main_arg2)) (V (Proc.devRef .tc main_arg3)) (V (Proc.devRef .tc main_v43)) := by
  after_results
  rfl
set_option maxHeartbeats 400000 in
theorem after_v55 (V : Valuation τ sig (Elt Ideal)) :
    StableHlo.after hostOps1 V (Proc.devRef .tc main_v55) =
      res55 (V (Proc.devRef .tc main_arg2)) (V (Proc.devRef .tc main_arg3)) (V (Proc.devRef .tc main_v43)) := by
  after_results
  rfl

/-- When the first region is left, the two index columns are as launched: no operation between the regions and no
    window of the second region writes them, and from the second region's exit they read back to the launch. -/
theorem W6_arg2 : W6 m ρ c (Proc.devRef .tc main_arg2) = arg m c main_arg2 :=
  calc W6 m ρ c (Proc.devRef .tc main_arg2)
    _ = W7 m ρ c (Proc.devRef .tc main_arg2) := (StableHlo.after_of_forall_not_mem (b := Proc.devRef .tc main_arg2) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W8 m ρ c (Proc.devRef .tc main_arg2) := (W8_of_ne m ρ c main_arg2 (by decide)).symm
    _ = m ((c : Thread nD τ).loc main_arg2) := W8_main_arg2 m ρ c
theorem W6_arg3 : W6 m ρ c (Proc.devRef .tc main_arg3) = arg m c main_arg3 :=
  calc W6 m ρ c (Proc.devRef .tc main_arg3)
    _ = W7 m ρ c (Proc.devRef .tc main_arg3) := (StableHlo.after_of_forall_not_mem (b := Proc.devRef .tc main_arg3) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))).symm
    _ = W8 m ρ c (Proc.devRef .tc main_arg3) := (W8_of_ne m ρ c main_arg3 (by decide)).symm
    _ = m ((c : Thread nD τ).loc main_arg3) := W8_main_arg3 m ρ c

/-- The first region's output array is what its pipeline leaves. -/
theorem W6_v43 : W6 m ρ c (Proc.devRef .tc main_v43) = (dat0 (F := Ideal) (V5 m ρ) c).arrAt 16 cfg0.N :=
  W6_arr m ρ c 16

/-- The two results of the operations between the regions, as that function of the launched index columns and the
    first region's output array. -/
theorem v54_res : V7 m ρ c main_v54
    = res54 (arg m c main_arg2) (arg m c main_arg3) ((dat0 (F := Ideal) (V5 m ρ) c).arrAt 16 cfg0.N) :=
  (after_v54 (W6 m ρ c)).trans (by rw [W6_arg2 m ρ c, W6_arg3 m ρ c, W6_v43 m ρ c])
theorem v55_res : V7 m ρ c main_v55
    = res55 (arg m c main_arg2) (arg m c main_arg3) ((dat0 (F := Ideal) (V5 m ρ) c).arrAt 16 cfg0.N) :=
  (after_v55 (W6 m ρ c)).trans (by rw [W6_arg2 m ρ c, W6_arg3 m ρ c, W6_v43 m ρ c])

/-- The two halves of the backward aggregate of the first region's output array. -/
theorem v54_eq (hs : InRange (arg m c main_arg2) s) (hd : InRange (arg m c main_arg3) d) (n : Fin 50000) (j : Fin 96) :
    cur (V7 m ρ c main_v54 : S50000x96.Idx → EReal) n j
      = bwd s d (cur ((dat0 (F := Ideal) (V5 m ρ) c).arrAt 16 cfg0.N : S50000x192.Idx → EReal)) n (lo j) :=
  (congrFun (v54_res m ρ c) (ix2 n j)).trans (res54_apply s d _ _ _ hs hd n j)
theorem v55_eq (hs : InRange (arg m c main_arg2) s) (hd : InRange (arg m c main_arg3) d) (n : Fin 50000) (j : Fin 96) :
    cur (V7 m ρ c main_v55 : S50000x96.Idx → EReal) n j
      = bwd s d (cur ((dat0 (F := Ideal) (V5 m ρ) c).arrAt 16 cfg0.N : S50000x192.Idx → EReal)) n (hi j) :=
  (congrFun (v55_res m ρ c) (ix2 n j)).trans (res55_apply s d _ _ _ hs hd n j)
/-- The source-side normaliser's column is as it was before the first region. -/
theorem v42_keep : V7 m ρ c main_v42 = V5 m ρ c main_v42 :=
  calc W7 m ρ c (Proc.devRef .tc main_v42)
    _ = W6 m ρ c (Proc.devRef .tc main_v42) := StableHlo.after_of_forall_not_mem (b := Proc.devRef .tc main_v42) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide)))
    _ = W5 m ρ c (Proc.devRef .tc main_v42) := W6_of_ne m ρ c main_v42 (by decide)
/-- The two feature arrays are as launched. -/
theorem arg0_eq : V7 m ρ c main_arg0 = arg m c main_arg0 :=
  ((W8_arr m ρ c 3).trans (((dat1 (V7 m ρ) c).arrAt_in 3 rfl _).trans (A_eq1 (V7 m ρ) c 3))).symm.trans (W8_main_arg0 m ρ c)
theorem arg1_eq : V7 m ρ c main_arg1 = arg m c main_arg1 :=
  ((W8_arr m ρ c 4).trans (((dat1 (V7 m ρ) c).arrAt_in 4 rfl _).trans (A_eq1 (V7 m ρ) c 4))).symm.trans (W8_main_arg1 m ρ c)

end Cert.KernelIdeal.HostB

end
-- ==== Proof.KValue.lean ====
/-
  The kernel's two results, read at an index, are the specification's leapfrog step.

  The second region leaves q + 1 * (G_p * rs_s) and p - 1 * (G_q * rs_s), where G_q, G_p are the two halves of the
  backward aggregate of the first region's output array; that array holds, node by node, the dense gradient of the
  raw forward aggregate, and every array the first region stages is a re-laying of an argument. Substituting each
  stage's value gives the specification's qNext and pNext at the arguments as launched.
-/
import proofs.«408811_j18047452578207_2_alg».proof.Proof.Gen.KernelIdeal.Frame
import proofs.«408811_j18047452578207_2_alg».proof.Proof.Spec
import proofs.«408811_j18047452578207_2_alg».proof.Proof.KRegion0
import proofs.«408811_j18047452578207_2_alg».proof.Proof.KRegion1
import proofs.«408811_j18047452578207_2_alg».proof.Proof.KHostA
import proofs.«408811_j18047452578207_2_alg».proof.Proof.KHostB

set_option maxRecDepth 16384

noncomputable section

namespace Cert.KernelIdeal.KValue

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

open Cert.KernelIdeal.HostA (arg)

variable (m : (ℓ : Loc nD τ sig) → Buf (Elt Ideal) ℓ) (ρ : Dev nD → PrngReg) (c : Dev nD) (s d : Ends)

/-- The arguments as launched, as plain arrays. -/
abbrev aQ : Mat NN HH := cur (arg m c main_arg0 : S50000x96.Idx → EReal)
abbrev aP : Mat NN HH := cur (arg m c main_arg1 : S50000x96.Idx → EReal)
abbrev aWq : Mat HH HH := cur (arg m c main_arg4 : S96x96.Idx → EReal)
abbrev abq : Fin HH → EReal := cur1 (arg m c main_arg5 : S96.Idx → EReal)
abbrev aWp : Mat HH HH := cur (arg m c main_arg6 : S96x96.Idx → EReal)
abbrev abp : Fin HH → EReal := cur1 (arg m c main_arg7 : S96.Idx → EReal)
abbrev aW1 : Mat H2 HH := cur (arg m c main_arg8 : S192x96.Idx → EReal)
abbrev ab1 : Fin HH → EReal := cur1 (arg m c main_arg9 : S96.Idx → EReal)
abbrev aW2 : Mat HH HH := cur (arg m c main_arg10 : S96x96.Idx → EReal)
abbrev ab2 : Fin HH → EReal := cur1 (arg m c main_arg11 : S96.Idx → EReal)

/-- The first region's output array: its first 96 columns are the gradient with respect to the raw aggregate of q. -/
theorem out_lo (hs : InRange (arg m c main_arg2) s) (hd : InRange (arg m c main_arg3) d) (n : Fin 50000) (j : Fin 96) :
    cur ((dat0 (F := Ideal) (V5 m ρ) c).arrAt 16 cfg0.N : S50000x192.Idx → EReal) n (lo j)
      = gq (aQ m c) (aP m c) s d (aWq m c) (aWp m c) (aW2 m c) (abq m c) (abp m c) (ab1 m c) (ab2 m c) (aW1 m c) n j := by
  have hA : cur (V5 m ρ c main_v29 : S50000x192.Idx → EReal) = fwd s d (cat (aQ m c) (aP m c)) :=
    funext fun n => funext fun j => HostA.v29_eq m ρ c s d hs hd n j
  have hr : (fun n => cur (V5 m ρ c main_v41 : S50000x1.Idx → EReal) n (0 : Fin 1)) = rs d :=
    funext fun n => HostA.v41_eq m ρ c d hd n
  have h37 : cur (V5 m ρ c main_v37 : S1x96.Idx → EReal) (0 : Fin 1) = abq m c := funext fun j => HostA.v37_eq m ρ c j
  have h38 : cur (V5 m ρ c main_v38 : S1x96.Idx → EReal) (0 : Fin 1) = abp m c := funext fun j => HostA.v38_eq m ρ c j
  have h39 : cur (V5 m ρ c main_v39 : S1x96.Idx → EReal) (0 : Fin 1) = ab1 m c := funext fun j => HostA.v39_eq m ρ c j
  have h40 : cur (V5 m ρ c main_v40 : S1x96.Idx → EReal) (0 : Fin 1) = ab2 m c := funext fun j => HostA.v40_eq m ρ c j
  have h30 : cur (V5 m ρ c main_v30 : S96x96.Idx → EReal) = fun k j => aW1 m c (lo k) j :=
    funext fun k => funext fun j => HostA.v30_eq m ρ c k j
  have h31 : cur (V5 m ρ c main_v31 : S96x96.Idx → EReal) = fun k j => aW1 m c (hi k) j :=
    funext fun k => funext fun j => HostA.v31_eq m ρ c k j
  have h32 : cur (V5 m ρ c main_v32 : S96x96.Idx → EReal) = fun k j => aWq m c j k :=
    funext fun k => funext fun j => HostA.v32_eq m ρ c k j
  have h34 : cur (V5 m ρ c main_v34 : S96x96.Idx → EReal) = fun k j => aW1 m c (lo j) k :=
    funext fun k => funext fun j => HostA.v34_eq m ρ c k j
  have h36 : cur (V5 m ρ c main_v36 : S96x96.Idx → EReal) = fun k j => aW2 m c j k :=
    funext fun k => funext fun j => HostA.v36_eq m ρ c k j
  have h4 : cur (V5 m ρ c main_arg4 : S96x96.Idx → EReal) = aWq m c := congrArg cur (HostA.arg4_eq m ρ c)
  have h6 : cur (V5 m ρ c main_arg6 : S96x96.Idx → EReal) = aWp m c := congrArg cur (HostA.arg6_eq m ρ c)
  have h10 : cur (V5 m ρ c main_arg10 : S96x96.Idx → EReal) = aW2 m c := congrArg cur (HostA.arg10_eq m ρ c)
  rw [Region0.out16_lo (V5 m ρ) c n j, hA, hr, h37, h38, h39, h40, h30, h31, h32, h34, h36, h4, h6, h10]
  rfl

/-- Its last 96 columns are the gradient with respect to the raw aggregate of p. -/
theorem out_hi (hs : InRange (arg m c main_arg2) s) (hd : InRange (arg m c main_arg3) d) (n : Fin 50000) (j : Fin 96) :
    cur ((dat0 (F := Ideal) (V5 m ρ) c).arrAt 16 cfg0.N : S50000x192.Idx → EReal) n (hi j)
      = gp (aQ m c) (aP m c) s d (aWq m c) (aWp m c) (aW2 m c) (abq m c) (abp m c) (ab1 m c) (ab2 m c) (aW1 m c) n j := by
  have hA : cur (V5 m ρ c main_v29 : S50000x192.Idx → EReal) = fwd s d (cat (aQ m c) (aP m c)) :=
    funext fun n => funext fun j => HostA.v29_eq m ρ c s d hs hd n j
  have hr : (fun n => cur (V5 m ρ c main_v41 : S50000x1.Idx → EReal) n (0 : Fin 1)) = rs d :=
    funext fun n => HostA.v41_eq m ρ c d hd n
  have h37 : cur (V5 m ρ c main_v37 : S1x96.Idx → EReal) (0 : Fin 1) = abq m c := funext fun j => HostA.v37_eq m ρ c j
  have h38 : cur (V5 m ρ c main_v38 : S1x96.Idx → EReal) (0 : Fin 1) = abp m c := funext fun j => HostA.v38_eq m ρ c j
  have h39 : cur (V5 m ρ c main_v39 : S1x96.Idx → EReal) (0 : Fin 1) = ab1 m c := funext fun j => HostA.v39_eq m ρ c j
  have h40 : cur (V5 m ρ c main_v40 : S1x96.Idx → EReal) (0 : Fin 1) = ab2 m c := funext fun j => HostA.v40_eq m ρ c j
  have h30 : cur (V5 m ρ c main_v30 : S96x96.Idx → EReal) = fun k j => aW1 m c (lo k) j :=
    funext fun k => funext fun j => HostA.v30_eq m ρ c k j
  have h31 : cur (V5 m ρ c main_v31 : S96x96.Idx → EReal) = fun k j => aW1 m c (hi k) j :=
    funext fun k => funext fun j => HostA.v31_eq m ρ c k j
  have h33 : cur (V5 m ρ c main_v33 : S96x96.Idx → EReal) = fun k j => aWp m c j k :=
    funext fun k => funext fun j => HostA.v33_eq m ρ c k j
  have h35 : cur (V5 m ρ c main_v35 : S96x96.Idx → EReal) = fun k j => aW1 m c (hi j) k :=
    funext fun k => funext fun j => HostA.v35_eq m ρ c k j
  have h36 : cur (V5 m ρ c main_v36 : S96x96.Idx → EReal) = fun k j => aW2 m c j k :=
    funext fun k => funext fun j => HostA.v36_eq m ρ c k j
  have h4 : cur (V5 m ρ c main_arg4 : S96x96.Idx → EReal) = aWq m c := congrArg cur (HostA.arg4_eq m ρ c)
  have h6 : cur (V5 m ρ c main_arg6 : S96x96.Idx → EReal) = aWp m c := congrArg cur (HostA.arg6_eq m ρ c)
  have h10 : cur (V5 m ρ c main_arg10 : S96x96.Idx → EReal) = aW2 m c := congrArg cur (HostA.arg10_eq m ρ c)
  rw [Region0.out16_hi (V5 m ρ) c n j, hA, hr, h37, h38, h39, h40, h30, h31, h33, h35, h36, h4, h6, h10]
  rfl

/-- The first result. -/
theorem res0 (hs : InRange (arg m c main_arg2) s) (hd : InRange (arg m c main_arg3) d) (n : Fin 50000) (j : Fin 96) :
    cur (W8 m ρ c (Proc.devRef .tc main_v56_0) : S50000x96.Idx → EReal) n j
      = qNext (aQ m c) (aP m c) s d (aWq m c) (aWp m c) (aW2 m c) (abq m c) (abp m c) (ab1 m c) (ab2 m c) (aW1 m c) n j := by
  have e8 : (W8 m ρ c (Proc.devRef .tc main_v56_0) : S50000x96.Idx → EReal)
      = ((dat1 (F := Ideal) (V7 m ρ) c).arrAt 5 cfg1.N : S50000x96.Idx → EReal) := W8_arr m ρ c 5
  have hb : bwd s d (cur ((dat0 (F := Ideal) (V5 m ρ) c).arrAt 16 cfg0.N : S50000x192.Idx → EReal)) n (hi j)
      = bwd s d (gp (aQ m c) (aP m c) s d (aWq m c) (aWp m c) (aW2 m c) (abq m c) (abp m c) (ab1 m c) (ab2 m c) (aW1 m c)) n j := by
    unfold bwd
    refine congrArg (0 + ·) (Finset.sum_congr rfl fun e _ => ?_)
    rw [out_hi m ρ c s d hs hd (d e) j]
  rw [e8, Region1.out5 (V7 m ρ) c n j, HostB.v55_eq m ρ c s d hs hd n j, hb, HostB.v42_keep m ρ c,
    HostA.v42_eq m ρ c s hs n, HostB.arg0_eq m ρ c]
  rfl

/-- The second result. -/
theorem res1 (hs : InRange (arg m c main_arg2) s) (hd : InRange (arg m c main_arg3) d) (n : Fin 50000) (j : Fin 96) :
    cur (W8 m ρ c (Proc.devRef .tc main_v56_1) : S50000x96.Idx → EReal) n j
      = pNext (aQ m c) (aP m c) s d (aWq m c) (aWp m c) (aW2 m c) (abq m c) (abp m c) (ab1 m c) (ab2 m c) (aW1 m c) n j := by
  have e8 : (W8 m ρ c (Proc.devRef .tc main_v56_1) : S50000x96.Idx → EReal)
      = ((dat1 (F := Ideal) (V7 m ρ) c).arrAt 6 cfg1.N : S50000x96.Idx → EReal) := W8_arr m ρ c 6
  have hb : bwd s d (cur ((dat0 (F := Ideal) (V5 m ρ) c).arrAt 16 cfg0.N : S50000x192.Idx → EReal)) n (lo j)
      = bwd s d (gq (aQ m c) (aP m c) s d (aWq m c) (aWp m c) (aW2 m c) (abq m c) (abp m c) (ab1 m c) (ab2 m c) (aW1 m c)) n j := by
    unfold bwd
    refine congrArg (0 + ·) (Finset.sum_congr rfl fun e _ => ?_)
    rw [out_lo m ρ c s d hs hd (d e) j]
  rw [e8, Region1.out6 (V7 m ρ) c n j, HostB.v54_eq m ρ c s d hs hd n j, hb, HostB.v42_keep m ρ c,
    HostA.v42_eq m ρ c s hs n, HostB.arg1_eq m ρ c]
  rfl

end Cert.KernelIdeal.KValue

end
-- ==== Proof.RefDense.lean ====
/-
  The dense part of the reference, read at an index: from the raw aggregates to the gradient with respect to them.
-/
import proofs.«408811_j18047452578207_2_alg».proof.Proof.Gen.ReferenceIdeal.Read
import proofs.«408811_j18047452578207_2_alg».proof.Proof.Spec
import proofs.«408811_j18047452578207_2_alg».proof.Proof.LibKeepdims

noncomputable section

namespace Cert.ReferenceIdeal.RefDense

open Cert.ReferenceIdeal Cert.ReferenceIdeal.Gen Cert.ReferenceIdeal.Read Cert.Spec
open Idealize.ShloMosaic Idealize.ShloMosaic.TcCoe Idealize.ShloMosaic.ValueIdx Idealize.SL.Sem

variable (x0 x1 : (⟨S50000x96, .f32⟩ : BufTy).Contents (Elt Ideal)) (x2 x3 : (⟨S800000, .i32⟩ : BufTy).Contents (Elt Ideal))
  (x4 : (⟨S96x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 : (⟨S192x96, .f32⟩ : BufTy).Contents (Elt Ideal)) (x9 : (⟨S96, .f32⟩ : BufTy).Contents (Elt Ideal))
  (x10 : (⟨S96x96, .f32⟩ : BufTy).Contents (Elt Ideal)) (x11 : (⟨S96, .f32⟩ : BufTy).Contents (Elt Ideal))
  (s d : Ends)

/-- An array read through its two coordinates, and a vector through its one. -/
theorem cur_eq {a b : ℕ} (x : (⟨2, ![a, b]⟩ : Shape).Idx → EReal) (i : Fin a) (j : Fin b) : cur x i j = x (ix2 i j) := rfl
theorem cur1_eq {a : ℕ} (x : (⟨1, ![a]⟩ : Shape).Idx → EReal) (i : Fin a) : cur1 x i = x (ix1 i) := rfl

local notation "𝔸" => cat (cur (val_main_v22 x0 x2 x3)) (cur (val_main_v54 x1 x2 x3))
local notation "𝕣" => cur1 (val_main_v24 x3)

/-! ### The first array's linear layer: stages 26 to 31 -/

/-- The index a row broadcast reads: row n of the column vector, then entry n of the vector. -/
theorem idx26 (n : Fin 50000) (j : Fin 96) : idx_main_v25 (idx_main_v26 (ix2 n j)) = ix1 n :=
  funext fun a => match a with | ⟨0, _⟩ => rfl

/-- The target normaliser broadcast along the rows reads the normaliser of the row. -/
theorem st26 (n : Fin 50000) (j : Fin 96) : val_main_v26 x3 (ix2 n j) = val_main_v24 x3 (ix1 n) := by
  rw [val_main_v26_apply, val_main_v25_apply, idx26]

/-- The normalised aggregate of the first array is the first half of the joined aggregate times the normaliser. -/
theorem st27 (n : Fin 50000) (j : Fin 96) : val_main_v27 x0 x2 x3 (ix2 n j) = kaq 𝔸 𝕣 n j := by
  unfold kaq
  rw [cat_lo, cur_eq, cur1_eq, val_main_v27_apply, st26, Ideal.mulf_def]

/-- The contraction indices of a product of a row with a matrix whose FIRST axis is contracted. -/
theorem lidx28 (n : Fin 50000) (j k : Fin 96) : lidx_main_v28 (ix2 n j) k = ix2 n k :=
  funext fun a => match a with | ⟨0, _⟩ => rfl | ⟨1, _⟩ => rfl
/-- … and of the matrix: row k, the result's column. -/
theorem ridx28 (n : Fin 50000) (j k : Fin 96) : ridx_main_v28 (ix2 n j) k = ix2 k j :=
  funext fun a => match a with | ⟨0, _⟩ => rfl | ⟨1, _⟩ => rfl

/-- The product of the normalised aggregate with the first weight matrix. -/
theorem st28 (n : Fin 50000) (j : Fin 96) :
    val_main_v28 x0 x2 x3 x4 (ix2 n j) = ∑ k : Fin 96, kaq 𝔸 𝕣 n k * cur x4 k j := by
  rw [val_main_v28_apply]
  refine Finset.sum_congr rfl fun k _ => ?_
  rw [lidx28, ridx28, st27 x0 x1 x2 x3, cur_eq]

/-- A bias broadcast along the columns reads the bias of the column. -/
theorem idx30 (n : Fin 50000) (j : Fin 96) : idx_main_v29 (idx_main_v30 (ix2 n j)) = ix1 j :=
  funext fun a => match a with | ⟨0, _⟩ => rfl
/-- So the broadcast bias at (n, j) is entry j of the bias. -/
theorem st30 (n : Fin 50000) (j : Fin 96) : val_main_v30 x5 (ix2 n j) = x5 (ix1 j) := by
  rw [val_main_v30_apply, val_main_v29_apply, idx30]

/-- The first linear layer. -/
theorem st31 (n : Fin 50000) (j : Fin 96) :
    val_main_v31 x0 x2 x3 x4 x5 (ix2 n j) = kqg 𝔸 𝕣 (cur x4) (cur1 x5) n j := by
  unfold kqg lin
  rw [val_main_v31_apply, st28 x0 x1 x2 x3, st30, Ideal.addf_def, cur1_eq]

/-! ### The second array's linear layer: stages 56 to 63 -/

/-- The second array is normalised by the same function of the target ends as the first. -/
theorem v56_eq : val_main_v56 x3 = val_main_v24 x3 := by
  unfold val_main_v56 val_main_v24 val_main_v40 val_main_v8 val_main_v39 val_main_v7 val_main_v37 val_main_v5
    val_main_v38 val_main_v6 val_main_v32 val_main_v0 val_main_call3_v1 val_main_call1_v1 val_main_call3_v0
    val_main_call1_v0 val_main_cst_11 val_main_cst_3 val_main_cst_10 val_main_cst_2 val_main_cst_7 val_main_cst
  with_reducible rfl

/-- The second array's normaliser broadcast along the rows reads the same normaliser of the row. -/
theorem idx58 (n : Fin 50000) (j : Fin 96) : idx_main_v57 (idx_main_v58 (ix2 n j)) = ix1 n :=
  funext fun a => match a with | ⟨0, _⟩ => rfl
theorem st58 (n : Fin 50000) (j : Fin 96) : val_main_v58 x3 (ix2 n j) = val_main_v24 x3 (ix1 n) := by
  rw [val_main_v58_apply, val_main_v57_apply, idx58, v56_eq]

/-- The normalised aggregate of the second array is the second half of the joined aggregate times the normaliser. -/
theorem st59 (n : Fin 50000) (j : Fin 96) : val_main_v59 x1 x2 x3 (ix2 n j) = kap 𝔸 𝕣 n j := by
  unfold kap
  rw [cat_hi, cur_eq, cur1_eq, val_main_v59_apply, st58, Ideal.mulf_def]

/-- The contraction indices of the second array's product: row n at k, and row k at the result's column. -/
theorem lidx60 (n : Fin 50000) (j k : Fin 96) : lidx_main_v60 (ix2 n j) k = ix2 n k :=
  funext fun a => match a with | ⟨0, _⟩ => rfl | ⟨1, _⟩ => rfl
theorem ridx60 (n : Fin 50000) (j k : Fin 96) : ridx_main_v60 (ix2 n j) k = ix2 k j :=
  funext fun a => match a with | ⟨0, _⟩ => rfl | ⟨1, _⟩ => rfl

/-- The product of the second normalised aggregate with the second weight matrix. -/
theorem st60 (n : Fin 50000) (j : Fin 96) :
    val_main_v60 x1 x2 x3 x6 (ix2 n j) = ∑ k : Fin 96, kap 𝔸 𝕣 n k * cur x6 k j := by
  rw [val_main_v60_apply]
  refine Finset.sum_congr rfl fun k _ => ?_
  rw [lidx60, ridx60, st59 x0 x1 x2 x3, cur_eq]

/-- The second bias broadcast along the columns reads the bias of the column. -/
theorem idx62 (n : Fin 50000) (j : Fin 96) : idx_main_v61 (idx_main_v62 (ix2 n j)) = ix1 j :=
  funext fun a => match a with | ⟨0, _⟩ => rfl
theorem st62 (n : Fin 50000) (j : Fin 96) : val_main_v62 x7 (ix2 n j) = x7 (ix1 j) := by
  rw [val_main_v62_apply, val_main_v61_apply, idx62]

/-- The second linear layer. -/
theorem st63 (n : Fin 50000) (j : Fin 96) :
    val_main_v63 x1 x2 x3 x6 x7 (ix2 n j) = kpg 𝔸 𝕣 (cur x6) (cur1 x7) n j := by
  unfold kpg lin
  rw [val_main_v63_apply, st60 x0 x1 x2 x3, st62, Ideal.addf_def, cur1_eq]

/-! ### The two layers side by side, the hidden layer and its activation: stages 64 to 69 -/

/-- Column k of the joined array's first half is column k of the first layer. -/
theorem st64_lo (n : Fin 50000) (k : Fin 96) :
    val_main_v64 x0 x1 x2 x3 x4 x5 x6 x7 (ix2 n (lo k)) = val_main_v31 x0 x2 x3 x4 x5 (ix2 n k) := by
  unfold val_main_v64
  generalize val_main_v31 x0 x2 x3 x4 x5 = y1
  generalize val_main_v63 x1 x2 x3 x6 x7 = y2
  exact concatenate_pair_apply_left (t := S50000x192) 1 y1 y2 _ (ix2 n (lo k)) rfl (ix2 n k)
    (fun b => match b with | ⟨0, _⟩ => rfl | ⟨1, _⟩ => rfl)

/-- Column k of its second half is column k of the second layer. -/
theorem st64_hi (n : Fin 50000) (k : Fin 96) :
    val_main_v64 x0 x1 x2 x3 x4 x5 x6 x7 (ix2 n (hi k)) = val_main_v63 x1 x2 x3 x6 x7 (ix2 n k) := by
  unfold val_main_v64
  generalize val_main_v31 x0 x2 x3 x4 x5 = y1
  generalize val_main_v63 x1 x2 x3 x6 x7 = y2
  exact concatenate_pair_apply_right (t := S50000x192) 1 y1 y2 _ (ix2 n (hi k)) rfl rfl (ix2 n k)
    (fun b => match b with | ⟨0, _⟩ => fun _ => rfl | ⟨1, _⟩ => fun h => absurd rfl h)
    (show k.val + 96 = 96 + k.val from Nat.add_comm _ _)

/-- The contraction indices of the hidden layer's product, over all 192 columns. -/
theorem lidx65 (n : Fin 50000) (j : Fin 96) (c : Fin 192) : lidx_main_v65 (ix2 n j) c = ix2 n c :=
  funext fun a => match a with | ⟨0, _⟩ => rfl | ⟨1, _⟩ => rfl
theorem ridx65 (n : Fin 50000) (j : Fin 96) (c : Fin 192) : ridx_main_v65 (ix2 n j) c = ix2 c j :=
  funext fun a => match a with | ⟨0, _⟩ => rfl | ⟨1, _⟩ => rfl

/-- The product of the joined layers with the hidden weights: the sum over 192 columns splits into the two halves. -/
theorem st65 (n : Fin 50000) (j : Fin 96) :
    val_main_v65 x0 x1 x2 x3 x4 x5 x6 x7 x8 (ix2 n j)
      = (∑ k : Fin 96, kqg 𝔸 𝕣 (cur x4) (cur1 x5) n k * cur x8 (lo k) j)
        + ∑ k : Fin 96, kpg 𝔸 𝕣 (cur x6) (cur1 x7) n k * cur x8 (hi k) j := by
  rw [val_main_v65_apply]
  refine (sum_lo_hi _).trans ?_
  refine congrArg₂ (· + ·) ?_ ?_ <;> refine Finset.sum_congr rfl fun k _ => ?_
  · rw [lidx65, ridx65, st64_lo, st31 x0 x1 x2 x3, cur_eq]
  · rw [lidx65, ridx65, st64_hi, st63 x0 x1 x2 x3, cur_eq]

/-- The hidden bias broadcast along the columns reads the bias of the column. -/
theorem idx67 (n : Fin 50000) (j : Fin 96) : idx_main_v66 (idx_main_v67 (ix2 n j)) = ix1 j :=
  funext fun a => match a with | ⟨0, _⟩ => rfl
theorem st67 (n : Fin 50000) (j : Fin 96) : val_main_v67 x9 (ix2 n j) = x9 (ix1 j) := by
  rw [val_main_v67_apply, val_main_v66_apply, idx67]

local notation "𝕌" => ku 𝔸 𝕣 (cur x4) (cur1 x5) (cur x6) (cur1 x7) (fun k j => cur x8 (lo k) j) (fun k j => cur x8 (hi k) j) (cur1 x9)
local notation "𝕋" => kt 𝔸 𝕣 (cur x4) (cur1 x5) (cur x6) (cur1 x7) (fun k j => cur x8 (lo k) j) (fun k j => cur x8 (hi k) j) (cur1 x9)

/-- The hidden pre-activation. -/
theorem st68 (n : Fin 50000) (j : Fin 96) : val_main_v68 x0 x1 x2 x3 x4 x5 x6 x7 x8 x9 (ix2 n j) = 𝕌 n j := by
  unfold ku
  rw [val_main_v68_apply, st65, st67, Ideal.addf_def, cur1_eq]

/-- The hidden activation. -/
theorem st69 (n : Fin 50000) (j : Fin 96) : val_main_v69 x0 x1 x2 x3 x4 x5 x6 x7 x8 x9 (ix2 n j) = 𝕋 n j := by
  unfold kt
  rw [val_main_v69_apply, st68, Ideal.hostUnary_tanh_def]

/-! ### The output layer h and the gradient of half its square: stages 70 to 83 -/

/-- The words of the constants one and one half. -/
theorem ofBits_one : Ideal.ofBits .f32 0x3F800000#32 = 1 := by
  simp [Ideal.ofBits, Ideal.ieee, -EReal.coe_mul]; norm_num
theorem ofBits_half : Ideal.ofBits .f32 0x3F000000#32 = ((1 / 2 : ℝ) : EReal) := by
  simp [Ideal.ofBits, Ideal.ieee, -EReal.coe_mul]; norm_num

/-- The constant array of ones reads one everywhere. -/
theorem st70 (n : Fin 50000) (j : Fin 96) : val_main_v70 (F := Ideal) (ix2 n j) = 1 := by
  rw [val_main_v70_apply, val_main_cst_16_apply, Ideal.ofBits_def, ofBits_one]

/-- One minus the activation. -/
theorem st71 (n : Fin 50000) (j : Fin 96) : val_main_v71 x0 x1 x2 x3 x4 x5 x6 x7 x8 x9 (ix2 n j) = 1 - 𝕋 n j := by
  rw [val_main_v71_apply, st70, st69, Ideal.subf_def]

/-- The contraction indices of the output layer's product. -/
theorem lidx72 (n : Fin 50000) (j k : Fin 96) : lidx_main_v72 (ix2 n j) k = ix2 n k :=
  funext fun a => match a with | ⟨0, _⟩ => rfl | ⟨1, _⟩ => rfl
theorem ridx72 (n : Fin 50000) (j k : Fin 96) : ridx_main_v72 (ix2 n j) k = ix2 k j :=
  funext fun a => match a with | ⟨0, _⟩ => rfl | ⟨1, _⟩ => rfl

/-- The product of the activation with the output weights. -/
theorem st72 (n : Fin 50000) (j : Fin 96) :
    val_main_v72 x0 x1 x2 x3 x4 x5 x6 x7 x8 x9 x10 (ix2 n j) = ∑ k : Fin 96, 𝕋 n k * cur x10 k j := by
  rw [val_main_v72_apply]
  refine Finset.sum_congr rfl fun k _ => ?_
  rw [lidx72, ridx72, st69, cur_eq]

/-- The output bias broadcast along the columns reads the bias of the column. -/
theorem idx74 (n : Fin 50000) (j : Fin 96) : idx_main_v73 (idx_main_v74 (ix2 n j)) = ix1 j :=
  funext fun a => match a with | ⟨0, _⟩ => rfl
theorem st74 (n : Fin 50000) (j : Fin 96) : val_main_v74 x11 (ix2 n j) = x11 (ix1 j) := by
  rw [val_main_v74_apply, val_main_v73_apply, idx74]

local notation "ℍ" => kh 𝔸 𝕣 (cur x4) (cur1 x5) (cur x6) (cur1 x7) (fun k j => cur x8 (lo k) j) (fun k j => cur x8 (hi k) j) (cur1 x9) (cur x10) (cur1 x11)

/-- The output layer. -/
theorem st75 (n : Fin 50000) (j : Fin 96) : val_main_v75 x0 x1 x2 x3 x4 x5 x6 x7 x8 x9 x10 x11 (ix2 n j) = ℍ n j := by
  unfold kh lin
  rw [val_main_v75_apply, st72, st74, Ideal.addf_def, cur1_eq]

/-- The output layer is a real number: the activation is, and so are the output weights and bias. -/
theorem fin_h (hW2 : ∀ i, IsFin (x10 i)) (hb2 : ∀ i, IsFin (x11 i)) (n : Fin 50000) (j : Fin 96) : IsFin (ℍ n j) := by
  unfold kh lin
  refine IsFin.add (IsFin.sum _ _ fun k _ => IsFin.mul ?_ ?_) ?_
  · unfold kt; exact IsFin.tanh _
  · rw [cur_eq]; exact hW2 _
  · rw [cur1_eq]; exact hb2 _

/-- The constant of the squared norm's gradient: one half times one. -/
theorem st80 (n : Fin 50000) (j : Fin 96) : val_main_v80 (F := Ideal) (ix2 n j) = ((1 / 2 : ℝ) : EReal) := by
  rw [val_main_v80_apply, val_main_v79_apply, val_main_cst_19_apply, val_main_cst_20_apply, Ideal.ofBits_def,
    Ideal.ofBits_def, Ideal.mulf_def, ofBits_half, ofBits_one, mul_one]

/-- A real number times one half, plus one half times it, is the number. -/
theorem half_step {h : EReal} (hh : IsFin h) : h * ((1 / 2 : ℝ) : EReal) + ((1 / 2 : ℝ) : EReal) * h = h := by
  obtain ⟨a, rfl⟩ := (isFin_iff h).1 hh
  rw [← EReal.coe_mul, ← EReal.coe_mul, ← EReal.coe_add]
  congr 1
  ring

/-- The gradient of half the squared norm of h is h. -/
theorem st83 (hW2 : ∀ i, IsFin (x10 i)) (hb2 : ∀ i, IsFin (x11 i)) (n : Fin 50000) (j : Fin 96) :
    val_main_v83 x0 x1 x2 x3 x4 x5 x6 x7 x8 x9 x10 x11 (ix2 n j) = ℍ n j := by
  rw [val_main_v83_apply, val_main_v81_apply, val_main_v82_apply, st80, st75, Ideal.addf_def, Ideal.mulf_def,
    Ideal.mulf_def]
  exact half_step (fin_h x0 x1 x2 x3 x4 x5 x6 x7 x8 x9 x10 x11 hW2 hb2 n j)

/-! ### Back through the output layer and the activation: stages 84 to 87 -/

/-- The contraction indices of a product over the SECOND axis of both factors: row n at k, and row j at k. -/
theorem lidx84 (n : Fin 50000) (j k : Fin 96) : lidx_main_v84 (ix2 n j) k = ix2 n k :=
  funext fun a => match a with | ⟨0, _⟩ => rfl | ⟨1, _⟩ => rfl
theorem ridx84 (n : Fin 50000) (j k : Fin 96) : ridx_main_v84 (ix2 n j) k = ix2 j k :=
  funext fun a => match a with | ⟨0, _⟩ => rfl | ⟨1, _⟩ => rfl

local notation "𝔻t" => kdEdt 𝔸 𝕣 (cur x4) (cur1 x5) (cur x6) (cur1 x7) (fun k j => cur x8 (lo k) j) (fun k j => cur x8 (hi k) j) (cur1 x9) (cur x10) (cur1 x11) (fun k j => cur x10 j k)
local notation "𝔻u" => kdEdu 𝔸 𝕣 (cur x4) (cur1 x5) (cur x6) (cur1 x7) (fun k j => cur x8 (lo k) j) (fun k j => cur x8 (hi k) j) (cur1 x9) (cur x10) (cur1 x11) (fun k j => cur x10 j k)

/-- The gradient with respect to the activation: h times the output weights, contracted over their second axis. -/
theorem st84 (hW2 : ∀ i, IsFin (x10 i)) (hb2 : ∀ i, IsFin (x11 i)) (n : Fin 50000) (j : Fin 96) :
    val_main_v84 x0 x1 x2 x3 x4 x5 x6 x7 x8 x9 x10 x11 (ix2 n j) = 𝔻t n j := by
  unfold kdEdt
  rw [val_main_v84_apply]
  refine Finset.sum_congr rfl fun k _ => ?_
  rw [lidx84, ridx84, st83 x0 x1 x2 x3 x4 x5 x6 x7 x8 x9 x10 x11 hW2 hb2]
  show _ = ℍ n k * cur x10 j k
  rw [cur_eq]

/-- That gradient is a real number, and so is the activation. -/
theorem fin_dt (hW2 : ∀ i, IsFin (x10 i)) (hb2 : ∀ i, IsFin (x11 i)) (n : Fin 50000) (j : Fin 96) : IsFin (𝔻t n j) := by
  unfold kdEdt
  refine IsFin.sum _ _ fun k _ => IsFin.mul (fin_h x0 x1 x2 x3 x4 x5 x6 x7 x8 x9 x10 x11 hW2 hb2 n k) ?_
  show IsFin (cur x10 j k)
  rw [cur_eq]; exact hW2 _
theorem fin_t (n : Fin 50000) (j : Fin 96) : IsFin (𝕋 n j) := by
  unfold kt; exact IsFin.tanh _

/-- The gradient with respect to the pre-activation: the derivative of the hyperbolic tangent in the program's spelling. -/
theorem st87 (hW2 : ∀ i, IsFin (x10 i)) (hb2 : ∀ i, IsFin (x11 i)) (n : Fin 50000) (j : Fin 96) :
    val_main_v87 x0 x1 x2 x3 x4 x5 x6 x7 x8 x9 x10 x11 (ix2 n j) = 𝔻u n j := by
  unfold kdEdu
  rw [val_main_v87_apply, val_main_v86_apply, val_main_v85_apply,
    st84 x0 x1 x2 x3 x4 x5 x6 x7 x8 x9 x10 x11 hW2 hb2, st71, st69]
  simp only [Ideal.addf_def, Ideal.mulf_def]
  exact tanh_step (fin_dt x0 x1 x2 x3 x4 x5 x6 x7 x8 x9 x10 x11 hW2 hb2 n j) (fin_t x0 x1 x2 x3 x4 x5 x6 x7 x8 x9 n j)

/-! ### Back through the hidden weights and the two linear layers: stages 88 to 93 and 109 to 111 -/

/-- The same indices for the product with the hidden weights, whose result has 192 columns. -/
theorem lidx88 (n : Fin 50000) (c : Fin 192) (k : Fin 96) : lidx_main_v88 (ix2 n c) k = ix2 n k :=
  funext fun a => match a with | ⟨0, _⟩ => rfl | ⟨1, _⟩ => rfl
theorem ridx88 (n : Fin 50000) (c : Fin 192) (k : Fin 96) : ridx_main_v88 (ix2 n c) k = ix2 c k :=
  funext fun a => match a with | ⟨0, _⟩ => rfl | ⟨1, _⟩ => rfl

/-- The gradient with respect to the joined layers: the product with the hidden weights over their second axis. -/
theorem st88 (hW2 : ∀ i, IsFin (x10 i)) (hb2 : ∀ i, IsFin (x11 i)) (n : Fin 50000) (c : Fin 192) :
    val_main_v88 x0 x1 x2 x3 x4 x5 x6 x7 x8 x9 x10 x11 (ix2 n c) = ∑ k : Fin 96, 𝔻u n k * cur x8 c k := by
  rw [val_main_v88_apply]
  refine Finset.sum_congr rfl fun k _ => ?_
  rw [lidx88, ridx88, st87 x0 x1 x2 x3 x4 x5 x6 x7 x8 x9 x10 x11 hW2 hb2, cur_eq]

/-- The two column slices read column j of the first half and column j of the second half. -/
theorem idx89 (n : Fin 50000) (j : Fin 96) : idx_main_v89 (ix2 n j) = ix2 n (lo j) :=
  funext fun a => match a with | ⟨0, _⟩ => rfl | ⟨1, _⟩ => rfl
theorem idx90 (n : Fin 50000) (j : Fin 96) : idx_main_v90 (ix2 n j) = ix2 n (hi j) :=
  funext fun a => match a with | ⟨0, _⟩ => rfl | ⟨1, _⟩ => rfl

local notation "𝔻q" => kdqg 𝔸 𝕣 (cur x4) (cur1 x5) (cur x6) (cur1 x7) (fun k j => cur x8 (lo k) j) (fun k j => cur x8 (hi k) j) (cur1 x9) (cur x10) (cur1 x11) (fun k j => cur x8 (lo j) k) (fun k j => cur x10 j k)
local notation "𝔻p" => kdpg 𝔸 𝕣 (cur x4) (cur1 x5) (cur x6) (cur1 x7) (fun k j => cur x8 (lo k) j) (fun k j => cur x8 (hi k) j) (cur1 x9) (cur x10) (cur1 x11) (fun k j => cur x8 (hi j) k) (fun k j => cur x10 j k)

/-- Its first half is the gradient with respect to the first layer, its second half with respect to the second. -/
theorem st89 (hW2 : ∀ i, IsFin (x10 i)) (hb2 : ∀ i, IsFin (x11 i)) (n : Fin 50000) (j : Fin 96) :
    val_main_v89 x0 x1 x2 x3 x4 x5 x6 x7 x8 x9 x10 x11 (ix2 n j) = 𝔻q n j := by
  unfold kdqg
  rw [val_main_v89_apply, idx89, st88 x0 x1 x2 x3 x4 x5 x6 x7 x8 x9 x10 x11 hW2 hb2]
theorem st90 (hW2 : ∀ i, IsFin (x10 i)) (hb2 : ∀ i, IsFin (x11 i)) (n : Fin 50000) (j : Fin 96) :
    val_main_v90 x0 x1 x2 x3 x4 x5 x6 x7 x8 x9 x10 x11 (ix2 n j) = 𝔻p n j := by
  unfold kdpg
  rw [val_main_v90_apply, idx90, st88 x0 x1 x2 x3 x4 x5 x6 x7 x8 x9 x10 x11 hW2 hb2]

/-- The contraction indices of the two last products, again over the second axis of both factors. -/
theorem lidx109 (n : Fin 50000) (j k : Fin 96) : lidx_main_v109 (ix2 n j) k = ix2 n k :=
  funext fun a => match a with | ⟨0, _⟩ => rfl | ⟨1, _⟩ => rfl
theorem ridx109 (n : Fin 50000) (j k : Fin 96) : ridx_main_v109 (ix2 n j) k = ix2 j k :=
  funext fun a => match a with | ⟨0, _⟩ => rfl | ⟨1, _⟩ => rfl
theorem lidx91 (n : Fin 50000) (j k : Fin 96) : lidx_main_v91 (ix2 n j) k = ix2 n k :=
  funext fun a => match a with | ⟨0, _⟩ => rfl | ⟨1, _⟩ => rfl
theorem ridx91 (n : Fin 50000) (j k : Fin 96) : ridx_main_v91 (ix2 n j) k = ix2 j k :=
  funext fun a => match a with | ⟨0, _⟩ => rfl | ⟨1, _⟩ => rfl

/-- Back through the first linear layer, and through the second. -/
theorem st109 (hW2 : ∀ i, IsFin (x10 i)) (hb2 : ∀ i, IsFin (x11 i)) (n : Fin 50000) (j : Fin 96) :
    val_main_v109 x0 x1 x2 x3 x4 x5 x6 x7 x8 x9 x10 x11 (ix2 n j) = ∑ k : Fin 96, 𝔻q n k * cur x4 j k := by
  rw [val_main_v109_apply]
  refine Finset.sum_congr rfl fun k _ => ?_
  rw [lidx109, ridx109, st89 x0 x1 x2 x3 x4 x5 x6 x7 x8 x9 x10 x11 hW2 hb2, cur_eq]
theorem st91 (hW2 : ∀ i, IsFin (x10 i)) (hb2 : ∀ i, IsFin (x11 i)) (n : Fin 50000) (j : Fin 96) :
    val_main_v91 x0 x1 x2 x3 x4 x5 x6 x7 x8 x9 x10 x11 (ix2 n j) = ∑ k : Fin 96, 𝔻p n k * cur x6 j k := by
  rw [val_main_v91_apply]
  refine Finset.sum_congr rfl fun k _ => ?_
  rw [lidx91, ridx91, st90 x0 x1 x2 x3 x4 x5 x6 x7 x8 x9 x10 x11 hW2 hb2, cur_eq]

/-- The normaliser broadcast again for the final rescaling. -/
theorem idx110 (n : Fin 50000) (j : Fin 96) : idx_main_v25 (idx_main_v110 (ix2 n j)) = ix1 n :=
  funext fun a => match a with | ⟨0, _⟩ => rfl
theorem st110 (n : Fin 50000) (j : Fin 96) : val_main_v110 x3 (ix2 n j) = val_main_v24 x3 (ix1 n) := by
  rw [val_main_v110_apply, val_main_v25_apply, idx110]
theorem idx92 (n : Fin 50000) (j : Fin 96) : idx_main_v57 (idx_main_v92 (ix2 n j)) = ix1 n :=
  funext fun a => match a with | ⟨0, _⟩ => rfl
theorem st92 (n : Fin 50000) (j : Fin 96) : val_main_v92 x3 (ix2 n j) = val_main_v24 x3 (ix1 n) := by
  rw [val_main_v92_apply, val_main_v57_apply, idx92, v56_eq]

/-- The gradient with respect to the raw aggregate of the first feature array, as the dense function of the two raw
    aggregates, the target normaliser and the weights. -/
theorem dense_v111 (hW2 : ∀ i, IsFin (x10 i)) (hb2 : ∀ i, IsFin (x11 i)) (n : Fin 50000) (j : Fin 96) :
    cur (val_main_v111 x0 x1 x2 x3 x4 x5 x6 x7 x8 x9 x10 x11) n j
      = kgq (cat (cur (val_main_v22 x0 x2 x3)) (cur (val_main_v54 x1 x2 x3))) (cur1 (val_main_v24 x3))
          (cur x4) (cur1 x5) (cur x6) (cur1 x7) (fun k j => cur x8 (lo k) j) (fun k j => cur x8 (hi k) j) (cur1 x9)
          (cur x10) (cur1 x11) (fun k j => cur x4 j k) (fun k j => cur x8 (lo j) k) (fun k j => cur x10 j k) n j := by
  unfold kgq
  rw [cur_eq, val_main_v111_apply, st109 x0 x1 x2 x3 x4 x5 x6 x7 x8 x9 x10 x11 hW2 hb2, st110, Ideal.mulf_def, cur1_eq]
/-- The same for the second feature array. -/
theorem dense_v93 (hW2 : ∀ i, IsFin (x10 i)) (hb2 : ∀ i, IsFin (x11 i)) (n : Fin 50000) (j : Fin 96) :
    cur (val_main_v93 x0 x1 x2 x3 x4 x5 x6 x7 x8 x9 x10 x11) n j
      = kgp (cat (cur (val_main_v22 x0 x2 x3)) (cur (val_main_v54 x1 x2 x3))) (cur1 (val_main_v24 x3))
          (cur x4) (cur1 x5) (cur x6) (cur1 x7) (fun k j => cur x8 (lo k) j) (fun k j => cur x8 (hi k) j) (cur1 x9)
          (cur x10) (cur1 x11) (fun k j => cur x6 j k) (fun k j => cur x8 (hi j) k) (fun k j => cur x10 j k) n j := by
  unfold kgp
  rw [cur_eq, val_main_v93_apply, st91 x0 x1 x2 x3 x4 x5 x6 x7 x8 x9 x10 x11 hW2 hb2, st92, Ideal.mulf_def, cur1_eq]

end Cert.ReferenceIdeal.RefDense

end
-- ==== Proof.RefBack.lean ====
/-
  The last part of the reference, read at an index: the backward aggregate of each gradient and the two results.
-/
import proofs.«408811_j18047452578207_2_alg».proof.Proof.Gen.ReferenceIdeal.Read
import proofs.«408811_j18047452578207_2_alg».proof.Proof.Spec
import proofs.«408811_j18047452578207_2_alg».proof.Proof.LibRowGather
import proofs.«408811_j18047452578207_2_alg».proof.Proof.LibRowScatterAdd
import proofs.«408811_j18047452578207_2_alg».proof.Proof.LibKeepdims
import proofs.«408811_j18047452578207_2_alg».proof.Proof.LibHostRead
import Idealize.ShloMosaic.Lib.StableHlo.Predicate
import Idealize.ShloMosaic.Lib.IdealHost

noncomputable section

namespace Cert.ReferenceIdeal.RefBack

open Cert.ReferenceIdeal Cert.ReferenceIdeal.Gen Cert.ReferenceIdeal.Read Cert.Spec
open Idealize.ShloMosaic Idealize.ShloMosaic.TcCoe Idealize.ShloMosaic.ValueIdx Idealize.SL.Sem

/-- A left fold by `and` from the bit 1 over bits that are all 1 is the bit 1. -/
theorem foldl_andi_ones {ι : Type} (f : ι → BitVec 1) :
    ∀ (l : List ι), (∀ n ∈ l, f n = 1#1) → l.foldl (fun r n => IntOp.andi r (f n)) 1#1 = 1#1
  | [], _ => rfl
  | a :: l, h => by
    rw [List.foldl_cons, h a List.mem_cons_self, show IntOp.andi (1#1 : BitVec 1) 1#1 = 1#1 from by decide]
    exact foldl_andi_ones f l (fun n hn => h n (List.mem_cons_of_mem _ hn))

/-- A reduction by `and` from the bit 1 of an array whose every bit is 1 is 1 everywhere. -/
theorem reduce_andi_ones {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_ones x _ (fun i _ => hx i)

/-- The word of an in-range end, read unsigned, is the node's number. -/
theorem inRange_toNat {w : (⟨1, ![EE]⟩ : Shape).Idx → BitVec 32} {ix : Ends} (h : InRange w ix) (e : Fin EE) :
    (w (ix1 e)).toNat = (ix e).val := by
  have hlt : (ix e).val < 50000 := (ix e).isLt
  rw [h e, BitVec.toNat_ofNat]
  exact Nat.mod_eq_of_lt (by omega)

/-- The word of an in-range end, read signed, is the node's number. -/
theorem inRange_toInt {w : (⟨1, ![EE]⟩ : Shape).Idx → BitVec 32} {ix : Ends} (h : InRange w ix) (e : Fin EE) :
    (w (ix1 e)).toInt = ((ix e).val : Int) := by
  have hlt : (ix e).val < 50000 := (ix e).isLt
  rw [h e]
  exact StableHlo.Predicate.toInt_ofNat_small _ (by omega)

variable (x0 x1 : (⟨S50000x96, .f32⟩ : BufTy).Contents (Elt Ideal)) (x2 x3 : (⟨S800000, .i32⟩ : BufTy).Contents (Elt Ideal))
  (x4 : (⟨S96x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 : (⟨S192x96, .f32⟩ : BufTy).Contents (Elt Ideal)) (x9 : (⟨S96, .f32⟩ : BufTy).Contents (Elt Ideal))
  (x10 : (⟨S96x96, .f32⟩ : BufTy).Contents (Elt Ideal)) (x11 : (⟨S96, .f32⟩ : BufTy).Contents (Elt Ideal))
  (s d : Ends)

/-- An index word as a column reads, at row e, the word of e. -/
theorem col_apply (w : (⟨S800000, .i32⟩ : BufTy).Contents (Elt Ideal)) (e : Fin 800000) (u : Fin 1) :
    broadcastInDim S800000x1 ![0] bcast_S800000_S800000x1_0 w (ix2 e u) = w (ix1 e) :=
  Cert.LibKeepdims.broadcastInDim_a_a1_apply w bcast_S800000_S800000x1_0 e u

/-- The negative-index wrap leaves an in-range word as it is (first copy of the wrap). -/
theorem wrap_v49 (hs : InRange x2 s) (e : Fin 800000) : val_main_v49 x2 (ix1 e) = x2 (ix1 e) := by
  have hn := inRange_toNat hs e
  have hlt : (s e).val < 50000 := (s e).isLt
  rw [val_main_v49_apply, val_main_v46_apply, val_main_v45_apply, val_main_c_12_apply]
  have hc : ¬ IntOp.cmpi .slt (x2 (ix1 e)) 0#32 = 1#1 := by
    rw [StableHlo.Predicate.slt_iff_toNat (by omega) (by decide)]
    show ¬ (x2 (ix1 e)).toNat < 0
    omega
  exact if_neg hc

/-- A small non-negative word is not below zero. -/
theorem not_slt_zero (w : BitVec 32) (h : w.toNat < 50000) : ¬ IntOp.cmpi .slt w 0#32 = 1#1 := by
  rw [StableHlo.Predicate.slt_iff_toNat (by omega) (by decide)]
  show ¬ w.toNat < 0
  omega

/-- The same for the second copy of the wrap. -/
theorem wrap_v17 (hs : InRange x2 s) (e : Fin 800000) : val_main_v17 x2 (ix1 e) = x2 (ix1 e) := by
  have hn := inRange_toNat hs e
  have hlt : (s e).val < 50000 := (s e).isLt
  rw [val_main_v17_apply, val_main_v14_apply, val_main_v13_apply, val_main_c_apply]
  exact if_neg (not_slt_zero _ (by omega))

/-- A word below 50000 passes both range tests: it is at least 0 and at most 49999. -/
theorem inside_bit (w : BitVec 32) (h : w.toNat < 50000) :
    IntOp.andi (IntOp.cmpi .sge w 0#32) (IntOp.cmpi .sle w 49999#32) = 1#1 := by
  have e0 : (0#32 : BitVec 32).toNat = 0 := rfl
  have e1 : (49999#32 : BitVec 32).toNat = 49999 := rfl
  have h1 : IntOp.cmpi .sge w 0#32 = 1#1 :=
    (StableHlo.Predicate.sge_iff_toNat (by omega) (by decide)).2 (by rw [e0]; omega)
  have h2 : IntOp.cmpi .sle w 49999#32 = 1#1 :=
    (StableHlo.Predicate.sle_iff_toNat (by omega) (by decide)).2 (by rw [e1]; omega)
  rw [h1, h2]
  decide

/-- The range mask of the raw target column is 1 at every edge (first copy). -/
theorem mask_v100 (hd : InRange x3 d) (j : S800000.Idx) : val_main_v100 x3 j = 1#1 := by
  unfold val_main_v100
  refine reduce_andi_ones _ _ _ _ rfl (fun i => ?_) j
  obtain ⟨e, u, rfl⟩ : ∃ e u, i = ix2 e u := ⟨i 0, i 1, eq_ix2 i⟩
  rw [val_main_v99_apply, val_main_v95_apply, val_main_v98_apply, val_main_v94_apply, val_main_c_22_apply,
    val_main_v97_apply, val_main_v96_apply, val_main_c_21_apply]
  have hv : val_main_v53 x3 (ix2 e u) = x3 (ix1 e) := col_apply x3 e u
  rw [hv]
  exact inside_bit _ (by rw [inRange_toNat hd e]; exact (d e).isLt)

/-- The range mask of the raw target column is 1 at every edge (second copy). -/
theorem mask_v118 (hd : InRange x3 d) (j : S800000.Idx) : val_main_v118 x3 j = 1#1 := by
  unfold val_main_v118
  refine reduce_andi_ones _ _ _ _ rfl (fun i => ?_) j
  obtain ⟨e, u, rfl⟩ : ∃ e u, i = ix2 e u := ⟨i 0, i 1, eq_ix2 i⟩
  rw [val_main_v117_apply, val_main_v113_apply, val_main_v116_apply, val_main_v112_apply, val_main_c_27_apply,
    val_main_v115_apply, val_main_v114_apply, val_main_c_26_apply]
  have hv : val_main_v21 x3 (ix2 e u) = x3 (ix1 e) := col_apply x3 e u
  rw [hv]
  exact inside_bit _ (by rw [inRange_toNat hd e]; exact (d e).isLt)

/-- Rows gathered at the raw column of in-range target words: row e of the result is row d e of the operand. -/
theorem gather_at (hd : InRange x3 d) (X : (⟨S50000x96, .f32⟩ : BufTy).Contents (Elt Ideal)) (e : Fin 800000) (j : Fin 96) :
    Host.gather gather_S50000x96_S800000x1_S800000x96_1_0_n_n_0_1_196 X
        (broadcastInDim S800000x1 ![0] bcast_S800000_S800000x1_0 x3) (ix2 e j) = X (ix2 (d e) j) := by
  have hrow : gatherRow (N := 50000) (by decide) (broadcastInDim S800000x1 ![0] bcast_S800000_S800000x1_0 x3) e = d e := by
    refine Fin.ext ?_
    show min ((broadcastInDim S800000x1 ![0] bcast_S800000_S800000x1_0 x3) (ix2 e (0 : Fin 1))).toInt.toNat (50000 - 1)
      = (d e).val
    rw [col_apply, inRange_toInt hd e]
    have : (d e).val < 50000 := (d e).isLt
    omega
  refine (rowGather_apply (N := 50000) (R := 800000) (C := 96) (by decide) _ X _ e j).trans ?_
  rw [hrow]

/-- The program's row scatter-add read at (n, j): the operand's entry plus the sum of the updates' entries in column j over
    the rows whose index word, read signed, is n. -/
theorem scatter_read (idx : IVec S800000x1 32) (Z : FVec Ideal S50000x96 .f32) (U : FVec Ideal S800000x96 .f32)
    (n : Fin 50000) (j : Fin 96) :
    Host.scatterAdd (F := Ideal) (φ := .f32) scatter_S50000x96_S800000x1_S800000x96_1_0_0_1 Z idx U (ix2 n j)
      = Z (ix2 n j) + ∑ r : Fin 800000, if (idx (ix2 r (0 : Fin 1))).toInt = (n.val : Int) then U (ix2 r j) else 0 :=
  rowScatterAdd_apply (N := 50000) (R := 800000) (C := 96)
    Facts₀.scatter_S50000x96_S800000x1_S800000x96_1_0_0_1_wf Z idx U n j

/-- A row scatter-add into zeros, at a column of in-range source words, of rows that are the target's rows of g:
    the backward aggregate of g. -/
theorem scatter_at (hs : InRange x2 s) (idx : IVec S800000x1 32)
    (hidx : ∀ e : Fin 800000, idx (ix2 e (0 : Fin 1)) = x2 (ix1 e))
    (Z : FVec Ideal S50000x96 .f32) (hZ : ∀ i, Z i = (0 : EReal))
    (U : FVec Ideal S800000x96 .f32) (g : Mat NN HH)
    (hU : ∀ (e : Fin 800000) (j : Fin 96), U (ix2 e j) = g (d e) j) (n : Fin 50000) (j : Fin 96) :
    Host.scatterAdd (F := Ideal) (φ := .f32) scatter_S50000x96_S800000x1_S800000x96_1_0_0_1 Z idx U (ix2 n j) = bwd s d g n j := by
  rw [scatter_read idx Z U n j]
  unfold bwd
  rw [hZ]
  refine congrArg (fun t => (0 : EReal) + t) (Finset.sum_congr rfl (fun e _ => ?_))
  rw [hidx e, inRange_toInt hs e, hU e j]
  by_cases h : s e = n
  · rw [if_pos h, if_pos (by rw [h])]
  · rw [if_neg h, if_neg (fun hh => h (Fin.ext (by exact_mod_cast hh)))]

/-- The zero operand of the first scatter. -/
theorem zeros_v105 (i : S50000x96.Idx) : val_main_v105 (F := Ideal) i = (0 : EReal) := by
  rw [val_main_v105_apply, val_main_cst_25_apply]
  exact Ideal.ofBits_zero_f32

/-- The zero operand of the second scatter. -/
theorem zeros_v123 (i : S50000x96.Idx) : val_main_v123 (F := Ideal) i = (0 : EReal) := by
  rw [val_main_v123_apply, val_main_cst_30_apply]
  exact Ideal.ofBits_zero_f32

/-- The step size of the first result: the constant one. -/
theorem ones_v127 (i : S50000x96.Idx) : val_main_v127 (F := Ideal) i = (1 : EReal) := by
  rw [val_main_v127_apply, val_main_cst_31_apply]
  exact Ideal.ofBits_one_f32

/-- The step size of the second result: the constant one. -/
theorem ones_v130 (i : S50000x96.Idx) : val_main_v130 (F := Ideal) i = (1 : EReal) := by
  rw [val_main_v130_apply, val_main_cst_32_apply]
  exact Ideal.ofBits_one_f32

/-- The masked gathered rows of the second gradient: row e is the gradient's row at the target of e. -/
theorem upd_v104 (hd : InRange x3 d) (e : Fin 800000) (j : Fin 96) :
    val_main_v104 x0 x1 x2 x3 x4 x5 x6 x7 x8 x9 x10 x11 (ix2 e j) = cur (val_main_v93 x0 x1 x2 x3 x4 x5 x6 x7 x8 x9 x10 x11) (d e) j := by
  rw [val_main_v104_apply, val_main_v102_apply, mask_v100 x3 d hd]
  refine (select_one _ _).trans ?_
  show val_main_v101 x0 x1 x2 x3 x4 x5 x6 x7 x8 x9 x10 x11 (ix2 e j) = val_main_v93 x0 x1 x2 x3 x4 x5 x6 x7 x8 x9 x10 x11 (ix2 (d e) j)
  unfold val_main_v101 val_main_v53
  exact gather_at x3 d hd _ e j

/-- The masked gathered rows of the first gradient. -/
theorem upd_v122 (hd : InRange x3 d) (e : Fin 800000) (j : Fin 96) :
    val_main_v122 x0 x1 x2 x3 x4 x5 x6 x7 x8 x9 x10 x11 (ix2 e j) = cur (val_main_v111 x0 x1 x2 x3 x4 x5 x6 x7 x8 x9 x10 x11) (d e) j := by
  rw [val_main_v122_apply, val_main_v120_apply, mask_v118 x3 d hd]
  refine (select_one _ _).trans ?_
  show val_main_v119 x0 x1 x2 x3 x4 x5 x6 x7 x8 x9 x10 x11 (ix2 e j) = val_main_v111 x0 x1 x2 x3 x4 x5 x6 x7 x8 x9 x10 x11 (ix2 (d e) j)
  unfold val_main_v119 val_main_v21
  exact gather_at x3 d hd _ e j

/-- The first scatter is the backward aggregate of the second gradient. -/
theorem agg_v106 (hs : InRange x2 s) (hd : InRange x3 d) (n : Fin 50000) (j : Fin 96) :
    val_main_v106 x0 x1 x2 x3 x4 x5 x6 x7 x8 x9 x10 x11 (ix2 n j) = bwd s d (cur (val_main_v93 x0 x1 x2 x3 x4 x5 x6 x7 x8 x9 x10 x11)) n j := by
  unfold val_main_v106
  refine scatter_at x2 s d hs (val_main_v50 x2) (fun e => ?_) _ zeros_v105 _ _ (fun e j => upd_v104 x0 x1 x2 x3 x4 x5 x6 x7 x8 x9 x10 x11 d hd e j) n j
  show broadcastInDim S800000x1 ![0] bcast_S800000_S800000x1_0 (val_main_v49 x2) (ix2 e (0 : Fin 1)) = x2 (ix1 e)
  exact (col_apply (val_main_v49 x2) e 0).trans (wrap_v49 x2 s hs e)

/-- The second scatter is the backward aggregate of the first gradient. -/
theorem agg_v124 (hs : InRange x2 s) (hd : InRange x3 d) (n : Fin 50000) (j : Fin 96) :
    val_main_v124 x0 x1 x2 x3 x4 x5 x6 x7 x8 x9 x10 x11 (ix2 n j) = bwd s d (cur (val_main_v111 x0 x1 x2 x3 x4 x5 x6 x7 x8 x9 x10 x11)) n j := by
  unfold val_main_v124
  refine scatter_at x2 s d hs (val_main_v18 x2) (fun e => ?_) _ zeros_v123 _ _ (fun e j => upd_v122 x0 x1 x2 x3 x4 x5 x6 x7 x8 x9 x10 x11 d hd e j) n j
  show broadcastInDim S800000x1 ![0] bcast_S800000_S800000x1_0 (val_main_v17 x2) (ix2 e (0 : Fin 1)) = x2 (ix1 e)
  exact (col_apply (val_main_v17 x2) e 0).trans (wrap_v17 x2 s hs e)

/-- The source normaliser kept as a column and spread over the features reads, at (n, j), its entry of node n. -/
theorem scale_v107 (n : Fin 50000) (j : Fin 96) :
    val_main_v107 (F := Ideal) x2 (ix2 n j) = cur1 (val_main_v41 x2) n := by
  unfold val_main_v107 val_main_v42
  exact (Cert.LibKeepdims.broadcastInDim_a1_ab_apply _ bcast_S50000x1_S50000x96_0_1 n j).trans
    (Cert.LibKeepdims.broadcastInDim_a_a1_apply (val_main_v41 x2) bcast_S50000_S50000x1_0 n 0)

/-- The same for the other copy of the source normaliser. -/
theorem scale_v125 (n : Fin 50000) (j : Fin 96) :
    val_main_v125 (F := Ideal) x2 (ix2 n j) = cur1 (val_main_v9 x2) n := by
  unfold val_main_v125 val_main_v10
  exact (Cert.LibKeepdims.broadcastInDim_a1_ab_apply _ bcast_S50000x1_S50000x96_0_1 n j).trans
    (Cert.LibKeepdims.broadcastInDim_a_a1_apply (val_main_v9 x2) bcast_S50000_S50000x1_0 n 0)

/-- The first result: the first feature array plus one times the rescaled backward aggregate of the second gradient. -/
theorem back_v129 (hs : InRange x2 s) (hd : InRange x3 d) (n : Fin 50000) (j : Fin 96) :
    cur (val_main_v129 x0 x1 x2 x3 x4 x5 x6 x7 x8 x9 x10 x11) n j
      = cur x0 n j + 1 * (bwd s d (cur (val_main_v93 x0 x1 x2 x3 x4 x5 x6 x7 x8 x9 x10 x11)) n j * cur1 (val_main_v41 x2) n) := by
  show val_main_v129 x0 x1 x2 x3 x4 x5 x6 x7 x8 x9 x10 x11 (ix2 n j) = _
  rw [val_main_v129_apply, val_main_v128_apply, val_main_v108_apply, ones_v127,
    agg_v106 x0 x1 x2 x3 x4 x5 x6 x7 x8 x9 x10 x11 s d hs hd n j, scale_v107 x2 n j]
  rfl

/-- The second result: the second feature array minus one times the rescaled backward aggregate of the first gradient. -/
theorem back_v132 (hs : InRange x2 s) (hd : InRange x3 d) (n : Fin 50000) (j : Fin 96) :
    cur (val_main_v132 x0 x1 x2 x3 x4 x5 x6 x7 x8 x9 x10 x11) n j
      = cur x1 n j - 1 * (bwd s d (cur (val_main_v111 x0 x1 x2 x3 x4 x5 x6 x7 x8 x9 x10 x11)) n j * cur1 (val_main_v9 x2) n) := by
  show val_main_v132 x0 x1 x2 x3 x4 x5 x6 x7 x8 x9 x10 x11 (ix2 n j) = _
  rw [val_main_v132_apply, val_main_v131_apply, val_main_v126_apply, ones_v130,
    agg_v124 x0 x1 x2 x3 x4 x5 x6 x7 x8 x9 x10 x11 s d hs hd n j, scale_v125 x2 n j]
  rfl

end Cert.ReferenceIdeal.RefBack

end
-- ==== Proof.RefValue.lean ====
/-
  The reference's two results, read at an index, are the specification's leapfrog step.

  The reference rescales the backward aggregate of each gradient by the source normaliser and takes the step; each
  gradient is the dense function of the two raw forward aggregates, which are sums over the edges. Laying the two
  aggregates side by side is aggregating the two feature arrays laid side by side, because an aggregate treats every
  column alike.
-/
import proofs.«408811_j18047452578207_2_alg».proof.Proof.Gen.ReferenceIdeal.Read
import proofs.«408811_j18047452578207_2_alg».proof.Proof.Spec
import proofs.«408811_j18047452578207_2_alg».proof.Proof.RefGraph
import proofs.«408811_j18047452578207_2_alg».proof.Proof.RefDense
import proofs.«408811_j18047452578207_2_alg».proof.Proof.RefBack

noncomputable section

namespace Cert.ReferenceIdeal.RefValue

open Cert.ReferenceIdeal Cert.ReferenceIdeal.Gen Cert.ReferenceIdeal.Read Cert.Spec
open Idealize.ShloMosaic Idealize.ShloMosaic.TcCoe Idealize.ShloMosaic.ValueIdx Idealize.SL.Sem

variable (x0 x1 : (⟨S50000x96, .f32⟩ : BufTy).Contents (Elt Ideal)) (x2 x3 : (⟨S800000, .i32⟩ : BufTy).Contents (Elt Ideal))
  (x4 : (⟨S96x96, .f32⟩ : BufTy).Contents (Elt Ideal)) (x5 : (⟨S96, .f32⟩ : BufTy).Contents (Elt Ideal))
  (x6 : (⟨S96x96, .f32⟩ : BufTy).Contents (Elt Ideal)) (x7 : (⟨S96, .f32⟩ : BufTy).Contents (Elt Ideal))
  (x8 : (⟨S192x96, .f32⟩ : BufTy).Contents (Elt Ideal)) (x9 : (⟨S96, .f32⟩ : BufTy).Contents (Elt Ideal))
  (x10 : (⟨S96x96, .f32⟩ : BufTy).Contents (Elt Ideal)) (x11 : (⟨S96, .f32⟩ : BufTy).Contents (Elt Ideal))
  (s d : Ends)

/-- Two forward aggregates side by side are the forward aggregate of the two arrays side by side. -/
theorem fwd_cat (X Y : Mat NN HH) : cat (fwd s d X) (fwd s d Y) = fwd s d (cat X Y) := by
  funext n j
  unfold cat fwd
  by_cases hj : j.val < 96
  · rw [dif_pos hj]
    refine congrArg (0 + ·) (Finset.sum_congr rfl fun e _ => ?_)
    dsimp only
    rw [dif_pos hj]
  · rw [dif_neg hj]
    refine congrArg (0 + ·) (Finset.sum_congr rfl fun e _ => ?_)
    dsimp only
    rw [dif_neg hj]

/-- The raw aggregates and the target normaliser, as the specification's. -/
theorem stages (hs : InRange x2 s) (hd : InRange x3 d) :
    cat (cur (val_main_v22 x0 x2 x3)) (cur (val_main_v54 x1 x2 x3)) = fwd s d (cat (cur x0) (cur x1))
      ∧ cur1 (val_main_v24 x3) = rs d := by
  have h22 : cur (val_main_v22 x0 x2 x3) = fwd s d (cur x0) :=
    funext fun n => funext fun j => RefGraph.fwd_v22 x0 x2 x3 s d hs hd n j
  have h54 : cur (val_main_v54 x1 x2 x3) = fwd s d (cur x1) :=
    funext fun n => funext fun j => RefGraph.fwd_v54 x1 x2 x3 s d hs hd n j
  exact ⟨by rw [h22, h54, fwd_cat], funext fun n => RefGraph.rs_v24 x3 d hd n⟩

/-- The gradient with respect to the raw aggregate of the first feature array, and of the second. -/
theorem gq_eq (hs : InRange x2 s) (hd : InRange x3 d) (hW2 : ∀ i, IsFin (x10 i)) (hb2 : ∀ i, IsFin (x11 i)) :
    cur (val_main_v111 x0 x1 x2 x3 x4 x5 x6 x7 x8 x9 x10 x11) = gq (cur x0) (cur x1) s d (cur x4) (cur x6) (cur x10) (cur1 x5) (cur1 x7) (cur1 x9) (cur1 x11) (cur x8) := by
  funext n j
  obtain ⟨hA, hr⟩ := stages x0 x1 x2 x3 s d hs hd
  rw [RefDense.dense_v111 x0 x1 x2 x3 x4 x5 x6 x7 x8 x9 x10 x11 hW2 hb2 n j, hA, hr]
  rfl

theorem gp_eq (hs : InRange x2 s) (hd : InRange x3 d) (hW2 : ∀ i, IsFin (x10 i)) (hb2 : ∀ i, IsFin (x11 i)) :
    cur (val_main_v93 x0 x1 x2 x3 x4 x5 x6 x7 x8 x9 x10 x11) = gp (cur x0) (cur x1) s d (cur x4) (cur x6) (cur x10) (cur1 x5) (cur1 x7) (cur1 x9) (cur1 x11) (cur x8) := by
  funext n j
  obtain ⟨hA, hr⟩ := stages x0 x1 x2 x3 s d hs hd
  rw [RefDense.dense_v93 x0 x1 x2 x3 x4 x5 x6 x7 x8 x9 x10 x11 hW2 hb2 n j, hA, hr]
  rfl

/-- The first result. -/
theorem q_eq (hs : InRange x2 s) (hd : InRange x3 d) (hW2 : ∀ i, IsFin (x10 i)) (hb2 : ∀ i, IsFin (x11 i))
    (n : Fin 50000) (j : Fin 96) :
    cur (val_main_v129 x0 x1 x2 x3 x4 x5 x6 x7 x8 x9 x10 x11) n j = qNext (cur x0) (cur x1) s d (cur x4) (cur x6) (cur x10) (cur1 x5) (cur1 x7) (cur1 x9) (cur1 x11) (cur x8) n j := by
  rw [RefBack.back_v129 x0 x1 x2 x3 x4 x5 x6 x7 x8 x9 x10 x11 s d hs hd n j, gp_eq x0 x1 x2 x3 x4 x5 x6 x7 x8 x9 x10 x11 s d hs hd hW2 hb2, RefGraph.rs_v41 x2 s hs n]
  rfl

/-- The second result. -/
theorem p_eq (hs : InRange x2 s) (hd : InRange x3 d) (hW2 : ∀ i, IsFin (x10 i)) (hb2 : ∀ i, IsFin (x11 i))
    (n : Fin 50000) (j : Fin 96) :
    cur (val_main_v132 x0 x1 x2 x3 x4 x5 x6 x7 x8 x9 x10 x11) n j = pNext (cur x0) (cur x1) s d (cur x4) (cur x6) (cur x10) (cur1 x5) (cur1 x7) (cur1 x9) (cur1 x11) (cur x8) n j := by
  rw [RefBack.back_v132 x0 x1 x2 x3 x4 x5 x6 x7 x8 x9 x10 x11 s d hs hd n j, gq_eq x0 x1 x2 x3 x4 x5 x6 x7 x8 x9 x10 x11 s d hs hd hW2 hb2, RefGraph.rs_v9 x2 s hs n]
  rfl

end Cert.ReferenceIdeal.RefValue

end
-- ==== Proof.PreFacts.lean ====
/-
  What the precondition says, entry by entry: the last weight matrix and the last bias vector hold real numbers, and
  each of the two index arrays names a node of the graph at every edge.
-/
import proofs.«408811_j18047452578207_2_alg».proof.Pre_finite_inputs
import proofs.«408811_j18047452578207_2_alg».proof.Proof.Spec
import Idealize.ShloMosaic.Lib.ReduceAll
import Idealize.ShloMosaic.Lib.StableHlo.Predicate

noncomputable section

namespace Cert.PreFacts

open Cert.Pre_finite_inputs Cert.Spec
open Idealize.ShloMosaic Idealize.ShloMosaic.ValueIdx

variable [Cert.Pre_finite_inputs.Facts]

/-- The empty shape has one index. -/
local instance subsingleton_S_ : Subsingleton S_.Idx := ⟨fun a b => funext fun d => d.elim0⟩

/-- The word 0x7F800000 is plus infinity. -/
theorem inf_word : Ideal.ofBits .f32 0x7F800000#32 = (⊤ : EReal) := by
  simp [Ideal.ofBits, Ideal.ieee]

/-- An extended real whose absolute value max x (-x) is below plus infinity is a real number. -/
theorem isFin_of_abs_lt (x : EReal)
    (h : FloatOps.cmpf (F := Ideal) (φ := .f32) .olt (FloatOps.hostAbsf (F := Ideal) (φ := .f32) x) (FloatOps.ofBits (F := Ideal) .f32 0x7F800000#32) = 1#1) :
    IsFin x := by
  change Ideal.cmp .olt (max x (-x)) (Ideal.ofBits .f32 0x7F800000#32) = 1#1 at h
  rw [inf_word] at h
  unfold Ideal.cmp at h
  rw [StableHlo.Predicate.ofBool_eq_one_iff] at h
  have h' : max x (-x) < ⊤ := of_decide_eq_true h
  induction x using EReal.rec with
  | bot => exact absurd h' (by simp)
  | top => exact absurd h' (by simp)
  | coe r => exact IsFin.coe r

/-- A word that is at least 0 and below 50000, both read signed, has a value below 50000. -/
theorem toNat_lt_of_signed (w : BitVec 32) (h0 : IntOp.cmpi .sge w 0#32 = 1#1) (h1 : IntOp.cmpi .slt w 50000#32 = 1#1) :
    w.toNat < 50000 := by
  unfold IntOp.cmpi at h0 h1
  rw [StableHlo.Predicate.ofBool_eq_one_iff] at h0 h1
  have a0 : (0#32 : BitVec 32).toInt ≤ w.toInt := by simpa [BitVec.sle] using h0
  have a1 : w.toInt < (50000#32 : BitVec 32).toInt := by simpa [BitVec.slt] using h1
  have t0 : (0#32 : BitVec 32).toInt = 0 := by decide
  have t1 : (50000#32 : BitVec 32).toInt = 50000 := by decide
  rw [t0] at a0
  rw [t1] at a1
  have hw : w.toNat < 2 ^ 32 := w.isLt
  rw [BitVec.toInt_eq_toNat_cond] at a0 a1
  split at a0 <;> omega

/-- The last part of the conjunction, split: the conjuncts before it hold, every entry of the first index array is below
    50000 where it is already known to be at least 0, and every entry of the second is at least 0 and below 50000
    (all compares signed). A conjunction of bits is 1 only if both are, and a reduction by "and" over a whole array is 1
    only if every entry is. -/
theorem part3_decode (a2 a3 : IVec S800000 32) (v48 : IVec S_ 1) (v50 : IVec S800000 1)
    (h : fn_part3 (F := Ideal) a2 a3 v48 v50 ix0 = 1#1) :
    v48 ix0 = 1#1
      ∧ (∀ e : Fin 800000, v50 (ix1 e) = 1#1 ∧ IntOp.cmpi .slt (a2 (ix1 e)) 50000#32 = 1#1)
      ∧ (∀ e : Fin 800000, IntOp.cmpi .sge (a3 (ix1 e)) 0#32 = 1#1 ∧ IntOp.cmpi .slt (a3 (ix1 e)) 50000#32 = 1#1) := by
  unfold fn_part3 at h
  dsimp only at h
  obtain ⟨h55, h61⟩ := IntOp.andi_eq_one.1 h
  obtain ⟨h48, h54⟩ := IntOp.andi_eq_one.1 h55
  refine ⟨h48, fun e => ?_, fun e => ?_⟩
  · exact IntOp.andi_eq_one.1 (Host.reduce_andi_all _ _ _ _ _ h54 (ix1 e))
  · exact IntOp.andi_eq_one.1 (Host.reduce_andi_all _ _ _ _ _ h61 (ix1 e))

/-- A word with a value below 50000 is the word of that value, so an array of such words names a node at every edge. -/
theorem inRange_of_lt (w : IVec S800000 32) (hlt : ∀ e : Fin 800000, (w (ix1 e)).toNat < 50000) : ∃ s : Ends, InRange w s := by
  refine ⟨fun e => ⟨(w (ix1 e)).toNat, hlt e⟩, fun e => ?_⟩
  show w (ix1 e) = BitVec.ofNat 32 (w (ix1 e)).toNat
  rw [BitVec.ofNat_toNat, BitVec.setWidth_eq]

/-- The part before it, split: the entries of the last weight matrix and of the last bias vector have absolute value
    below plus infinity, so they are real numbers; the two index arrays lie in [0, 50000) entry by entry. -/
theorem part2_decode (a2 a3 : IVec S800000 32) (a9 : FVec Ideal S96 .f32) (a10 : FVec Ideal S96x96 .f32)
    (a11 : FVec Ideal S96 .f32) (v33 : IVec S_ 1)
    (h : fn_part2 (F := Ideal) a2 a3 a9 a10 a11 v33 ix0 = 1#1) :
    (∀ i, IsFin (a10 i)) ∧ (∀ i, IsFin (a11 i)) ∧ (∃ s : Ends, InRange a2 s) ∧ (∃ d : Ends, InRange a3 d) := by
  unfold fn_part2 at h
  dsimp only at h
  obtain ⟨h48, hs, hd⟩ := part3_decode _ _ _ _ h
  obtain ⟨h43, h47⟩ := IntOp.andi_eq_one.1 h48
  obtain ⟨h38, h42⟩ := IntOp.andi_eq_one.1 h43
  refine ⟨fun i => ?_, fun i => ?_, ?_, ?_⟩
  · exact isFin_of_abs_lt (a10 i) (Host.reduce_andi_all _ _ _ _ _ h42 i)
  · exact isFin_of_abs_lt (a11 i) (Host.reduce_andi_all _ _ _ _ _ h47 i)
  · exact inRange_of_lt a2 fun e => toNat_lt_of_signed (a2 (ix1 e)) (hs e).1 (hs e).2
  · exact inRange_of_lt a3 fun e => toNat_lt_of_signed (a3 (ix1 e)) (hd e).1 (hd e).2

/-- The precondition, entry by entry: the whole conjunction is its first parts followed by the part split above. -/
theorem facts_of_pre (x0 x1 : FVec Ideal S50000x96 .f32) (x2 x3 : IVec S800000 32) (x4 : FVec Ideal S96x96 .f32)
    (x5 : FVec Ideal S96 .f32) (x6 : FVec Ideal S96x96 .f32) (x7 : FVec Ideal S96 .f32) (x8 : FVec Ideal S192x96 .f32)
    (x9 : FVec Ideal S96 .f32) (x10 : FVec Ideal S96x96 .f32) (x11 : FVec Ideal S96 .f32)
    (h : Cert.Pre_finite_inputs.fn (F := Ideal) x0 x1 x2 x3 x4 x5 x6 x7 x8 x9 x10 x11 = fun _ => 1#1) :
    (∀ i, IsFin (x10 i)) ∧ (∀ i, IsFin (x11 i)) ∧ (∃ s : Ends, InRange x2 s) ∧ (∃ d : Ends, InRange x3 d) := by
  have e := congrFun h ix0
  unfold Cert.Pre_finite_inputs.fn Cert.Pre_finite_inputs.fn_part1 at e
  dsimp only at e
  exact part2_decode x2 x3 x9 x10 x11 _ e

end Cert.PreFacts

end
-- ==== Proof.lean ====
/-
  Two ways of taking one leapfrog step of a Hamiltonian graph network are the same function of finite inputs whose
  edge lists name nodes of the graph.

  The energy of (q, p) is half the sum of the squares of h = tanh([qg | pg] W1 + b1) W2 + b2, where qg and pg are a
  graph convolution of q and of p: features scaled by the source's out-degree^(-1/2), summed over the edges into each
  node, scaled by the node's in-degree^(-1/2), then a linear layer. The reference differentiates the energy
  mechanically; the kernel writes the gradient out by hand, the dense part node by node inside two tiled regions and
  the two aggregations over the edges on the host, q and p laid side by side. On the extended reals the two agree:
  a count of edges is the same number whether the ones are added as integers or as reals; a matrix product against a
  transposed copy is the product contracted over the other axis; a sum over 192 columns is the sum of its two halves;
  h/2 + h/2 is h; and g(1 - t) + g(1 - t)t = g(1 - t^2) for REAL g and t, which is the one place where finiteness is
  used: t is a hyperbolic tangent, hence real, and g is a finite sum of products of h with entries of W2, real
  because W2 and b2 are. With every edge's two ends inside the node range the negative-index wrap, the clamp of a
  gather, the drop of a scatter and the reference's in-range mask are all the identity.

  Both programs are compared with one specification (Spec.lean): the kernel through its run with the results named,
  each region's output array read off its blocks, and the host operations read at an index; the reference through its
  generated run, stage by stage. The three frames are the two generated frames and the reference's run with the results
  dropped; the idealization rewrote nothing.
-/
import proofs.«408811_j18047452578207_2_alg».proof.Defs
import proofs.«408811_j18047452578207_2_alg».proof.Proof.Gen.Kernel
import proofs.«408811_j18047452578207_2_alg».proof.Proof.Gen.Kernel.Skeleton
import proofs.«408811_j18047452578207_2_alg».proof.Proof.Gen.Kernel.Launch
import proofs.«408811_j18047452578207_2_alg».proof.Proof.Gen.Kernel.Points
import proofs.«408811_j18047452578207_2_alg».proof.Proof.Gen.Kernel.Frame
import proofs.«408811_j18047452578207_2_alg».proof.Proof.Gen.KernelIdeal
import proofs.«408811_j18047452578207_2_alg».proof.Proof.Gen.KernelIdeal.Skeleton
import proofs.«408811_j18047452578207_2_alg».proof.Proof.Gen.KernelIdeal.Launch
import proofs.«408811_j18047452578207_2_alg».proof.Proof.Gen.KernelIdeal.Points
import proofs.«408811_j18047452578207_2_alg».proof.Proof.Gen.KernelIdeal.Frame
import proofs.«408811_j18047452578207_2_alg».proof.Proof.Gen.ReferenceIdeal
import proofs.«408811_j18047452578207_2_alg».proof.Proof.Gen.Pre_finite_inputs
import proofs.«408811_j18047452578207_2_alg».proof.Proof.RefStages
import proofs.«408811_j18047452578207_2_alg».proof.Proof.KernelRun
import proofs.«408811_j18047452578207_2_alg».proof.Proof.KValue
import proofs.«408811_j18047452578207_2_alg».proof.Proof.RefValue
import proofs.«408811_j18047452578207_2_alg».proof.Proof.PreFacts
import Idealize.ShloMosaic.Adequacy
import Idealize.ShloMosaic.Init

noncomputable section

namespace Cert.Proof

open Idealize.ShloMosaic Idealize.ShloMosaic.TcCoe Idealize.ShloMosaic.ValueIdx Idealize.SL.Sem Cert.Spec

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the two results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

section Key
variable (m : (ℓ : Loc Cert.KernelIdeal.nD Cert.KernelIdeal.τ Cert.KernelIdeal.sig) → Buf (Elt Ideal) ℓ)
  (ρ : Dev Cert.KernelIdeal.nD → PrngReg)
  (m' : (ℓ : Loc Cert.ReferenceIdeal.nD Cert.ReferenceIdeal.τ Cert.ReferenceIdeal.sig) → Buf (Elt Ideal) ℓ)
  (c : Dev Cert.KernelIdeal.nD)

/-- The reference's first result is what the kernel leaves in its first result buffer: both are the specification's
    q + 1 * dH/dp at every node and column. -/
theorem key0
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v129 m' c
      = Cert.KernelIdeal.Gen.W8 (F := Ideal) m ρ c (Proc.devRef .tc Cert.KernelIdeal.main_v56_0) := by
  obtain ⟨hW2, hb2, ⟨s, hs⟩, ⟨d, hd⟩⟩ := Cert.PreFacts.facts_of_pre _ _ _ _ _ _ _ _ _ _ _ _ hpre
  rw [Cert.ReferenceIdeal.Read.val_main_v129_eq, hag.1, hag.2.1, hag.2.2.1, hag.2.2.2.1, hag.2.2.2.2.1, hag.2.2.2.2.2.1, hag.2.2.2.2.2.2.1, hag.2.2.2.2.2.2.2.1, hag.2.2.2.2.2.2.2.2.1, hag.2.2.2.2.2.2.2.2.2.1, hag.2.2.2.2.2.2.2.2.2.2.1, hag.2.2.2.2.2.2.2.2.2.2.2]
  funext i
  rw [eq_ix2 i]
  exact (Cert.ReferenceIdeal.RefValue.q_eq _ _ _ _ _ _ _ _ _ _ _ _ s d hs hd hW2 hb2 (i 0) (i 1)).trans
    (Cert.KernelIdeal.KValue.res0 m ρ c s d hs hd (i 0) (i 1)).symm

/-- The same for the second result, p - 1 * dH/dq. -/
theorem key1
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) = fun _ => 1#1)
    (hag : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) :
    Cert.ReferenceIdeal.Value.res_main_v132 m' c
      = Cert.KernelIdeal.Gen.W8 (F := Ideal) m ρ c (Proc.devRef .tc Cert.KernelIdeal.main_v56_1) := by
  obtain ⟨hW2, hb2, ⟨s, hs⟩, ⟨d, hd⟩⟩ := Cert.PreFacts.facts_of_pre _ _ _ _ _ _ _ _ _ _ _ _ hpre
  rw [Cert.ReferenceIdeal.Read.val_main_v132_eq, hag.1, hag.2.1, hag.2.2.1, hag.2.2.2.1, hag.2.2.2.2.1, hag.2.2.2.2.2.1, hag.2.2.2.2.2.2.1, hag.2.2.2.2.2.2.2.1, hag.2.2.2.2.2.2.2.2.1, hag.2.2.2.2.2.2.2.2.2.1, hag.2.2.2.2.2.2.2.2.2.2.1, hag.2.2.2.2.2.2.2.2.2.2.2]
  funext i
  rw [eq_ix2 i]
  exact (Cert.ReferenceIdeal.RefValue.p_eq _ _ _ _ _ _ _ _ _ _ _ _ s d hs hd hW2 hb2 (i 0) (i 1)).trans
    (Cert.KernelIdeal.KValue.res1 m ρ c s d hs hd (i 0) (i 1)).symm
end Key

/-- From memories that agree on the arguments the two programs end with equal results: the kernel's run names its two
    result buffers' final contents, and the reference's run ends at the same two arrays. -/
theorem algebraic : Cert.algebraic_KernelIdeal_ReferenceIdeal := by
  intro m ρ m' ρ' hpre hagree
  refine ⟨fun c => Cert.KernelIdeal.Gen.W8 (F := Ideal) m ρ c (Proc.devRef .tc Cert.KernelIdeal.main_v56_0),
    fun c => Cert.KernelIdeal.Gen.W8 (F := Ideal) m ρ c (Proc.devRef .tc Cert.KernelIdeal.main_v56_1),
    Cert.KernelIdeal.Run.run (F := Ideal) m ρ, ?_⟩
  exact (θ_run Cert.ReferenceIdeal.defs _ _).mono
    (fun _ h c => ⟨(h c).1.trans (key0 m ρ m' c (hpre c) (hagree c)), (h c).2.1.trans (key1 m ρ m' c (hpre c) (hagree c)),
      (h c).2.2⟩)
    (Cert.ReferenceIdeal.Value.run (F := Ideal) m' ρ')

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
